-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S100000x512 : Shape := ⟨2, ![100000, 512]⟩
abbrev S1024 : Shape := ⟨1, ![1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x512 .f32) (main_arg1 : FVec F S100000x512 .f32) (main_arg2 : IVec S1024 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 100000#32
  let main_v13 : IVec S1024 32 := broadcastInDim S1024 ![] bcast_S_S1024 main_c_4
  let main_v14 : IVec S1024 1 := cmpi .slt main_arg2 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Kernel.lean ====
abbrev S1024x512 : Shape := ⟨2, ![1024, 512]⟩
abbrev S100000x512 : Shape := ⟨2, ![100000, 512]⟩
abbrev S1024 : Shape := ⟨1, ![1024]⟩
abbrev S_ : Shape := ⟨0, ![]⟩
abbrev S1024x1 : Shape := ⟨2, ![1024, 1]⟩
abbrev S2x1024x1 : Shape := ⟨3, ![2, 1024, 1]⟩
abbrev S1000x512 : Shape := ⟨2, ![1000, 512]⟩
abbrev S1x1024x1 : Shape := ⟨3, ![1, 1024, 1]⟩
abbrev S1000 : Shape := ⟨1, ![1000]⟩
abbrev S1000x1 : Shape := ⟨2, ![1000, 1]⟩
abbrev S1024x1000 : Shape := ⟨2, ![1024, 1000]⟩
abbrev S1 : Shape := ⟨1, ![1]⟩
abbrev S1x1 : Shape := ⟨2, ![1, 1]⟩

abbrev nBuf : Space → Nat
  | .hbm => 116
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .bf16⟩
  | .hbm, ⟨17, _⟩ => ⟨S2x1024x1, .f32⟩
  | .hbm, ⟨18, _⟩ => ⟨S2x1024x1, .f32⟩
  | .hbm, ⟨19, _⟩ => ⟨S1x1024x1, .f32⟩
  | .hbm, ⟨20, _⟩ => ⟨S1024x1, .f32⟩
  | .hbm, ⟨21, _⟩ => ⟨S1x1024x1, .f32⟩
  | .hbm, ⟨22, _⟩ => ⟨S1024x1, .f32⟩
  | .hbm, ⟨23, _⟩ => ⟨S1x1024x1, .f32⟩
  | .hbm, ⟨24, _⟩ => ⟨S1024x1, .f32⟩
  | .hbm, ⟨25, _⟩ => ⟨S1x1024x1, .f32⟩
  | .hbm, ⟨26, _⟩ => ⟨S1024x1, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S1024x1, .f32⟩
  | .hbm, ⟨33, _⟩ => ⟨S1024x1, .f32⟩
  | .hbm, ⟨34, _⟩ => ⟨S1024x1, .f32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S1024x1, .i32⟩
  | .hbm, ⟨43, _⟩ => ⟨S1, .i32⟩
  | .hbm, ⟨44, _⟩ => ⟨S_, .i32⟩
  | .hbm, ⟨45, _⟩ => ⟨S1024x1, .i32⟩
  | .hbm, ⟨46, _⟩ => ⟨S1024x1, .i1⟩
  | .hbm, ⟨47, _⟩ => ⟨S1x1, .i32⟩
  | .hbm, ⟨48, _⟩ => ⟨S1024x1, .i32⟩
  | .hbm, ⟨49, _⟩ => ⟨S1024x1, .i1⟩
  | .hbm, ⟨50, _⟩ => ⟨S1024x1, .i1⟩
  | .hbm, ⟨51, _⟩ => ⟨S_, .i1⟩
  | .hbm, ⟨52, _⟩ => ⟨S1024, .i1⟩
  | .hbm, ⟨53, _⟩ => ⟨S1024x512, .f32⟩
  | .hbm, ⟨54, _⟩ => ⟨S1024x512, .i1⟩
  | .hbm, ⟨55, _⟩ => ⟨S_, .f32⟩
  | .hbm, ⟨56, _⟩ => ⟨S1024x512, .f32⟩
  | .hbm, ⟨57, _⟩ => ⟨S1024x512, .f32⟩
  | .hbm, ⟨58, _⟩ => ⟨S1024x512, .f32⟩
  | .hbm, ⟨59, _⟩ => ⟨S_, .f32⟩
  | .hbm, ⟨60, _⟩ => ⟨S1024, .f32⟩
  | .hbm, ⟨61, _⟩ => ⟨S1024x1, .f32⟩
  | .hbm, ⟨62, _⟩ => ⟨S1024x1, .f32⟩
  | .hbm, ⟨63, _⟩ => ⟨S_, .f32⟩
  | .hbm, ⟨64, _⟩ => ⟨S1024x1, .f32⟩
  | .hbm, ⟨65, _⟩ => ⟨S1024x1, .f32⟩
  | .hbm, ⟨66, _⟩ => ⟨S1024x512, .f32⟩
  | .hbm, ⟨67, _⟩ => ⟨S1024x512, .f32⟩
  | .hbm, ⟨68, _⟩ => ⟨S1024x512, .bf16⟩
  | .hbm, ⟨69, _⟩ => ⟨S1024x512, .f32⟩
  | .hbm, ⟨70, _⟩ => ⟨S1024x512, .f32⟩
  | .hbm, ⟨71, _⟩ => ⟨S1024x512, .f32⟩
  | .hbm, ⟨72, _⟩ => ⟨S_, .f32⟩
  | .hbm, ⟨73, _⟩ => ⟨S1024, .f32⟩
  | .hbm, ⟨74, _⟩ => ⟨S1024x1, .f32⟩
  | .hbm, ⟨75, _⟩ => ⟨S_, .f32⟩
  | .hbm, ⟨76, _⟩ => ⟨S1024x1, .f32⟩
  | .hbm, ⟨77, _⟩ => ⟨S1024x1, .f32⟩
  | .hbm, ⟨78, _⟩ => ⟨S1024x1, .f32⟩
  | .hbm, ⟨79, _⟩ => ⟨S_, .f32⟩
  | .hbm, ⟨80, _⟩ => ⟨S1024x1, .f32⟩
  | .hbm, ⟨81, _⟩ => ⟨S1024x1, .f32⟩
  | .hbm, ⟨82, _⟩ => ⟨S_, .f32⟩
  | .hbm, ⟨83, _⟩ => ⟨S1024x1, .f32⟩
  | .hbm, ⟨84, _⟩ => ⟨S1024x1, .f32⟩
  | .hbm, ⟨85, _⟩ => ⟨S1024x1, .f32⟩
  | .hbm, ⟨86, _⟩ => ⟨S_, .f32⟩
  | .hbm, ⟨87, _⟩ => ⟨S1024x1, .f32⟩
  | .hbm, ⟨88, _⟩ => ⟨S1024x1, .f32⟩
  | .hbm, ⟨89, _⟩ => ⟨S_, .f32⟩
  | .hbm, ⟨90, _⟩ => ⟨S1024x1, .f32⟩
  | .hbm, ⟨91, _⟩ => ⟨S1024x1, .f32⟩
  | .hbm, ⟨92, _⟩ => ⟨S1024x1, .f32⟩
  | .hbm, ⟨93, _⟩ => ⟨S_, .f32⟩
  | .hbm, ⟨94, _⟩ => ⟨S1024x1, .f32⟩
  | .hbm, ⟨95, _⟩ => ⟨S1024x1, .i1⟩
  | .hbm, ⟨96, _⟩ => ⟨S_, .f32⟩
  | .hbm, ⟨97, _⟩ => ⟨S1024x1, .f32⟩
  | .hbm, ⟨98, _⟩ => ⟨S1024x1, .f32⟩
  | .hbm, ⟨99, _⟩ => ⟨S1024x1, .f32⟩
  | .hbm, ⟨100, _⟩ => ⟨S_, .f32⟩
  | .hbm, ⟨101, _⟩ => ⟨S1024x1, .f32⟩
  | .hbm, ⟨102, _⟩ => ⟨S1024x1, .f32⟩
  | .hbm, ⟨103, _⟩ => ⟨S1024x1, .f32⟩
  | .hbm, ⟨104, _⟩ => ⟨S1024x1, .f32⟩
  | .hbm, ⟨105, _⟩ => ⟨S1024x1, .f32⟩
  | .hbm, ⟨106, _⟩ => ⟨S1024x1, .f32⟩
  | .hbm, ⟨107, _⟩ => ⟨S1024x1, .f32⟩
  | .hbm, ⟨108, _⟩ => ⟨S1024x1, .f32⟩
  | .hbm, ⟨109, _⟩ => ⟨S1024x1, .f32⟩
  | .hbm, ⟨110, _⟩ => ⟨S1024x1, .f32⟩
  | .hbm, ⟨111, _⟩ => ⟨S1024x1, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .local _ .vmem, ⟨0, _⟩ => ⟨S1024x512, .bf16⟩
  | .local _ .vmem, ⟨1, _⟩ => ⟨S1000x512, .f32⟩
  | .local _ .vmem, ⟨2, _⟩ => ⟨S1000x512, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1, .f32⟩
  | .local _ .vmem, ⟨7, _⟩ => ⟨S1024x1, .f32⟩
  | .local _ .vmem, ⟨8, _⟩ => ⟨S1024x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v28 : Ref sig .tc := ⟨.hbm, 57, rfl⟩
abbrev main_v29 : Ref sig .tc := ⟨.hbm, 58, rfl⟩
abbrev main_cst_2 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_3 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_4 : Ref sig .tc := ⟨.hbm, 72, rfl⟩
abbrev main_v41 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_6 : Ref sig .tc := ⟨.hbm, 79, rfl⟩
abbrev main_v46 : Ref sig .tc := ⟨.hbm, 80, rfl⟩
abbrev main_v47 : Ref sig .tc := ⟨.hbm, 81, rfl⟩
abbrev main_cst_7 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_cst_9 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_10 : Ref sig .tc := ⟨.hbm, 93, rfl⟩
abbrev main_v56 : Ref sig .tc := ⟨.hbm, 94, rfl⟩
abbrev main_v57 : Ref sig .tc := ⟨.hbm, 95, rfl⟩
abbrev main_cst_11 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_12 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_13 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v36 : BitVec 1 := Scalar.cmpi .eq arg1 c49_i32
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S_S1024x512 : S_.BroadcastsInDim S1024x512 (![] : Fin 0 → Fin S1024x512.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1000x512_S1000x512_0_0 : ∀ a, (![0, 0] : Fin 2 → Nat) a + S1000x512.size a ≤ S1000x512.size a
  h_S1000x512 : 0 < S1000x512.numel
  reduces_S1000x512_S1000 : S1000x512.Reduces [1] S1000
  shapeCasts_S1000_S1000x1 : S1000.ShapeCasts S1000x1
  broadcasts_S1000x1_S1000x512 : S1000x1.Broadcasts S1000x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x1000_S1024 : S1024x1000.Reduces [1] S1024
  shapeCasts_S1024_S1024x1 : S1024.ShapeCasts S1024x1
  broadcasts_S1024x1_S1024x1000 : S1024x1.Broadcasts S1024x1000
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  slices_S2x1024x1_S1x1024x1_1_0_0 : S2x1024x1.Slices ![1, 0, 0] S1x1024x1
  bcast_S_S1024 : S_.BroadcastsInDim S1024 (![] : Fin 0 → Fin S1024.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x512_0 : S1024.BroadcastsInDim S1024x512 (![0] : Fin 1 → Fin S1024x512.rank)
  reducesTo_S1024x1_S_d0_1 : S1024x1.ReducesTo [0, 1] S_
  dot_S1024x512_S1000x512_S1024x1000_1_1_0_0_n_n_wf : DotDims.WF S1024x512 S1000x512 S1024x1000 [1] [1] [0] [0] [] []
  gather_S100000x512_S1024x1_S1024x512_1_0_n_n_0_1_1512_wf : GatherDims.WF S100000x512 S1024x1 S1024x512 [1] [0] [] [0] [] 1 ![1, 512]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S2x1024x1.size a
  hwx0_2 : ∀ i : grid0.Coords, EltTy.bits .f32 = 32 ∨ (Rect.block (s := S2x1024x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)

variable [Facts₀]

def dot_S1024x512_S1000x512_S1024x1000_1_1_0_0_n_n : DotDims S1024x512 S1000x512 S1024x1000 where
  lhsContracting := [1]
  rhsContracting := [1]
  lhsNonContracting := [0]
  rhsNonContracting := [0]
  lhsBatch := []
  rhsBatch := []
  wf := dot_S1024x512_S1000x512_S1024x1000_1_1_0_0_n_n_wf
def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf

abbrev win0_0 : Pipeline.Window sig grid0 :=
  Pipeline.Window.ofSpec (Memref.whole main_v10) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_1) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S100000x512 : Shape := ⟨2, ![100000, 512]⟩
abbrev S1024 : Shape := ⟨1, ![1024]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S512x100000 : Shape := ⟨2, ![512, 100000]⟩
abbrev S1024x100000 : Shape := ⟨2, ![1024, 100000]⟩
abbrev S1x100000 : Shape := ⟨2, ![1, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024, .i32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S1024x100000, .f32⟩
  | .hbm, ⟨25, _⟩ => ⟨S1024x100000, .f32⟩
  | .hbm, ⟨26, _⟩ => ⟨S_, .f32⟩
  | .hbm, ⟨27, _⟩ => ⟨S1024x100000, .f32⟩
  | .hbm, ⟨28, _⟩ => ⟨S1024x100000, .f32⟩
  | .hbm, ⟨29, _⟩ => ⟨S_, .f32⟩
  | .hbm, ⟨30, _⟩ => ⟨S1024x100000, .f32⟩
  | .hbm, ⟨31, _⟩ => ⟨S1024x100000, .f32⟩
  | .hbm, ⟨32, _⟩ => ⟨S1024x100000, .f32⟩
  | .hbm, ⟨33, _⟩ => ⟨S_, .f32⟩
  | .hbm, ⟨34, _⟩ => ⟨S1024x100000, .f32⟩
  | .hbm, ⟨35, _⟩ => ⟨S1024x100000, .f32⟩
  | .hbm, ⟨36, _⟩ => ⟨S_, .f32⟩
  | .hbm, ⟨37, _⟩ => ⟨S1024x100000, .f32⟩
  | .hbm, ⟨38, _⟩ => ⟨S1024x100000, .f32⟩
  | .hbm, ⟨39, _⟩ => ⟨S1024x100000, .f32⟩
  | .hbm, ⟨40, _⟩ => ⟨S_, .f32⟩
  | .hbm, ⟨41, _⟩ => ⟨S1024x100000, .f32⟩
  | .hbm, ⟨42, _⟩ => ⟨S1024x100000, .i1⟩
  | .hbm, ⟨43, _⟩ => ⟨S_, .f32⟩
  | .hbm, ⟨44, _⟩ => ⟨S1024x100000, .f32⟩
  | .hbm, ⟨45, _⟩ => ⟨S1024x100000, .f32⟩
  | .hbm, ⟨46, _⟩ => ⟨S1024x100000, .f32⟩
  | .hbm, ⟨47, _⟩ => ⟨S1024x1, .i32⟩
  | .hbm, ⟨48, _⟩ => ⟨S100000, .i32⟩
  | .hbm, ⟨49, _⟩ => ⟨S1x100000, .i32⟩
  | .hbm, ⟨50, _⟩ => ⟨S1024x100000, .i32⟩
  | .hbm, ⟨51, _⟩ => ⟨S1024x100000, .i32⟩
  | .hbm, ⟨52, _⟩ => ⟨S1024x100000, .i1⟩
  | .hbm, ⟨53, _⟩ => ⟨S1024x100000, .f32⟩
  | .hbm, ⟨54, _⟩ => ⟨S_, .f32⟩
  | .hbm, ⟨55, _⟩ => ⟨S1024x100000, .f32⟩
  | .hbm, ⟨56, _⟩ => ⟨S1024x100000, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024x1, .f32⟩
  | .hbm, ⟨63, _⟩ => ⟨S1024x100000, .f32⟩
  | .hbm, ⟨64, _⟩ => ⟨S1024x100000, .f32⟩
  | .hbm, ⟨65, _⟩ => ⟨S1024x100000, .f32⟩
  | .hbm, ⟨66, _⟩ => ⟨S_, .f32⟩
  | .hbm, ⟨67, _⟩ => ⟨S1024, .f32⟩
  | .hbm, ⟨68, _⟩ => ⟨S1024x1, .f32⟩
  | .hbm, ⟨69, _⟩ => ⟨S1024x1, .f32⟩
  | .hbm, ⟨70, _⟩ => ⟨S1024x100000, .f32⟩
  | .hbm, ⟨71, _⟩ => ⟨S1024x100000, .f32⟩
  | .hbm, ⟨72, _⟩ => ⟨S1024x1, .i32⟩
  | .hbm, ⟨73, _⟩ => ⟨S_, .i32⟩
  | .hbm, ⟨74, _⟩ => ⟨S1024x1, .i32⟩
  | .hbm, ⟨75, _⟩ => ⟨S1024x1, .i1⟩
  | .hbm, ⟨76, _⟩ => ⟨S_, .i32⟩
  | .hbm, ⟨77, _⟩ => ⟨S1024x1, .i32⟩
  | .hbm, ⟨78, _⟩ => ⟨S1024x1, .i32⟩
  | .hbm, ⟨79, _⟩ => ⟨S1024x1, .i32⟩
  | .hbm, ⟨80, _⟩ => ⟨S1024x1x1, .i32⟩
  | .hbm, ⟨81, _⟩ => ⟨S1, .i32⟩
  | .hbm, ⟨82, _⟩ => ⟨S_, .i32⟩
  | .hbm, ⟨83, _⟩ => ⟨S1024x1x1, .i32⟩
  | .hbm, ⟨84, _⟩ => ⟨S1024x1x1, .i1⟩
  | .hbm, ⟨85, _⟩ => ⟨S1x1x1, .i32⟩
  | .hbm, ⟨86, _⟩ => ⟨S1024x1x1, .i32⟩
  | .hbm, ⟨87, _⟩ => ⟨S1024x1x1, .i1⟩
  | .hbm, ⟨88, _⟩ => ⟨S1024x1x1, .i1⟩
  | .hbm, ⟨89, _⟩ => ⟨S_, .i1⟩
  | .hbm, ⟨90, _⟩ => ⟨S1024x1, .i1⟩
  | .hbm, ⟨91, _⟩ => ⟨S1024x1, .f32⟩
  | .hbm, ⟨92, _⟩ => ⟨S_, .f32⟩
  | .hbm, ⟨93, _⟩ => ⟨S1024x1, .f32⟩
  | .hbm, ⟨94, _⟩ => ⟨S1024x1, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_call2_cst : Ref sig .tc := ⟨.hbm, 57, rfl⟩
abbrev main_call2_v0 : Ref sig .tc := ⟨.hbm, 58, rfl⟩
abbrev main_call2_cst_0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_cst_1 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_v43 : Ref sig .tc := ⟨.hbm, 71, rfl⟩
abbrev main_v44 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_cst : Ref sig .tc := ⟨.hbm, 92, rfl⟩
abbrev main_call3_v14 : Ref sig .tc := ⟨.hbm, 93, rfl⟩
abbrev main_v45 : Ref sig .tc := ⟨.hbm, 94, rfl⟩
abbrev main_cst_10 : Ref sig .tc := ⟨.hbm, 95, rfl⟩
abbrev main_v46 : Ref sig .tc := ⟨.hbm, 96, rfl⟩
abbrev main_cst_11 : Ref sig .tc := ⟨.hbm, 97, rfl⟩
abbrev main_v47 : Ref sig .tc := ⟨.hbm, 98, rfl⟩
abbrev main_v48 : Ref sig .tc := ⟨.hbm, 99, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S1024x100000 : S_.BroadcastsInDim S1024x100000 (![] : Fin 0 → Fin S1024x100000.rank)
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S_S1024 : S_.BroadcastsInDim S1024 (![] : Fin 0 → Fin S1024.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  reducesTo_S1024x1_S_d0_1 : S1024x1.ReducesTo [0, 1] S_
  dot_S1024x512_S512x100000_S1024x100000_1_0_0_1_n_n_wf : DotDims.WF S1024x512 S512x100000 S1024x100000 [1] [0] [0] [1] [] []
  gather_S1024x100000_S1024x1x1_S1024x1_n_1_0_0_1_2_11_wf : GatherDims.WF S1024x100000 S1024x1x1 S1024x1 [] [1] [0] [1] [0] 2 ![1, 1]

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.K.Kit.lean ====
/-
  The region of the one kernel call and the host lines around it, for the program at any float family.

  The memory the region is entered with is the launch memory after the fourteen host lines before the call (`V0`);
  the five stretches of host lines after the call (`tailOps`) touch only the call's arrays and buffers that bypass
  it, allocate nothing and write none of the call's arrays. The grid has 100 points, `t = 50·i + j`: the running
  maximum and sum are reset where `j = 0` (`first`) and copied to the two outputs where `j = 49` (`last`); at
  every other point the outputs' staging buffers are idle and are not written back.
-/
import proofs.«412743_j6253472383512_2_alg».proof.Proof.Gen.Kernel.Launch
import proofs.«412743_j6253472383512_2_alg».proof.Proof.Gen.Kernel.Skeleton
import proofs.«412743_j6253472383512_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines after the region, stretch by stretch. -/
abbrev tailOps : List (List (HloOp τ sig (Elt F))) := [hostOps1, hostOps1_1, hostOps1_2, hostOps1_3, hostOps1_4]

/-- Core `c`'s buffers when the region is entered: the launch memory after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The three arguments. -/
private abbrev argL : List (Ref sig .tc) := [main_arg0, main_arg1, main_arg2]
/-- The six buffers the host lines after the region leave alone: the three arguments and the call's other three arrays. -/
private abbrev keepL : List (Ref sig .tc) := [main_arg0, main_arg1, main_arg2, main_v10, main_v11_0, main_v11_1]

/-- A line writing the one buffer `y` writes none of a list `y` is not in. -/
private theorem keep_single {K : List (Ref sig .tc)} {y : Ref sig .tc} (h : y ∉ K) :
    ∀ r ∈ K, Proc.devRef (τ := τ) .tc r ∉ ({Proc.devRef .tc y} : Finset (DevRef τ sig)) :=
  fun r hr hm => h ((Proc.devRef_injective _ (Finset.mem_singleton.mp hm)) ▸ hr)

/-- The host lines before the region allocate nothing. -/
private theorem fresh0 : (hostOps0 : List (HloOp τ sig (Elt F))).Forall fun op => op.fresh = ∅ := by
  simp only [List.Forall]; repeat' constructor
/-- Each writes its own result buffer, which is no argument. -/
private theorem keeps0 : (hostOps0 : List (HloOp τ sig (Elt F))).Forall fun op => ∀ r ∈ argL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 1 after the region allocates nothing. -/
private theorem fresh_hostOps1 : (hostOps1 : List (HloOp τ sig (Elt F))).Forall fun op => op.fresh = ∅ := by
  simp only [List.Forall]; repeat' constructor
/-- Each of its lines writes its own result buffer, which is none of the six. -/
private theorem keeps_hostOps1 : (hostOps1 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 2 after the region allocates nothing. -/
private theorem fresh_hostOps1_1 : (hostOps1_1 : List (HloOp τ sig (Elt F))).Forall fun op => op.fresh = ∅ := by
  simp only [List.Forall]; repeat' constructor
/-- Each of its lines writes its own result buffer, which is none of the six. -/
private theorem keeps_hostOps1_1 : (hostOps1_1 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 3 after the region allocates nothing. -/
private theorem fresh_hostOps1_2 : (hostOps1_2 : List (HloOp τ sig (Elt F))).Forall fun op => op.fresh = ∅ := by
  simp only [List.Forall]; repeat' constructor
/-- Each of its lines writes its own result buffer, which is none of the six. -/
private theorem keeps_hostOps1_2 : (hostOps1_2 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 4 after the region allocates nothing. -/
private theorem fresh_hostOps1_3 : (hostOps1_3 : List (HloOp τ sig (Elt F))).Forall fun op => op.fresh = ∅ := by
  simp only [List.Forall]; repeat' constructor
/-- Each of its lines writes its own result buffer, which is none of the six. -/
private theorem keeps_hostOps1_3 : (hostOps1_3 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 5 after the region allocates nothing. -/
private theorem fresh_hostOps1_4 : (hostOps1_4 : List (HloOp τ sig (Elt F))).Forall fun op => op.fresh = ∅ := by
  simp only [List.Forall]; repeat' constructor
/-- Each of its lines writes its own result buffer, which is none of the six. -/
private theorem keeps_hostOps1_4 : (hostOps1_4 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact fresh0) main_chain

theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh_hostOps1) op hop
  · exact (List.forall_iff_forall_mem.mp fresh_hostOps1_1) op hop
  · exact (List.forall_iff_forall_mem.mp fresh_hostOps1_2) op hop
  · exact (List.forall_iff_forall_mem.mp fresh_hostOps1_3) op hop
  · exact (List.forall_iff_forall_mem.mp fresh_hostOps1_4) op hop

/-- No line after the region writes any of the six. -/
private theorem tail_keepL : ∀ ops ∈ (tailOps : List (List (HloOp τ sig (Elt F)))), ∀ op ∈ ops,
    ∀ r ∈ keepL, Proc.devRef .tc r ∉ op.writes := by
  intro ops hops op hop
  simp only [List.mem_cons, List.mem_nil_iff, or_false] at hops
  rcases hops with rfl | rfl | rfl | rfl | rfl
  · exact (List.forall_iff_forall_mem.mp keeps_hostOps1) op hop
  · exact (List.forall_iff_forall_mem.mp keeps_hostOps1_1) op hop
  · exact (List.forall_iff_forall_mem.mp keeps_hostOps1_2) op hop
  · exact (List.forall_iff_forall_mem.mp keeps_hostOps1_3) op hop
  · exact (List.forall_iff_forall_mem.mp keeps_hostOps1_4) op hop

/-- The call's four arrays are among the six. -/
private theorem arrRef_mem_keepL : ∀ w, Pipeline.arrRef spec0 w ∈ keepL := by decide

theorem tail_keeps : ∀ ops ∈ (tailOps : List (List (HloOp τ sig (Elt F)))), ∀ op ∈ ops,
    ∀ w, Proc.devRef .tc (Pipeline.arrRef spec0 w) ∉ op.writes :=
  fun ops hops op hop w => tail_keepL ops hops op hop _ (arrRef_mem_keepL w)

/-- The host lines before the region write no argument. -/
private theorem V_arg (c : Dev nD) (r : Ref sig .tc) (hr : r ∈ argL) : V m c r = m ((c : Thread nD τ).loc r) :=
  StableHlo.after_of_forall_not_mem _ _ fun op hop => by
    obtain ⟨l, hl, hop⟩ := List.mem_flatten.mp hop
    rw [List.mem_singleton] at hl
    subst hl
    exact (List.forall_iff_forall_mem.mp keeps0) op hop r hr

/-- The host lines before the region write none of the three arguments. -/
theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block the proof data reads off window `w`'s array is the region's, the array being the region's. -/
private theorem blockOf_eq {c : Dev nD} (dat : Dat τ (Elt F) Unit ℕ (UR sig nD τ) ℕ cfg0 c) (w : Fin cfg0.W)
    (hA : dat.A w = V m c (Pipeline.arrRef spec0 w)) (t : Fin cfg0.N) : dat.blockOf w t = iblk m c w t :=
  congrArg (((cfg0.win w).blk t).view.read (Elt F)) hA

/-- The scaled features' staging buffer holds the whole array at every point (fetched once, never moved). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  -- an input, never idle, uncut: what the body leaves is the block, so the buffer holds what a fetch would put there
  have hkeep : ∀ t, (cfg0.win 0).cut (cfg0.grid.coords t) (dat.after 0 t) = dat.blockOf 0 t := fun t =>
    (hafter t).trans (blockOf_eq m dat 0 hA t).symm
  have hb : dat.before 0 t d = dat.fetched 0 t d :=
    dat.before_in_eq_fetched 0 rfl (fun _ => rfl) (fun _ _ _ => rfl) hkeep t d
  -- the block is the whole buffer: the fetch fills all of it
  exact hb.trans (blockOf_eq m dat 0 hA t)

/-- The weights' staging buffer holds the point's block of 1000 rows (fetched at every point). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  have hkeep : ∀ t, (cfg0.win 1).cut (cfg0.grid.coords t) (dat.after 1 t) = dat.blockOf 1 t := fun t =>
    (hafter t).trans (blockOf_eq m dat 1 hA t).symm
  have hb : dat.before 1 t d = dat.fetched 1 t d :=
    dat.before_in_eq_fetched 1 rfl (fun _ => rfl) (fun _ _ _ => rfl) hkeep t d
  exact hb.trans (blockOf_eq m dat 1 hA t)

/-! ## The frame claim's post from the frame run's -/

/-- A buffer among the six that is no array of the call is, after the region and the lines after it, as the region found it. -/
private theorem afterTail_keep (dats : (p : Fin 1) → (c : Dev nD) → Dat τ (Elt F) Unit ℕ (UR sig nD τ) ℕ (cfgs p) c) (c : Dev nD)
    (r : Ref sig .tc) (hr : r ∈ keepL) (hne : ∀ w, Pipeline.arrRef spec0 w ≠ r) :
    Pipeline.afterTail₀ cfgs dats 0 (V0 m) tailOps c r = V m c r :=
  (StableHlo.after_of_forall_not_mem _ _ fun op hop => by
      obtain ⟨l, hl, hop⟩ := List.mem_flatten.mp hop
      exact tail_keepL l hl op hop r hr).trans
    (Pipeline.withArrays_of_ne _ c _ _ r hne)

/-- From the frame run's post: the three arguments are as at launch. -/
theorem frame_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (hr : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine ⟨?_, ?_, ?_⟩
  · -- no array of the call: the post's second clause, then nothing after the region or before it writes it
    exact ((hr c).2 main_arg0 (Pipeline.mem_restRefs_of main_arg0 rfl (by decide))).trans
      ((afterTail_keep m dats c main_arg0 (by decide) (by decide)).trans (V_main_arg0 m c))
  · -- the weights: an input's array stays as the region found it
    exact ((hr c).1 1).trans (((dats 0 c).arrAt_in 1 rfl _).trans ((hA c 1).trans (V_main_arg1 m c)))
  · exact ((hr c).2 main_arg2 (Pipeline.mem_restRefs_of main_arg2 rfl (by decide))).trans
      ((afterTail_keep m dats c main_arg2 (by decide) (by decide)).trans (V_main_arg2 m c))

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => frame_args m dats hA r hr c) h

/-! ## The two conditions of the body -/

/-- `j = 0`: the running maximum and sum are reset. -/
abbrev first (i : grid0.Coords) : Prop := (Scalar.cmpi .ne (Scalar.extui (Scalar.cmpi .eq (BitVec.ofNat 32 (i 1).val) 0#32)) 0#32) = 1#1
theorem first_iff : ∀ t : Fin cfg0.N, first (grid0.coords t) ↔ t.val % 50 = 0 :=
  (by decide +kernel : ∀ t : Fin grid0.N, first (grid0.coords t) ↔ t.val % 50 = 0)

/-- `j = 49`: they are copied to the outputs. -/
abbrev last (i : grid0.Coords) : Prop := k0_cond2 i = 1#1
theorem last_iff : ∀ t : Fin cfg0.N, last (grid0.coords t) ↔ t.val % 50 = 49 :=
  (by decide +kernel : ∀ t : Fin grid0.N, last (grid0.coords t) ↔ t.val % 50 = 49)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem idle2 : ∀ t : Fin cfg0.N, ¬last (grid0.coords t) → cfg0.idle 2 (grid0.coords t) = true :=
  (by decide +kernel : ∀ t : Fin grid0.N, ¬last (grid0.coords t) → cfg0.idle 2 (grid0.coords t) = true)
theorem idle3 : ∀ t : Fin cfg0.N, ¬last (grid0.coords t) → cfg0.idle 3 (grid0.coords t) = true :=
  (by decide +kernel : ∀ t : Fin grid0.N, ¬last (grid0.coords t) → cfg0.idle 3 (grid0.coords t) = true)
theorem noFlush2 : ∀ t : Fin cfg0.N, ¬last (grid0.coords t) → (cfg0.win 2).flush t = false :=
  (by decide +kernel : ∀ t : Fin grid0.N, ¬last (grid0.coords t) → win0_2.flush t = false)
theorem noFlush3 : ∀ t : Fin cfg0.N, ¬last (grid0.coords t) → (cfg0.win 3).flush t = false :=
  (by decide +kernel : ∀ t : Fin grid0.N, ¬last (grid0.coords t) → win0_3.flush t = false)
theorem live2 : ∀ t : Fin cfg0.N, last (grid0.coords t) → cfg0.idle 2 (grid0.coords t) = false :=
  (by decide +kernel : ∀ t : Fin grid0.N, last (grid0.coords t) → cfg0.idle 2 (grid0.coords t) = false)
theorem live3 : ∀ t : Fin cfg0.N, last (grid0.coords t) → cfg0.idle 3 (grid0.coords t) = false :=
  (by decide +kernel : ∀ t : Fin grid0.N, last (grid0.coords t) → cfg0.idle 3 (grid0.coords t) = false)

/-! ## The memrefs the body is called with -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1000x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1 .f32 := win0_3.stage (cfg0.slots t 3)
abbrev hs3 (t : Fin cfg0.N) : (ms3 t).IsWhole := hstage0_3 ((cfg0.slots t 3).cast nbuf0_3)
/-- The running maximum's and the running sum's scratch buffers. -/
abbrev scM : Memref sig .tc .vmem S1024x1 .f32 := Memref.whole cc0_scratch0
abbrev scL : Memref sig .tc .vmem S1024x1 .f32 := Memref.whole cc0_scratch1

/-- The class's region invariant with the two scratch buffers as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d)) ∗ (∃ r, prngReg c r)) := by
  unfold Pipeline.ΦA
  rw [scopedRest0_eq]
  simp only [scM, scL, owns_whole]
  -- the two sides now differ only in how the buffers' contents types are spelled
  rfl

end Cert.Kernel.Hand

end
-- ==== Proof.K.Runs.lean ====
/-
  The kernel body run once, in each of its three control cases, on whole staging and scratch memrefs.

  The body loads the scaled features `x` and a block `w` of 1000 weight rows, and from the running maximum `mp`
  and running sum `lp` it finds in the two scratch buffers stores the next ones, `k0_pay8 w x mp` and
  `k0_pay7 w x mp lp`. Where `j = 0` it first resets the scratch to `k0_pay3` (minus infinity) and `k0_pay4`
  (zero), so what it leaves does not depend on what it found; where `j = 49` it afterwards copies the two scratch
  buffers into the outputs (`k0_pay1`, `k0_pay2`: a change of shape). The inputs are left as they were.
-/
import proofs.«412743_j6253472383512_2_alg».proof.Proof.K.Kit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer loads and stores

Every load and store of the body is through the unit rectangle at zero offsets of the buffer's own sizes: such a
load reads the contents, and after such a store the buffer reads the stored payload, whatever was stored before. -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- A whole-buffer load of a whole memref that reads `X` reads `X`. -/
private theorem readAt_whole {S : Shape} {e : EltTy} (a : Memref sig .tc .vmem S e) (h : a.IsWhole) {off : Fin S.rank → Nat}
    (hz : off = fun _ => 0) (inb : ∀ k, off k + S.size k ≤ S.size k) (X : S.Idx → Elt F e) :
    View.readAt (Elt F) a.view (Rect.unit off S.size inb).toLoadRect (h.unread X) = X := by
  rw [View.readAt_eq_ld, h.read_unread, View.ld_unit_zero hz]

/-- After a last whole-buffer store the buffer reads that store's payload. -/
private theorem read_writes_whole {S : Shape} {e : EltTy} (a : Memref sig .tc .vmem S e) (f : a.view.ty.Contents (Elt F))
    {off : Fin S.rank → Nat} (hz : off = fun _ => 0) (inb : ∀ k, off k + S.size k ≤ S.size k) (p : S.Idx → Elt F e)
    (L : List (View.Piece (Elt F) S e)) :
    a.view.read (Elt F) (a.view.writes (Elt F) f ((⟨Rect.unit off S.size inb, p⟩ : View.Piece (Elt F) S e) :: L)) = p := by
  rw [View.read_writes_eq_canon _ _ _ (fun y => ⟨_, List.mem_cons_self, View.mem_set_unit_zero hz inb y⟩),
    View.canon_cons_unit_zero hz]

set_option maxHeartbeats 1000000 in
/-- `j = 0` and not `j = 49`: reset, then one step. The outputs are not touched. -/
theorem run_first (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x1 .f32) (harg7 : arg7.IsWhole) (hc0 : first i) (hc1 : ¬last i)
    (x : Vec F S1024x512 .bf16) (w : Vec F S1000x512 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ (∃ d, owns (c : Thread nD τ) arg4 fullShare d) ∗ (∃ d, owns (c : Thread nD τ) arg5 fullShare d)
            ∗ owns (c : Thread nD τ) arg6 fullShare (k0_pay8 w x (k0_pay3 (F := F))) ∗ owns (c : Thread nD τ) arg7 fullShare (k0_pay7 w x (k0_pay3 (F := F)) (k0_pay4 (F := F)))) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf2; obtain rfl := harg3.eq_unread hf3
  sl_exec (disch := first | exact hc0 | exact hc1)
  sl_step
  iapply Hk
  -- the two inputs, as they were
  isplitl [H2]
  · iexists _; isplitr; · ipureintro; exact harg2.read_unread _
    iexact H2
  isplitl [H3]
  · iexists _; isplitr; · ipureintro; exact harg3.read_unread _
    iexact H3
  -- the two outputs, untouched
  isplitl [H4]
  · iexists (View.read (Elt F) arg4.view f4); iexists f4; isplitr; · ipureintro; rfl
    iexact H4
  isplitl [H5]
  · iexists (View.read (Elt F) arg5.view f5); iexists f5; isplitr; · ipureintro; rfl
    iexact H5
  -- the running maximum: the last store's payload, whose loads read the inputs and the reset value just stored
  isplitl [H6]
  · iexists _; isplitr; swap; · iexact H6
    ipureintro
    sl_unfold_run_names
    refine (read_writes_whole (S := S1024x1) arg6 _ hz2 _ _ _).trans ?_
    rw [View.readCov_unit_zero (S := S1024x1) arg6.view hz2, readAt_whole arg3 harg3 hz2, readAt_whole arg2 harg2 hz2]
  -- the running sum: likewise, over both reset values
  · iexists _; isplitr; swap; · iexact H7
    ipureintro
    sl_unfold_run_names
    refine (read_writes_whole (S := S1024x1) arg7 _ hz2 _ _ _).trans ?_
    rw [View.readCov_unit_zero (S := S1024x1) arg6.view hz2, View.readCov_unit_zero (S := S1024x1) arg7.view hz2,
      readAt_whole arg3 harg3 hz2, readAt_whole arg2 harg2 hz2]

set_option maxHeartbeats 1000000 in
/-- Neither `j = 0` nor `j = 49`: one step from what the point before left. The outputs are not touched. -/
theorem run_mid (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x1 .f32) (harg7 : arg7.IsWhole) (hc0 : ¬first i) (hc1 : ¬last i)
    (x : Vec F S1024x512 .bf16) (w : Vec F S1000x512 .f32) (mp lp : Vec F S1024x1 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d)
        ∗ owns (c : Thread nD τ) arg6 fullShare mp ∗ owns (c : Thread nD τ) arg7 fullShare lp
        ∗ (iprop(owns (c : Thread nD τ) arg2 fullShare x ∗ owns (c : Thread nD τ) arg3 fullShare w ∗ (∃ d, owns (c : Thread nD τ) arg4 fullShare d) ∗ (∃ d, owns (c : Thread nD τ) arg5 fullShare d)
            ∗ owns (c : Thread nD τ) arg6 fullShare (k0_pay8 w x mp) ∗ owns (c : Thread nD τ) arg7 fullShare (k0_pay7 w x mp lp)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  -- the two inputs, as they were
  isplitl [H2]
  · iexists _; isplitr; · ipureintro; exact harg2.read_unread _
    iexact H2
  isplitl [H3]
  · iexists _; isplitr; · ipureintro; exact harg3.read_unread _
    iexact H3
  -- the two outputs, untouched
  isplitl [H4]
  · iexists (View.read (Elt F) arg4.view f4); iexists f4; isplitr; · ipureintro; rfl
    iexact H4
  isplitl [H5]
  · iexists (View.read (Elt F) arg5.view f5); iexists f5; isplitr; · ipureintro; rfl
    iexact H5
  -- the running maximum: the one store's payload, whose loads read the contents found
  isplitl [H6]
  · iexists _; isplitr; swap; · iexact H6
    ipureintro
    rw [read_writes_whole (S := S1024x1) arg6 _ hz2, readAt_whole arg3 harg3 hz2, readAt_whole arg2 harg2 hz2,
      readAt_whole arg6 harg6 hz2]
  -- the running sum: likewise
  · iexists _; isplitr; swap; · iexact H7
    ipureintro
    rw [read_writes_whole (S := S1024x1) arg7 _ hz2, readAt_whole arg3 harg3 hz2, readAt_whole arg2 harg2 hz2,
      readAt_whole arg6 harg6 hz2, readAt_whole arg7 harg7 hz2]

set_option maxHeartbeats 1000000 in
/-- `j = 49` and not `j = 0`: one step, then the two scratch buffers copied to the outputs. -/
theorem run_last (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x1 .f32) (harg7 : arg7.IsWhole) (hc0 : ¬first i) (hc1 : last i)
    (x : Vec F S1024x512 .bf16) (w : Vec F S1000x512 .f32) (mp lp : Vec F S1024x1 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d)
        ∗ owns (c : Thread nD τ) arg6 fullShare mp ∗ owns (c : Thread nD τ) arg7 fullShare lp
        ∗ (iprop(owns (c : Thread nD τ) arg2 fullShare x ∗ owns (c : Thread nD τ) arg3 fullShare w
            ∗ owns (c : Thread nD τ) arg4 fullShare (k0_pay1 (k0_pay8 w x mp)) ∗ owns (c : Thread nD τ) arg5 fullShare (k0_pay2 (k0_pay7 w x mp lp))
            ∗ owns (c : Thread nD τ) arg6 fullShare (k0_pay8 w x mp) ∗ owns (c : Thread nD τ) arg7 fullShare (k0_pay7 w x mp lp)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  -- the two inputs, as they were
  isplitl [H2]
  · iexists _; isplitr; · ipureintro; exact harg2.read_unread _
    iexact H2
  isplitl [H3]
  · iexists _; isplitr; · ipureintro; exact harg3.read_unread _
    iexact H3
  -- the two outputs: the reshaped copy of what was just stored in the scratch and loaded back
  isplitl [H4]
  · iexists _; isplitr; swap; · iexact H4
    ipureintro
    sl_unfold_run_names
    refine (read_writes_whole (S := S1x1024x1) arg4 _ hz3 _ _ _).trans ?_
    rw [View.readCov_unit_zero (S := S1024x1) _ hz2, readAt_whole arg3 harg3 hz2, readAt_whole arg2 harg2 hz2,
      readAt_whole arg6 harg6 hz2]
  isplitl [H5]
  · iexists _; isplitr; swap; · iexact H5
    ipureintro
    sl_unfold_run_names
    refine (read_writes_whole (S := S1x1024x1) arg5 _ hz3 _ _ _).trans ?_
    rw [View.readCov_unit_zero (S := S1024x1) _ hz2, readAt_whole arg3 harg3 hz2, readAt_whole arg2 harg2 hz2,
      readAt_whole arg6 harg6 hz2, readAt_whole arg7 harg7 hz2]
  -- the running maximum and the running sum: the one store's payload each
  isplitl [H6]
  · iexists _; isplitr; swap; · iexact H6
    ipureintro
    sl_unfold_run_names
    rw [read_writes_whole (S := S1024x1) arg6 _ hz2, readAt_whole arg3 harg3 hz2, readAt_whole arg2 harg2 hz2,
      readAt_whole arg6 harg6 hz2]
  · iexists _; isplitr; swap; · iexact H7
    ipureintro
    sl_unfold_run_names
    rw [read_writes_whole (S := S1024x1) arg7 _ hz2, readAt_whole arg3 harg3 hz2, readAt_whole arg2 harg2 hz2,
      readAt_whole arg6 harg6 hz2, readAt_whole arg7 harg7 hz2]

end Cert.Kernel.Hand

end
-- ==== Proof.K.Frame.lean ====
/-
  The proof data of the one kernel call and its frame, for the program at any float family.

  `scr m c n` is what the two scratch buffers hold after the body at position `n = 50·i + j`: (running maximum,
  running sum). Where `j = 0` it is one step from the reset values; elsewhere one step from what position `n − 1`
  left. The outputs' staging buffers after the body are the scratch buffers re-shaped; they are written back only
  where `j = 49`. The region invariant carries the two scratch buffers at `scr` from one point to the next.
-/
import proofs.«412743_j6253472383512_2_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the two scratch buffers hold after the body at position `n`: (running maximum, running sum). -/
def scr (c : Dev nD) : (n : ℕ) → n < cfg0.N → Vec F S1024x1 .f32 × Vec F S1024x1 .f32
  | 0, hn => (k0_pay8 (iblk m c 1 ⟨0, hn⟩) (iblk m c 0 ⟨0, hn⟩) (k0_pay3 (F := F)),
              k0_pay7 (iblk m c 1 ⟨0, hn⟩) (iblk m c 0 ⟨0, hn⟩) (k0_pay3 (F := F)) (k0_pay4 (F := F)))
  | n + 1, hn =>
    if (n + 1) % 50 = 0 then
      (k0_pay8 (iblk m c 1 ⟨n + 1, hn⟩) (iblk m c 0 ⟨n + 1, hn⟩) (k0_pay3 (F := F)),
       k0_pay7 (iblk m c 1 ⟨n + 1, hn⟩) (iblk m c 0 ⟨n + 1, hn⟩) (k0_pay3 (F := F)) (k0_pay4 (F := F)))
    else
      (k0_pay8 (iblk m c 1 ⟨n + 1, hn⟩) (iblk m c 0 ⟨n + 1, hn⟩) (scr c n (Nat.lt_of_succ_lt hn)).1,
       k0_pay7 (iblk m c 1 ⟨n + 1, hn⟩) (iblk m c 0 ⟨n + 1, hn⟩) (scr c n (Nat.lt_of_succ_lt hn)).1 (scr c n (Nat.lt_of_succ_lt hn)).2)

/-- At a point with `j = 0`: one step from the reset values. -/
theorem scr_reset (c : Dev nD) (t : Fin cfg0.N) (h : t.val % 50 = 0) :
    scr m c t.val t.isLt = (k0_pay8 (iblk m c 1 t) (iblk m c 0 t) (k0_pay3 (F := F)),
      k0_pay7 (iblk m c 1 t) (iblk m c 0 t) (k0_pay3 (F := F)) (k0_pay4 (F := F))) := by
  obtain ⟨n, hn⟩ := t
  cases n with
  | zero => rfl
  | succ n => exact if_pos h

/-- At any other point: one step from what the point before left. -/
theorem scr_step (c : Dev nD) (t : Fin cfg0.N) (h : t.val % 50 ≠ 0) :
    scr m c t.val t.isLt = (k0_pay8 (iblk m c 1 t) (iblk m c 0 t) (scr m c (t.val - 1) (Nat.lt_of_le_of_lt (Nat.sub_le _ _) t.isLt)).1,
      k0_pay7 (iblk m c 1 t) (iblk m c 0 t) (scr m c (t.val - 1) (Nat.lt_of_le_of_lt (Nat.sub_le _ _) t.isLt)).1
        (scr m c (t.val - 1) (Nat.lt_of_le_of_lt (Nat.sub_le _ _) t.isLt)).2) := by
  obtain ⟨n, hn⟩ := t
  cases n with
  | zero => exact absurd (Nat.zero_mod _) h
  | succ n => exact if_neg h

/-- The region invariant before position `n`: before the first point the class's; afterwards the two scratch buffers at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (scr m c n hn).1 ∗ owns (c : Thread nD τ) scL fullShare (scr m c n hn).2) ∗ (∃ r, prngReg c r))

/-- Before the first point the invariant is the class's. -/
theorem PhiS_zero (c : Dev nD) (n : ℕ) (h : n ≤ cfg0.N) (hz : n = 0) : PhiS m c n h = Pipeline.ΦA spec0 c := by
  subst hz; rfl

/-- After point `n`: the two scratch buffers at that point's values. -/
theorem PhiS_succ (c : Dev nD) (n : ℕ) (hn : n < cfg0.N) :
    PhiS m c (n + 1) hn = iprop(iprop(owns (c : Thread nD τ) scM fullShare (scr m c n hn).1 ∗ owns (c : Thread nD τ) scL fullShare (scr m c n hn).2) ∗ (∃ r, prngReg c r)) := rfl

/-- Before a point that is not the first: the two scratch buffers at what the point before left. -/
theorem PhiS_pos (c : Dev nD) (n : ℕ) (h : n ≤ cfg0.N) (hz : n ≠ 0) :
    PhiS m c n h = iprop(iprop(owns (c : Thread nD τ) scM fullShare (scr m c (n - 1) (by omega)).1 ∗ owns (c : Thread nD τ) scL fullShare (scr m c (n - 1) (by omega)).2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (scr m c t.val t.isLt).1
    | ⟨3, _⟩ => k0_pay2 (scr m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay1 (scr m c t.val t.isLt).1 := by dsimp only [dats]
theorem after3 (c : Dev nD) (t : Fin cfg0.N) : (dats m 0 c).after 3 t = k0_pay2 (scr m c t.val t.isLt).2 := by dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-! ## Each window's staging buffer before the body -/

/-- The scaled features' staging buffer holds the whole array at every point. -/
theorem before0 (c : Dev nD) (t : Fin cfg0.N) (d) : (dats m 0 c).before 0 t d = iblk m c 0 t :=
  before_in0 m (dats m 0 c) (A_eq m c 0) (after0 m c) t d

/-- The weights' staging buffer holds the point's block. -/
theorem before1 (c : Dev nD) (t : Fin cfg0.N) (d) : (dats m 0 c).before 1 t d = iblk m c 1 t :=
  before_in1 m (dats m 0 c) (A_eq m c 1) (after1 m c) t d

/-- A window that is never fetched and is idle wherever it is not written back holds, when the body runs, what
    nothing has filled: by induction on the position, the point before either wrote the block back (the buffer
    is fresh) or was idle (the buffer holds what it held there). -/
theorem before_idle_id {c : Dev nD} (dat : Dat τ (Elt F) Unit ℕ (UR sig nD τ) ℕ cfg0 c) (w : Fin cfg0.W)
    (hfetch : ∀ t, (cfg0.win w).fetch t = false)
    (hidle : ∀ t : Fin cfg0.N, (cfg0.win w).flush t = false → cfg0.idle w (cfg0.grid.coords t) = true) (d) :
    ∀ (n : ℕ) (hn : n < cfg0.N), dat.before w ⟨n, hn⟩ d = d
  | 0, hn => by
    unfold Dat.before
    rw [hfetch, if_neg Bool.false_ne_true, if_pos rfl]
  | n + 1, hn => by
    rw [dat.before_of_pos w ⟨n + 1, hn⟩ (Nat.succ_ne_zero n) (hfetch _)]
    cases hfl : (cfg0.win w).flush ⟨n + 1 - 1, Nat.lt_of_le_of_lt (Nat.sub_le _ _) hn⟩ with
    | true => exact if_pos rfl
    | false =>
      rw [if_neg Bool.false_ne_true]
      unfold Dat.left
      rw [hidle _ hfl]
      exact before_idle_id dat w hfetch hidle d n (Nat.lt_of_succ_lt hn)

/-- A point that does not write the first output back is not a last point of its row, so the window is idle there. -/
theorem idle_of_noFlush2 (t : Fin cfg0.N) (hf : (cfg0.win 2).flush t = false) : cfg0.idle 2 (cfg0.grid.coords t) = true :=
  idle2 t fun hl => by
    have := (flush0_2 t).mpr ((last_iff t).mp hl)
    rw [hf] at this; exact Bool.false_ne_true this

theorem idle_of_noFlush3 (t : Fin cfg0.N) (hf : (cfg0.win 3).flush t = false) : cfg0.idle 3 (cfg0.grid.coords t) = true :=
  idle3 t fun hl => by
    have := (flush0_3 t).mpr ((last_iff t).mp hl)
    rw [hf] at this; exact Bool.false_ne_true this

/-- The first output's staging buffer holds, when the body runs, what nothing has filled. -/
theorem before2 (c : Dev nD) (t : Fin cfg0.N) (d) : (dats m 0 c).before 2 t d = d :=
  before_idle_id (dats m 0 c) 2 ((cfg0.win 2).fetch_out rfl) idle_of_noFlush2 d t.val t.isLt

/-- The second output's, the same. -/
theorem before3 (c : Dev nD) (t : Fin cfg0.N) (d) : (dats m 0 c).before 3 t d = d :=
  before_idle_id (dats m 0 c) 3 ((cfg0.win 3).fetch_out rfl) idle_of_noFlush3 d t.val t.isLt

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- An input's staging buffer is left at its block. -/
theorem leaves0 (c : Dev nD) (t : Fin cfg0.N) :
    (dats m 0 c).leavesExact 0 t = owns (c : Thread nD τ) (ms0 t) fullShare (iblk m c 0 t) := by
  unfold Dat.leavesExact; rw [live0 t, after0]

theorem leaves1 (c : Dev nD) (t : Fin cfg0.N) :
    (dats m 0 c).leavesExact 1 t = owns (c : Thread nD τ) (ms1 t) fullShare (iblk m c 1 t) := by
  unfold Dat.leavesExact; rw [live1 t, after1]

/-- An output's staging buffer at a point that is not the last of its row is handed back at what it held. -/
theorem leaves2_idle (c : Dev nD) (t : Fin cfg0.N) (h : ¬last (grid0.coords t)) :
    (dats m 0 c).leavesExact 2 t = iprop(∃ d, owns (c : Thread nD τ) (ms2 t) fullShare d) := by
  rw [Dat.leavesExact_idle (dats m 0 c) 2 t (idle2 t h) (noFlush2 t h)]
  simp only [before2]
  rfl

theorem leaves3_idle (c : Dev nD) (t : Fin cfg0.N) (h : ¬last (grid0.coords t)) :
    (dats m 0 c).leavesExact 3 t = iprop(∃ d, owns (c : Thread nD τ) (ms3 t) fullShare d) := by
  rw [Dat.leavesExact_idle (dats m 0 c) 3 t (idle3 t h) (noFlush3 t h)]
  simp only [before3]
  rfl

/-- At the last point of a row an output's staging buffer is left at the scratch buffer re-shaped. -/
theorem leaves2_last (c : Dev nD) (t : Fin cfg0.N) (h : last (grid0.coords t)) :
    (dats m 0 c).leavesExact 2 t = owns (c : Thread nD τ) (ms2 t) fullShare (k0_pay1 (scr m c t.val t.isLt).1) := by
  unfold Dat.leavesExact; rw [live2 t h, after2]

theorem leaves3_last (c : Dev nD) (t : Fin cfg0.N) (h : last (grid0.coords t)) :
    (dats m 0 c).leavesExact 3 t = owns (c : Thread nD τ) (ms3 t) fullShare (k0_pay2 (scr m c t.val t.isLt).2) := by
  unfold Dat.leavesExact; rw [live3 t h, after3]

set_option maxHeartbeats 4800000 in
/-- The body at any point. The inputs' staging buffers hold their blocks and the outputs' hold anything. Where `j = 0`
    the body resets the two scratch buffers, so the invariant hands them over at whatever they hold (before the first
    point the class's invariant, afterwards what the point before left, forgotten); elsewhere it hands them over at
    what the point before left. The body leaves them one step further, which is the invariant at the next point;
    where `j = 49` it also leaves the outputs' staging buffers at the scratch buffers re-shaped, and elsewhere hands
    them back untouched. The cases `j = 0` and `j = 49` exclude each other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ, leaves0, leaves1]
  have hN : t.val < 100 := lt_of_lt_of_eq t.isLt (show cfg0.N = 100 from N_0)
  by_cases h0 : t.val % 50 = 0
  · have h1 : ¬t.val % 50 = 49 := by omega
    have hf : first (grid0.coords t) := (first_iff t).mpr h0
    have hl : ¬last (grid0.coords t) := fun h => h1 ((last_iff t).mp h)
    rw [leaves2_idle m c t hl, leaves3_idle m c t hl, scr_reset m c t h0]
    dsimp only
    by_cases hz : t.val = 0
    · rw [PhiS_castSucc m c t, PhiS_zero m c _ _ hz, PhiA_eq]
      iintro ⟨⟨⟨HM, HL⟩, Hg⟩, Ho, ⟨%d0, H0⟩, ⟨%d1, H1⟩, H2, H3⟩
      iapply (run_first c (grid0.coords t) _ _ _ _ _ _ _ _ _ _ _ _ hf hl (iblk m c 0 t) (iblk m c 1 t) Set.univ _)
      isplitl [H0]; · iexact H0
      isplitl [H1]; · iexact H1
      isplitl [H2]; · iexact H2
      isplitl [H3]; · iexact H3
      isplitl [HM]; · iexact HM
      isplitl [HL]; · iexact HL
      iintro ⟨H0, H1, H2, H3, HM, HL⟩
      isplitl [HM HL Hg]
      · isplitl [HM HL]
        · isplitl [HM]; · iexact HM
          iexact HL
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨⟨HM, HL⟩, Hg⟩, Ho, ⟨%d0, H0⟩, ⟨%d1, H1⟩, H2, H3⟩
      iapply (run_first c (grid0.coords t) _ _ _ _ _ _ _ _ _ _ _ _ hf hl (iblk m c 0 t) (iblk m c 1 t) Set.univ _)
      isplitl [H0]; · iexact H0
      isplitl [H1]; · iexact H1
      isplitl [H2]; · iexact H2
      isplitl [H3]; · iexact H3
      isplitl [HM]; · iexists _; iexact HM
      isplitl [HL]; · iexists _; iexact HL
      iintro ⟨H0, H1, H2, H3, HM, HL⟩
      isplitl [HM HL Hg]
      · isplitl [HM HL]
        · isplitl [HM]; · iexact HM
          iexact HL
        iexact Hg
      isplitl [Ho]; · iexact Ho
      isplitl [H0]; · iexact H0
      isplitl [H1]; · iexact H1
      isplitl [H2]; · iexact H2
      iexact H3
  · have hf : ¬first (grid0.coords t) := fun h => h0 ((first_iff t).mp h)
    have hz : t.val ≠ 0 := fun h => h0 (by rw [h])
    by_cases h1 : t.val % 50 = 49
    · have hl : last (grid0.coords t) := (last_iff t).mpr h1
      rw [leaves2_last m c t hl, leaves3_last m c t hl, scr_step m c t h0]
      dsimp only
      rw [PhiS_castSucc m c t, PhiS_pos m c _ _ hz]
      iintro ⟨⟨⟨HM, HL⟩, Hg⟩, Ho, ⟨%d0, H0⟩, ⟨%d1, H1⟩, H2, H3⟩
      iapply (run_last c (grid0.coords t) _ _ _ _ _ _ _ _ _ _ _ _ hf hl (iblk m c 0 t) (iblk m c 1 t)
        (scr m c (t.val - 1) (Nat.lt_of_le_of_lt (Nat.sub_le _ _) t.isLt)).1
        (scr m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HM]; · iexact HM
      isplitl [HL]; · iexact HL
      iintro ⟨H0, H1, H2, H3, HM, HL⟩
      isplitl [HM HL Hg]
      · isplitl [HM HL]
        · isplitl [HM]; · iexact HM
          iexact HL
        iexact Hg
      isplitl [Ho]; · iexact Ho
      isplitl [H0]; · iexact H0
      isplitl [H1]; · iexact H1
      isplitl [H2]; · iexact H2
      iexact H3
    · have hl : ¬last (grid0.coords t) := fun h => h1 ((last_iff t).mp h)
      rw [leaves2_idle m c t hl, leaves3_idle m c t hl, scr_step m c t h0]
      dsimp only
      rw [PhiS_castSucc m c t, PhiS_pos m c _ _ hz]
      iintro ⟨⟨⟨HM, HL⟩, Hg⟩, Ho, ⟨%d0, H0⟩, ⟨%d1, H1⟩, H2, H3⟩
      iapply (run_mid c (grid0.coords t) _ _ _ _ _ _ _ _ _ _ _ _ hf hl (iblk m c 0 t) (iblk m c 1 t)
        (scr m c (t.val - 1) (Nat.lt_of_le_of_lt (Nat.sub_le _ _) t.isLt)).1
        (scr m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HM]; · iexact HM
      isplitl [HL]; · iexact HL
      iintro ⟨H0, H1, H2, H3, HM, HL⟩
      isplitl [HM HL Hg]
      · isplitl [HM HL]
        · isplitl [HM]; · iexact HM
          iexact HL
        iexact Hg
      isplitl [Ho]; · iexact Ho
      isplitl [H0]; · iexact H0
      isplitl [H1]; · iexact H1
      isplitl [H2]; · iexact H2
      iexact H3

/-- The body obligation, at every point: the four windows one by one. -/
theorem body_obligation (c : Dev nD) : BodyObligation (dats (F := F) m 0 c) (defs₀ (F := F)) Variants.none () Set.univ := fun t => by
  rw [bigSep_W0, bigSep_W0]
  exact sound_body m c t

/-! ## What the launch hands the region and what the last point gives back -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the scratch buffers' values are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL⟩, Hg⟩
  isplitl [HM HL]
  · isplitl [HM]
    · iexists _; iexact HM
    iexists _; iexact HL
  iexact Hg

/-- The same after the last point. -/
theorem hout (c : Dev nD) : (dats m 0 c).Φ (Fin.last cfg0.N) ⊢ Pipeline.ΦA spec0 c :=
  Phi_out m c _ (by rw [Fin.val_last]; have : cfg0.N = 100 := N_0; omega)

set_option backward.isDefEq.respectTransparency.types false in
/-- The run: every weakly fair execution of the program terminates, and every final state has each array of the call at
    what the proof data computes and every other unscoped buffer as the host lines after the call leave it. -/
theorem run_main : θ_run defs (onTc (τ := τ) (main (F := F))) (s₀ m ρ)
    (Pipeline.FramePost cfgs (dats m) 0 (Pipeline.afterTail₀ cfgs (dats m) 0 (V0 m) tailOps)) := by
  exact Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame: the program runs to the end, faults nowhere and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Kit.lean ====
/-
  The region of the one kernel call and the host lines around it, for the program at any float family.

  The memory the region is entered with is the launch memory after the fourteen host lines before the call (`V0`);
  the five stretches of host lines after the call (`tailOps`) touch only the call's arrays and buffers that bypass
  it, allocate nothing and write none of the call's arrays. The grid has 100 points, `t = 50·i + j`: the running
  maximum and sum are reset where `j = 0` (`first`) and copied to the two outputs where `j = 49` (`last`); at
  every other point the outputs' staging buffers are idle and are not written back.
-/
import proofs.«412743_j6253472383512_2_alg».proof.Proof.Gen.KernelIdeal.Launch
import proofs.«412743_j6253472383512_2_alg».proof.Proof.Gen.KernelIdeal.Skeleton
import proofs.«412743_j6253472383512_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines after the region, stretch by stretch. -/
abbrev tailOps : List (List (HloOp τ sig (Elt F))) := [hostOps1, hostOps1_1, hostOps1_2, hostOps1_3, hostOps1_4]

/-- Core `c`'s buffers when the region is entered: the launch memory after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The three arguments. -/
private abbrev argL : List (Ref sig .tc) := [main_arg0, main_arg1, main_arg2]
/-- The six buffers the host lines after the region leave alone: the three arguments and the call's other three arrays. -/
private abbrev keepL : List (Ref sig .tc) := [main_arg0, main_arg1, main_arg2, main_v10, main_v11_0, main_v11_1]

/-- A line writing the one buffer `y` writes none of a list `y` is not in. -/
private theorem keep_single {K : List (Ref sig .tc)} {y : Ref sig .tc} (h : y ∉ K) :
    ∀ r ∈ K, Proc.devRef (τ := τ) .tc r ∉ ({Proc.devRef .tc y} : Finset (DevRef τ sig)) :=
  fun r hr hm => h ((Proc.devRef_injective _ (Finset.mem_singleton.mp hm)) ▸ hr)

/-- The host lines before the region allocate nothing. -/
private theorem fresh0 : (hostOps0 : List (HloOp τ sig (Elt F))).Forall fun op => op.fresh = ∅ := by
  simp only [List.Forall]; repeat' constructor
/-- Each writes its own result buffer, which is no argument. -/
private theorem keeps0 : (hostOps0 : List (HloOp τ sig (Elt F))).Forall fun op => ∀ r ∈ argL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 1 after the region allocates nothing. -/
private theorem fresh_hostOps1 : (hostOps1 : List (HloOp τ sig (Elt F))).Forall fun op => op.fresh = ∅ := by
  simp only [List.Forall]; repeat' constructor
/-- Each of its lines writes its own result buffer, which is none of the six. -/
private theorem keeps_hostOps1 : (hostOps1 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 2 after the region allocates nothing. -/
private theorem fresh_hostOps1_1 : (hostOps1_1 : List (HloOp τ sig (Elt F))).Forall fun op => op.fresh = ∅ := by
  simp only [List.Forall]; repeat' constructor
/-- Each of its lines writes its own result buffer, which is none of the six. -/
private theorem keeps_hostOps1_1 : (hostOps1_1 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 3 after the region allocates nothing. -/
private theorem fresh_hostOps1_2 : (hostOps1_2 : List (HloOp τ sig (Elt F))).Forall fun op => op.fresh = ∅ := by
  simp only [List.Forall]; repeat' constructor
/-- Each of its lines writes its own result buffer, which is none of the six. -/
private theorem keeps_hostOps1_2 : (hostOps1_2 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 4 after the region allocates nothing. -/
private theorem fresh_hostOps1_3 : (hostOps1_3 : List (HloOp τ sig (Elt F))).Forall fun op => op.fresh = ∅ := by
  simp only [List.Forall]; repeat' constructor
/-- Each of its lines writes its own result buffer, which is none of the six. -/
private theorem keeps_hostOps1_3 : (hostOps1_3 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

/-- Stretch 5 after the region allocates nothing. -/
private theorem fresh_hostOps1_4 : (hostOps1_4 : List (HloOp τ sig (Elt F))).Forall fun op => op.fresh = ∅ := by
  simp only [List.Forall]; repeat' constructor
/-- Each of its lines writes its own result buffer, which is none of the six. -/
private theorem keeps_hostOps1_4 : (hostOps1_4 : List (HloOp τ sig (Elt F))).Forall fun op => ∀ r ∈ keepL, Proc.devRef .tc r ∉ op.writes := by
  simp only [List.Forall, StableHlo.nullary_writes, StableHlo.unary_writes, StableHlo.binary_writes, StableHlo.ternary_writes, StableHlo.quaternary_writes, StableHlo.reshape_writes, StableHlo.binaryIndexed_writes]
  repeat' constructor
  all_goals exact keep_single (by decide)

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact fresh0) main_chain

theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh_hostOps1) op hop
  · exact (List.forall_iff_forall_mem.mp fresh_hostOps1_1) op hop
  · exact (List.forall_iff_forall_mem.mp fresh_hostOps1_2) op hop
  · exact (List.forall_iff_forall_mem.mp fresh_hostOps1_3) op hop
  · exact (List.forall_iff_forall_mem.mp fresh_hostOps1_4) op hop

/-- No line after the region writes any of the six. -/
private theorem tail_keepL : ∀ ops ∈ (tailOps : List (List (HloOp τ sig (Elt F)))), ∀ op ∈ ops,
    ∀ r ∈ keepL, Proc.devRef .tc r ∉ op.writes := by
  intro ops hops op hop
  simp only [List.mem_cons, List.mem_nil_iff, or_false] at hops
  rcases hops with rfl | rfl | rfl | rfl | rfl
  · exact (List.forall_iff_forall_mem.mp keeps_hostOps1) op hop
  · exact (List.forall_iff_forall_mem.mp keeps_hostOps1_1) op hop
  · exact (List.forall_iff_forall_mem.mp keeps_hostOps1_2) op hop
  · exact (List.forall_iff_forall_mem.mp keeps_hostOps1_3) op hop
  · exact (List.forall_iff_forall_mem.mp keeps_hostOps1_4) op hop

/-- The call's four arrays are among the six. -/
private theorem arrRef_mem_keepL : ∀ w, Pipeline.arrRef spec0 w ∈ keepL := by decide

theorem tail_keeps : ∀ ops ∈ (tailOps : List (List (HloOp τ sig (Elt F)))), ∀ op ∈ ops,
    ∀ w, Proc.devRef .tc (Pipeline.arrRef spec0 w) ∉ op.writes :=
  fun ops hops op hop w => tail_keepL ops hops op hop _ (arrRef_mem_keepL w)

/-- The host lines before the region write no argument. -/
private theorem V_arg (c : Dev nD) (r : Ref sig .tc) (hr : r ∈ argL) : V m c r = m ((c : Thread nD τ).loc r) :=
  StableHlo.after_of_forall_not_mem _ _ fun op hop => by
    obtain ⟨l, hl, hop⟩ := List.mem_flatten.mp hop
    rw [List.mem_singleton] at hl
    subst hl
    exact (List.forall_iff_forall_mem.mp keeps0) op hop r hr

/-- The host lines before the region write none of the three arguments. -/
theorem V_main_arg0 (c : Dev nD) : V m c main_arg0 = m ((c : Thread nD τ).loc main_arg0) := V_arg m c _ (by decide)
theorem V_main_arg1 (c : Dev nD) : V m c main_arg1 = m ((c : Thread nD τ).loc main_arg1) := V_arg m c _ (by decide)
theorem V_main_arg2 (c : Dev nD) : V m c main_arg2 = m ((c : Thread nD τ).loc main_arg2) := V_arg m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The block the proof data reads off window `w`'s array is the region's, the array being the region's. -/
private theorem blockOf_eq {c : Dev nD} (dat : Dat τ (Elt F) Unit ℕ (UR sig nD τ) ℕ cfg0 c) (w : Fin cfg0.W)
    (hA : dat.A w = V m c (Pipeline.arrRef spec0 w)) (t : Fin cfg0.N) : dat.blockOf w t = iblk m c w t :=
  congrArg (((cfg0.win w).blk t).view.read (Elt F)) hA

/-- The scaled features' staging buffer holds the whole array at every point (fetched once, never moved). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  -- an input, never idle, uncut: what the body leaves is the block, so the buffer holds what a fetch would put there
  have hkeep : ∀ t, (cfg0.win 0).cut (cfg0.grid.coords t) (dat.after 0 t) = dat.blockOf 0 t := fun t =>
    (hafter t).trans (blockOf_eq m dat 0 hA t).symm
  have hb : dat.before 0 t d = dat.fetched 0 t d :=
    dat.before_in_eq_fetched 0 rfl (fun _ => rfl) (fun _ _ _ => rfl) hkeep t d
  -- the block is the whole buffer: the fetch fills all of it
  exact hb.trans (blockOf_eq m dat 0 hA t)

/-- The weights' staging buffer holds the point's block of 1000 rows (fetched at every point). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  have hkeep : ∀ t, (cfg0.win 1).cut (cfg0.grid.coords t) (dat.after 1 t) = dat.blockOf 1 t := fun t =>
    (hafter t).trans (blockOf_eq m dat 1 hA t).symm
  have hb : dat.before 1 t d = dat.fetched 1 t d :=
    dat.before_in_eq_fetched 1 rfl (fun _ => rfl) (fun _ _ _ => rfl) hkeep t d
  exact hb.trans (blockOf_eq m dat 1 hA t)

/-! ## The frame claim's post from the frame run's -/

/-- A buffer among the six that is no array of the call is, after the region and the lines after it, as the region found it. -/
private theorem afterTail_keep (dats : (p : Fin 1) → (c : Dev nD) → Dat τ (Elt F) Unit ℕ (UR sig nD τ) ℕ (cfgs p) c) (c : Dev nD)
    (r : Ref sig .tc) (hr : r ∈ keepL) (hne : ∀ w, Pipeline.arrRef spec0 w ≠ r) :
    Pipeline.afterTail₀ cfgs dats 0 (V0 m) tailOps c r = V m c r :=
  (StableHlo.after_of_forall_not_mem _ _ fun op hop => by
      obtain ⟨l, hl, hop⟩ := List.mem_flatten.mp hop
      exact tail_keepL l hl op hop r hr).trans
    (Pipeline.withArrays_of_ne _ c _ _ r hne)

/-- From the frame run's post: the three arguments are as at launch. -/
theorem frame_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (hr : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine ⟨?_, ?_, ?_⟩
  · -- no array of the call: the post's second clause, then nothing after the region or before it writes it
    exact ((hr c).2 main_arg0 (Pipeline.mem_restRefs_of main_arg0 rfl (by decide))).trans
      ((afterTail_keep m dats c main_arg0 (by decide) (by decide)).trans (V_main_arg0 m c))
  · -- the weights: an input's array stays as the region found it
    exact ((hr c).1 1).trans (((dats 0 c).arrAt_in 1 rfl _).trans ((hA c 1).trans (V_main_arg1 m c)))
  · exact ((hr c).2 main_arg2 (Pipeline.mem_restRefs_of main_arg2 rfl (by decide))).trans
      ((afterTail_keep m dats c main_arg2 (by decide) (by decide)).trans (V_main_arg2 m c))

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => frame_args m dats hA r hr c) h

/-! ## The two conditions of the body -/

/-- `j = 0`: the running maximum and sum are reset. -/
abbrev first (i : grid0.Coords) : Prop := (Scalar.cmpi .ne (Scalar.extui (Scalar.cmpi .eq (BitVec.ofNat 32 (i 1).val) 0#32)) 0#32) = 1#1
theorem first_iff : ∀ t : Fin cfg0.N, first (grid0.coords t) ↔ t.val % 50 = 0 :=
  (by decide +kernel : ∀ t : Fin grid0.N, first (grid0.coords t) ↔ t.val % 50 = 0)

/-- `j = 49`: they are copied to the outputs. -/
abbrev last (i : grid0.Coords) : Prop := k0_cond2 i = 1#1
theorem last_iff : ∀ t : Fin cfg0.N, last (grid0.coords t) ↔ t.val % 50 = 49 :=
  (by decide +kernel : ∀ t : Fin grid0.N, last (grid0.coords t) ↔ t.val % 50 = 49)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem idle2 : ∀ t : Fin cfg0.N, ¬last (grid0.coords t) → cfg0.idle 2 (grid0.coords t) = true :=
  (by decide +kernel : ∀ t : Fin grid0.N, ¬last (grid0.coords t) → cfg0.idle 2 (grid0.coords t) = true)
theorem idle3 : ∀ t : Fin cfg0.N, ¬last (grid0.coords t) → cfg0.idle 3 (grid0.coords t) = true :=
  (by decide +kernel : ∀ t : Fin grid0.N, ¬last (grid0.coords t) → cfg0.idle 3 (grid0.coords t) = true)
theorem noFlush2 : ∀ t : Fin cfg0.N, ¬last (grid0.coords t) → (cfg0.win 2).flush t = false :=
  (by decide +kernel : ∀ t : Fin grid0.N, ¬last (grid0.coords t) → win0_2.flush t = false)
theorem noFlush3 : ∀ t : Fin cfg0.N, ¬last (grid0.coords t) → (cfg0.win 3).flush t = false :=
  (by decide +kernel : ∀ t : Fin grid0.N, ¬last (grid0.coords t) → win0_3.flush t = false)
theorem live2 : ∀ t : Fin cfg0.N, last (grid0.coords t) → cfg0.idle 2 (grid0.coords t) = false :=
  (by decide +kernel : ∀ t : Fin grid0.N, last (grid0.coords t) → cfg0.idle 2 (grid0.coords t) = false)
theorem live3 : ∀ t : Fin cfg0.N, last (grid0.coords t) → cfg0.idle 3 (grid0.coords t) = false :=
  (by decide +kernel : ∀ t : Fin grid0.N, last (grid0.coords t) → cfg0.idle 3 (grid0.coords t) = false)

/-! ## The memrefs the body is called with -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1000x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1 .f32 := win0_3.stage (cfg0.slots t 3)
abbrev hs3 (t : Fin cfg0.N) : (ms3 t).IsWhole := hstage0_3 ((cfg0.slots t 3).cast nbuf0_3)
/-- The running maximum's and the running sum's scratch buffers. -/
abbrev scM : Memref sig .tc .vmem S1024x1 .f32 := Memref.whole cc0_scratch0
abbrev scL : Memref sig .tc .vmem S1024x1 .f32 := Memref.whole cc0_scratch1

/-- The class's region invariant with the two scratch buffers as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d)) ∗ (∃ r, prngReg c r)) := by
  unfold Pipeline.ΦA
  rw [scopedRest0_eq]
  simp only [scM, scL, owns_whole]
  -- the two sides now differ only in how the buffers' contents types are spelled
  rfl

end Cert.KernelIdeal.Hand

end
-- ==== Proof.KI.Runs.lean ====
/-
  The kernel body run once, in each of its three control cases, on whole staging and scratch memrefs.

  The body loads the scaled features `x` and a block `w` of 1000 weight rows, and from the running maximum `mp`
  and running sum `lp` it finds in the two scratch buffers stores the next ones, `k0_pay8 w x mp` and
  `k0_pay7 w x mp lp`. Where `j = 0` it first resets the scratch to `k0_pay3` (minus infinity) and `k0_pay4`
  (zero), so what it leaves does not depend on what it found; where `j = 49` it afterwards copies the two scratch
  buffers into the outputs (`k0_pay1`, `k0_pay2`: a change of shape). The inputs are left as they were.
-/
import proofs.«412743_j6253472383512_2_alg».proof.Proof.KI.Kit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer loads and stores

Every load and store of the body is through the unit rectangle at zero offsets of the buffer's own sizes: such a
load reads the contents, and after such a store the buffer reads the stored payload, whatever was stored before. -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- A whole-buffer load of a whole memref that reads `X` reads `X`. -/
private theorem readAt_whole {S : Shape} {e : EltTy} (a : Memref sig .tc .vmem S e) (h : a.IsWhole) {off : Fin S.rank → Nat}
    (hz : off = fun _ => 0) (inb : ∀ k, off k + S.size k ≤ S.size k) (X : S.Idx → Elt F e) :
    View.readAt (Elt F) a.view (Rect.unit off S.size inb).toLoadRect (h.unread X) = X := by
  rw [View.readAt_eq_ld, h.read_unread, View.ld_unit_zero hz]

/-- After a last whole-buffer store the buffer reads that store's payload. -/
private theorem read_writes_whole {S : Shape} {e : EltTy} (a : Memref sig .tc .vmem S e) (f : a.view.ty.Contents (Elt F))
    {off : Fin S.rank → Nat} (hz : off = fun _ => 0) (inb : ∀ k, off k + S.size k ≤ S.size k) (p : S.Idx → Elt F e)
    (L : List (View.Piece (Elt F) S e)) :
    a.view.read (Elt F) (a.view.writes (Elt F) f ((⟨Rect.unit off S.size inb, p⟩ : View.Piece (Elt F) S e) :: L)) = p := by
  rw [View.read_writes_eq_canon _ _ _ (fun y => ⟨_, List.mem_cons_self, View.mem_set_unit_zero hz inb y⟩),
    View.canon_cons_unit_zero hz]

set_option maxHeartbeats 1000000 in
/-- `j = 0` and not `j = 49`: reset, then one step. The outputs are not touched. -/
theorem run_first (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x1 .f32) (harg7 : arg7.IsWhole) (hc0 : first i) (hc1 : ¬last i)
    (x : Vec F S1024x512 .bf16) (w : Vec F S1000x512 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ (∃ d, owns (c : Thread nD τ) arg4 fullShare d) ∗ (∃ d, owns (c : Thread nD τ) arg5 fullShare d)
            ∗ owns (c : Thread nD τ) arg6 fullShare (k0_pay8 w x (k0_pay3 (F := F))) ∗ owns (c : Thread nD τ) arg7 fullShare (k0_pay7 w x (k0_pay3 (F := F)) (k0_pay4 (F := F)))) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf2; obtain rfl := harg3.eq_unread hf3
  sl_exec (disch := first | exact hc0 | exact hc1)
  sl_step
  iapply Hk
  -- the two inputs, as they were
  isplitl [H2]
  · iexists _; isplitr; · ipureintro; exact harg2.read_unread _
    iexact H2
  isplitl [H3]
  · iexists _; isplitr; · ipureintro; exact harg3.read_unread _
    iexact H3
  -- the two outputs, untouched
  isplitl [H4]
  · iexists (View.read (Elt F) arg4.view f4); iexists f4; isplitr; · ipureintro; rfl
    iexact H4
  isplitl [H5]
  · iexists (View.read (Elt F) arg5.view f5); iexists f5; isplitr; · ipureintro; rfl
    iexact H5
  -- the running maximum: the last store's payload, whose loads read the inputs and the reset value just stored
  isplitl [H6]
  · iexists _; isplitr; swap; · iexact H6
    ipureintro
    sl_unfold_run_names
    refine (read_writes_whole (S := S1024x1) arg6 _ hz2 _ _ _).trans ?_
    rw [View.readCov_unit_zero (S := S1024x1) arg6.view hz2, readAt_whole arg3 harg3 hz2, readAt_whole arg2 harg2 hz2]
  -- the running sum: likewise, over both reset values
  · iexists _; isplitr; swap; · iexact H7
    ipureintro
    sl_unfold_run_names
    refine (read_writes_whole (S := S1024x1) arg7 _ hz2 _ _ _).trans ?_
    rw [View.readCov_unit_zero (S := S1024x1) arg6.view hz2, View.readCov_unit_zero (S := S1024x1) arg7.view hz2,
      readAt_whole arg3 harg3 hz2, readAt_whole arg2 harg2 hz2]

set_option maxHeartbeats 1000000 in
/-- Neither `j = 0` nor `j = 49`: one step from what the point before left. The outputs are not touched. -/
theorem run_mid (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x1 .f32) (harg7 : arg7.IsWhole) (hc0 : ¬first i) (hc1 : ¬last i)
    (x : Vec F S1024x512 .bf16) (w : Vec F S1000x512 .f32) (mp lp : Vec F S1024x1 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d)
        ∗ owns (c : Thread nD τ) arg6 fullShare mp ∗ owns (c : Thread nD τ) arg7 fullShare lp
        ∗ (iprop(owns (c : Thread nD τ) arg2 fullShare x ∗ owns (c : Thread nD τ) arg3 fullShare w ∗ (∃ d, owns (c : Thread nD τ) arg4 fullShare d) ∗ (∃ d, owns (c : Thread nD τ) arg5 fullShare d)
            ∗ owns (c : Thread nD τ) arg6 fullShare (k0_pay8 w x mp) ∗ owns (c : Thread nD τ) arg7 fullShare (k0_pay7 w x mp lp)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  -- the two inputs, as they were
  isplitl [H2]
  · iexists _; isplitr; · ipureintro; exact harg2.read_unread _
    iexact H2
  isplitl [H3]
  · iexists _; isplitr; · ipureintro; exact harg3.read_unread _
    iexact H3
  -- the two outputs, untouched
  isplitl [H4]
  · iexists (View.read (Elt F) arg4.view f4); iexists f4; isplitr; · ipureintro; rfl
    iexact H4
  isplitl [H5]
  · iexists (View.read (Elt F) arg5.view f5); iexists f5; isplitr; · ipureintro; rfl
    iexact H5
  -- the running maximum: the one store's payload, whose loads read the contents found
  isplitl [H6]
  · iexists _; isplitr; swap; · iexact H6
    ipureintro
    rw [read_writes_whole (S := S1024x1) arg6 _ hz2, readAt_whole arg3 harg3 hz2, readAt_whole arg2 harg2 hz2,
      readAt_whole arg6 harg6 hz2]
  -- the running sum: likewise
  · iexists _; isplitr; swap; · iexact H7
    ipureintro
    rw [read_writes_whole (S := S1024x1) arg7 _ hz2, readAt_whole arg3 harg3 hz2, readAt_whole arg2 harg2 hz2,
      readAt_whole arg6 harg6 hz2, readAt_whole arg7 harg7 hz2]

set_option maxHeartbeats 1000000 in
/-- `j = 49` and not `j = 0`: one step, then the two scratch buffers copied to the outputs. -/
theorem run_last (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1024x1 .f32) (harg6 : arg6.IsWhole) (arg7 : Memref sig .tc .vmem S1024x1 .f32) (harg7 : arg7.IsWhole) (hc0 : ¬first i) (hc1 : last i)
    (x : Vec F S1024x512 .bf16) (w : Vec F S1000x512 .f32) (mp lp : Vec F S1024x1 .f32) (E : Set ℕ) (K : PUnit → sProp 𝕄) :
    iprop(owns (c : Thread nD τ) arg2 fullShare x ∗ owns (c : Thread nD τ) arg3 fullShare w ∗ (∃ d, owns (c : Thread nD τ) arg4 fullShare d) ∗ (∃ d, owns (c : Thread nD τ) arg5 fullShare d)
        ∗ owns (c : Thread nD τ) arg6 fullShare mp ∗ owns (c : Thread nD τ) arg7 fullShare lp
        ∗ (iprop(owns (c : Thread nD τ) arg2 fullShare x ∗ owns (c : Thread nD τ) arg3 fullShare w
            ∗ owns (c : Thread nD τ) arg4 fullShare (k0_pay1 (k0_pay8 w x mp)) ∗ owns (c : Thread nD τ) arg5 fullShare (k0_pay2 (k0_pay7 w x mp lp))
            ∗ owns (c : Thread nD τ) arg6 fullShare (k0_pay8 w x mp) ∗ owns (c : Thread nD τ) arg7 fullShare (k0_pay7 w x mp lp)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  -- the two inputs, as they were
  isplitl [H2]
  · iexists _; isplitr; · ipureintro; exact harg2.read_unread _
    iexact H2
  isplitl [H3]
  · iexists _; isplitr; · ipureintro; exact harg3.read_unread _
    iexact H3
  -- the two outputs: the reshaped copy of what was just stored in the scratch and loaded back
  isplitl [H4]
  · iexists _; isplitr; swap; · iexact H4
    ipureintro
    sl_unfold_run_names
    refine (read_writes_whole (S := S1x1024x1) arg4 _ hz3 _ _ _).trans ?_
    rw [View.readCov_unit_zero (S := S1024x1) _ hz2, readAt_whole arg3 harg3 hz2, readAt_whole arg2 harg2 hz2,
      readAt_whole arg6 harg6 hz2]
  isplitl [H5]
  · iexists _; isplitr; swap; · iexact H5
    ipureintro
    sl_unfold_run_names
    refine (read_writes_whole (S := S1x1024x1) arg5 _ hz3 _ _ _).trans ?_
    rw [View.readCov_unit_zero (S := S1024x1) _ hz2, readAt_whole arg3 harg3 hz2, readAt_whole arg2 harg2 hz2,
      readAt_whole arg6 harg6 hz2, readAt_whole arg7 harg7 hz2]
  -- the running maximum and the running sum: the one store's payload each
  isplitl [H6]
  · iexists _; isplitr; swap; · iexact H6
    ipureintro
    sl_unfold_run_names
    rw [read_writes_whole (S := S1024x1) arg6 _ hz2, readAt_whole arg3 harg3 hz2, readAt_whole arg2 harg2 hz2,
      readAt_whole arg6 harg6 hz2]
  · iexists _; isplitr; swap; · iexact H7
    ipureintro
    sl_unfold_run_names
    rw [read_writes_whole (S := S1024x1) arg7 _ hz2, readAt_whole arg3 harg3 hz2, readAt_whole arg2 harg2 hz2,
      readAt_whole arg6 harg6 hz2, readAt_whole arg7 harg7 hz2]

end Cert.KernelIdeal.Hand

end
-- ==== Proof.KI.Frame.lean ====
/-
  The proof data of the one kernel call and its frame, for the program at any float family.

  `scr m c n` is what the two scratch buffers hold after the body at position `n = 50·i + j`: (running maximum,
  running sum). Where `j = 0` it is one step from the reset values; elsewhere one step from what position `n − 1`
  left. The outputs' staging buffers after the body are the scratch buffers re-shaped; they are written back only
  where `j = 49`. The region invariant carries the two scratch buffers at `scr` from one point to the next.
-/
import proofs.«412743_j6253472383512_2_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the two scratch buffers hold after the body at position `n`: (running maximum, running sum). -/
def scr (c : Dev nD) : (n : ℕ) → n < cfg0.N → Vec F S1024x1 .f32 × Vec F S1024x1 .f32
  | 0, hn => (k0_pay8 (iblk m c 1 ⟨0, hn⟩) (iblk m c 0 ⟨0, hn⟩) (k0_pay3 (F := F)),
              k0_pay7 (iblk m c 1 ⟨0, hn⟩) (iblk m c 0 ⟨0, hn⟩) (k0_pay3 (F := F)) (k0_pay4 (F := F)))
  | n + 1, hn =>
    if (n + 1) % 50 = 0 then
      (k0_pay8 (iblk m c 1 ⟨n + 1, hn⟩) (iblk m c 0 ⟨n + 1, hn⟩) (k0_pay3 (F := F)),
       k0_pay7 (iblk m c 1 ⟨n + 1, hn⟩) (iblk m c 0 ⟨n + 1, hn⟩) (k0_pay3 (F := F)) (k0_pay4 (F := F)))
    else
      (k0_pay8 (iblk m c 1 ⟨n + 1, hn⟩) (iblk m c 0 ⟨n + 1, hn⟩) (scr c n (Nat.lt_of_succ_lt hn)).1,
       k0_pay7 (iblk m c 1 ⟨n + 1, hn⟩) (iblk m c 0 ⟨n + 1, hn⟩) (scr c n (Nat.lt_of_succ_lt hn)).1 (scr c n (Nat.lt_of_succ_lt hn)).2)

/-- At a point with `j = 0`: one step from the reset values. -/
theorem scr_reset (c : Dev nD) (t : Fin cfg0.N) (h : t.val % 50 = 0) :
    scr m c t.val t.isLt = (k0_pay8 (iblk m c 1 t) (iblk m c 0 t) (k0_pay3 (F := F)),
      k0_pay7 (iblk m c 1 t) (iblk m c 0 t) (k0_pay3 (F := F)) (k0_pay4 (F := F))) := by
  obtain ⟨n, hn⟩ := t
  cases n with
  | zero => rfl
  | succ n => exact if_pos h

/-- At any other point: one step from what the point before left. -/
theorem scr_step (c : Dev nD) (t : Fin cfg0.N) (h : t.val % 50 ≠ 0) :
    scr m c t.val t.isLt = (k0_pay8 (iblk m c 1 t) (iblk m c 0 t) (scr m c (t.val - 1) (Nat.lt_of_le_of_lt (Nat.sub_le _ _) t.isLt)).1,
      k0_pay7 (iblk m c 1 t) (iblk m c 0 t) (scr m c (t.val - 1) (Nat.lt_of_le_of_lt (Nat.sub_le _ _) t.isLt)).1
        (scr m c (t.val - 1) (Nat.lt_of_le_of_lt (Nat.sub_le _ _) t.isLt)).2) := by
  obtain ⟨n, hn⟩ := t
  cases n with
  | zero => exact absurd (Nat.zero_mod _) h
  | succ n => exact if_neg h

/-- The region invariant before position `n`: before the first point the class's; afterwards the two scratch buffers at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (scr m c n hn).1 ∗ owns (c : Thread nD τ) scL fullShare (scr m c n hn).2) ∗ (∃ r, prngReg c r))

/-- Before the first point the invariant is the class's. -/
theorem PhiS_zero (c : Dev nD) (n : ℕ) (h : n ≤ cfg0.N) (hz : n = 0) : PhiS m c n h = Pipeline.ΦA spec0 c := by
  subst hz; rfl

/-- After point `n`: the two scratch buffers at that point's values. -/
theorem PhiS_succ (c : Dev nD) (n : ℕ) (hn : n < cfg0.N) :
    PhiS m c (n + 1) hn = iprop(iprop(owns (c : Thread nD τ) scM fullShare (scr m c n hn).1 ∗ owns (c : Thread nD τ) scL fullShare (scr m c n hn).2) ∗ (∃ r, prngReg c r)) := rfl

/-- Before a point that is not the first: the two scratch buffers at what the point before left. -/
theorem PhiS_pos (c : Dev nD) (n : ℕ) (h : n ≤ cfg0.N) (hz : n ≠ 0) :
    PhiS m c n h = iprop(iprop(owns (c : Thread nD τ) scM fullShare (scr m c (n - 1) (by omega)).1 ∗ owns (c : Thread nD τ) scL fullShare (scr m c (n - 1) (by omega)).2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (scr m c t.val t.isLt).1
    | ⟨3, _⟩ => k0_pay2 (scr m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay1 (scr m c t.val t.isLt).1 := by dsimp only [dats]
theorem after3 (c : Dev nD) (t : Fin cfg0.N) : (dats m 0 c).after 3 t = k0_pay2 (scr m c t.val t.isLt).2 := by dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-! ## Each window's staging buffer before the body -/

/-- The scaled features' staging buffer holds the whole array at every point. -/
theorem before0 (c : Dev nD) (t : Fin cfg0.N) (d) : (dats m 0 c).before 0 t d = iblk m c 0 t :=
  before_in0 m (dats m 0 c) (A_eq m c 0) (after0 m c) t d

/-- The weights' staging buffer holds the point's block. -/
theorem before1 (c : Dev nD) (t : Fin cfg0.N) (d) : (dats m 0 c).before 1 t d = iblk m c 1 t :=
  before_in1 m (dats m 0 c) (A_eq m c 1) (after1 m c) t d

/-- A window that is never fetched and is idle wherever it is not written back holds, when the body runs, what
    nothing has filled: by induction on the position, the point before either wrote the block back (the buffer
    is fresh) or was idle (the buffer holds what it held there). -/
theorem before_idle_id {c : Dev nD} (dat : Dat τ (Elt F) Unit ℕ (UR sig nD τ) ℕ cfg0 c) (w : Fin cfg0.W)
    (hfetch : ∀ t, (cfg0.win w).fetch t = false)
    (hidle : ∀ t : Fin cfg0.N, (cfg0.win w).flush t = false → cfg0.idle w (cfg0.grid.coords t) = true) (d) :
    ∀ (n : ℕ) (hn : n < cfg0.N), dat.before w ⟨n, hn⟩ d = d
  | 0, hn => by
    unfold Dat.before
    rw [hfetch, if_neg Bool.false_ne_true, if_pos rfl]
  | n + 1, hn => by
    rw [dat.before_of_pos w ⟨n + 1, hn⟩ (Nat.succ_ne_zero n) (hfetch _)]
    cases hfl : (cfg0.win w).flush ⟨n + 1 - 1, Nat.lt_of_le_of_lt (Nat.sub_le _ _) hn⟩ with
    | true => exact if_pos rfl
    | false =>
      rw [if_neg Bool.false_ne_true]
      unfold Dat.left
      rw [hidle _ hfl]
      exact before_idle_id dat w hfetch hidle d n (Nat.lt_of_succ_lt hn)

/-- A point that does not write the first output back is not a last point of its row, so the window is idle there. -/
theorem idle_of_noFlush2 (t : Fin cfg0.N) (hf : (cfg0.win 2).flush t = false) : cfg0.idle 2 (cfg0.grid.coords t) = true :=
  idle2 t fun hl => by
    have := (flush0_2 t).mpr ((last_iff t).mp hl)
    rw [hf] at this; exact Bool.false_ne_true this

theorem idle_of_noFlush3 (t : Fin cfg0.N) (hf : (cfg0.win 3).flush t = false) : cfg0.idle 3 (cfg0.grid.coords t) = true :=
  idle3 t fun hl => by
    have := (flush0_3 t).mpr ((last_iff t).mp hl)
    rw [hf] at this; exact Bool.false_ne_true this

/-- The first output's staging buffer holds, when the body runs, what nothing has filled. -/
theorem before2 (c : Dev nD) (t : Fin cfg0.N) (d) : (dats m 0 c).before 2 t d = d :=
  before_idle_id (dats m 0 c) 2 ((cfg0.win 2).fetch_out rfl) idle_of_noFlush2 d t.val t.isLt

/-- The second output's, the same. -/
theorem before3 (c : Dev nD) (t : Fin cfg0.N) (d) : (dats m 0 c).before 3 t d = d :=
  before_idle_id (dats m 0 c) 3 ((cfg0.win 3).fetch_out rfl) idle_of_noFlush3 d t.val t.isLt

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- An input's staging buffer is left at its block. -/
theorem leaves0 (c : Dev nD) (t : Fin cfg0.N) :
    (dats m 0 c).leavesExact 0 t = owns (c : Thread nD τ) (ms0 t) fullShare (iblk m c 0 t) := by
  unfold Dat.leavesExact; rw [live0 t, after0]

theorem leaves1 (c : Dev nD) (t : Fin cfg0.N) :
    (dats m 0 c).leavesExact 1 t = owns (c : Thread nD τ) (ms1 t) fullShare (iblk m c 1 t) := by
  unfold Dat.leavesExact; rw [live1 t, after1]

/-- An output's staging buffer at a point that is not the last of its row is handed back at what it held. -/
theorem leaves2_idle (c : Dev nD) (t : Fin cfg0.N) (h : ¬last (grid0.coords t)) :
    (dats m 0 c).leavesExact 2 t = iprop(∃ d, owns (c : Thread nD τ) (ms2 t) fullShare d) := by
  rw [Dat.leavesExact_idle (dats m 0 c) 2 t (idle2 t h) (noFlush2 t h)]
  simp only [before2]
  rfl

theorem leaves3_idle (c : Dev nD) (t : Fin cfg0.N) (h : ¬last (grid0.coords t)) :
    (dats m 0 c).leavesExact 3 t = iprop(∃ d, owns (c : Thread nD τ) (ms3 t) fullShare d) := by
  rw [Dat.leavesExact_idle (dats m 0 c) 3 t (idle3 t h) (noFlush3 t h)]
  simp only [before3]
  rfl

/-- At the last point of a row an output's staging buffer is left at the scratch buffer re-shaped. -/
theorem leaves2_last (c : Dev nD) (t : Fin cfg0.N) (h : last (grid0.coords t)) :
    (dats m 0 c).leavesExact 2 t = owns (c : Thread nD τ) (ms2 t) fullShare (k0_pay1 (scr m c t.val t.isLt).1) := by
  unfold Dat.leavesExact; rw [live2 t h, after2]

theorem leaves3_last (c : Dev nD) (t : Fin cfg0.N) (h : last (grid0.coords t)) :
    (dats m 0 c).leavesExact 3 t = owns (c : Thread nD τ) (ms3 t) fullShare (k0_pay2 (scr m c t.val t.isLt).2) := by
  unfold Dat.leavesExact; rw [live3 t h, after3]

set_option maxHeartbeats 4800000 in
/-- The body at any point. The inputs' staging buffers hold their blocks and the outputs' hold anything. Where `j = 0`
    the body resets the two scratch buffers, so the invariant hands them over at whatever they hold (before the first
    point the class's invariant, afterwards what the point before left, forgotten); elsewhere it hands them over at
    what the point before left. The body leaves them one step further, which is the invariant at the next point;
    where `j = 49` it also leaves the outputs' staging buffers at the scratch buffers re-shaped, and elsewhere hands
    them back untouched. The cases `j = 0` and `j = 49` exclude each other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ, leaves0, leaves1]
  have hN : t.val < 100 := lt_of_lt_of_eq t.isLt (show cfg0.N = 100 from N_0)
  by_cases h0 : t.val % 50 = 0
  · have h1 : ¬t.val % 50 = 49 := by omega
    have hf : first (grid0.coords t) := (first_iff t).mpr h0
    have hl : ¬last (grid0.coords t) := fun h => h1 ((last_iff t).mp h)
    rw [leaves2_idle m c t hl, leaves3_idle m c t hl, scr_reset m c t h0]
    dsimp only
    by_cases hz : t.val = 0
    · rw [PhiS_castSucc m c t, PhiS_zero m c _ _ hz, PhiA_eq]
      iintro ⟨⟨⟨HM, HL⟩, Hg⟩, Ho, ⟨%d0, H0⟩, ⟨%d1, H1⟩, H2, H3⟩
      iapply (run_first c (grid0.coords t) _ _ _ _ _ _ _ _ _ _ _ _ hf hl (iblk m c 0 t) (iblk m c 1 t) Set.univ _)
      isplitl [H0]; · iexact H0
      isplitl [H1]; · iexact H1
      isplitl [H2]; · iexact H2
      isplitl [H3]; · iexact H3
      isplitl [HM]; · iexact HM
      isplitl [HL]; · iexact HL
      iintro ⟨H0, H1, H2, H3, HM, HL⟩
      isplitl [HM HL Hg]
      · isplitl [HM HL]
        · isplitl [HM]; · iexact HM
          iexact HL
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨⟨HM, HL⟩, Hg⟩, Ho, ⟨%d0, H0⟩, ⟨%d1, H1⟩, H2, H3⟩
      iapply (run_first c (grid0.coords t) _ _ _ _ _ _ _ _ _ _ _ _ hf hl (iblk m c 0 t) (iblk m c 1 t) Set.univ _)
      isplitl [H0]; · iexact H0
      isplitl [H1]; · iexact H1
      isplitl [H2]; · iexact H2
      isplitl [H3]; · iexact H3
      isplitl [HM]; · iexists _; iexact HM
      isplitl [HL]; · iexists _; iexact HL
      iintro ⟨H0, H1, H2, H3, HM, HL⟩
      isplitl [HM HL Hg]
      · isplitl [HM HL]
        · isplitl [HM]; · iexact HM
          iexact HL
        iexact Hg
      isplitl [Ho]; · iexact Ho
      isplitl [H0]; · iexact H0
      isplitl [H1]; · iexact H1
      isplitl [H2]; · iexact H2
      iexact H3
  · have hf : ¬first (grid0.coords t) := fun h => h0 ((first_iff t).mp h)
    have hz : t.val ≠ 0 := fun h => h0 (by rw [h])
    by_cases h1 : t.val % 50 = 49
    · have hl : last (grid0.coords t) := (last_iff t).mpr h1
      rw [leaves2_last m c t hl, leaves3_last m c t hl, scr_step m c t h0]
      dsimp only
      rw [PhiS_castSucc m c t, PhiS_pos m c _ _ hz]
      iintro ⟨⟨⟨HM, HL⟩, Hg⟩, Ho, ⟨%d0, H0⟩, ⟨%d1, H1⟩, H2, H3⟩
      iapply (run_last c (grid0.coords t) _ _ _ _ _ _ _ _ _ _ _ _ hf hl (iblk m c 0 t) (iblk m c 1 t)
        (scr m c (t.val - 1) (Nat.lt_of_le_of_lt (Nat.sub_le _ _) t.isLt)).1
        (scr m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HM]; · iexact HM
      isplitl [HL]; · iexact HL
      iintro ⟨H0, H1, H2, H3, HM, HL⟩
      isplitl [HM HL Hg]
      · isplitl [HM HL]
        · isplitl [HM]; · iexact HM
          iexact HL
        iexact Hg
      isplitl [Ho]; · iexact Ho
      isplitl [H0]; · iexact H0
      isplitl [H1]; · iexact H1
      isplitl [H2]; · iexact H2
      iexact H3
    · have hl : ¬last (grid0.coords t) := fun h => h1 ((last_iff t).mp h)
      rw [leaves2_idle m c t hl, leaves3_idle m c t hl, scr_step m c t h0]
      dsimp only
      rw [PhiS_castSucc m c t, PhiS_pos m c _ _ hz]
      iintro ⟨⟨⟨HM, HL⟩, Hg⟩, Ho, ⟨%d0, H0⟩, ⟨%d1, H1⟩, H2, H3⟩
      iapply (run_mid c (grid0.coords t) _ _ _ _ _ _ _ _ _ _ _ _ hf hl (iblk m c 0 t) (iblk m c 1 t)
        (scr m c (t.val - 1) (Nat.lt_of_le_of_lt (Nat.sub_le _ _) t.isLt)).1
        (scr m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [HM]; · iexact HM
      isplitl [HL]; · iexact HL
      iintro ⟨H0, H1, H2, H3, HM, HL⟩
      isplitl [HM HL Hg]
      · isplitl [HM HL]
        · isplitl [HM]; · iexact HM
          iexact HL
        iexact Hg
      isplitl [Ho]; · iexact Ho
      isplitl [H0]; · iexact H0
      isplitl [H1]; · iexact H1
      isplitl [H2]; · iexact H2
      iexact H3

/-- The body obligation, at every point: the four windows one by one. -/
theorem body_obligation (c : Dev nD) : BodyObligation (dats (F := F) m 0 c) (defs₀ (F := F)) Variants.none () Set.univ := fun t => by
  rw [bigSep_W0, bigSep_W0]
  exact sound_body m c t

/-! ## What the launch hands the region and what the last point gives back -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the scratch buffers' values are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL⟩, Hg⟩
  isplitl [HM HL]
  · isplitl [HM]
    · iexists _; iexact HM
    iexists _; iexact HL
  iexact Hg

/-- The same after the last point. -/
theorem hout (c : Dev nD) : (dats m 0 c).Φ (Fin.last cfg0.N) ⊢ Pipeline.ΦA spec0 c :=
  Phi_out m c _ (by rw [Fin.val_last]; have : cfg0.N = 100 := N_0; omega)

set_option backward.isDefEq.respectTransparency.types false in
/-- The run: every weakly fair execution of the program terminates, and every final state has each array of the call at
    what the proof data computes and every other unscoped buffer as the host lines after the call leave it. -/
theorem run_main : θ_run defs (onTc (τ := τ) (main (F := F))) (s₀ m ρ)
    (Pipeline.FramePost cfgs (dats m) 0 (Pipeline.afterTail₀ cfgs (dats m) 0 (V0 m) tailOps)) := by
  exact Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame: the program runs to the end, faults nowhere and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Arc.Spec.lean ====
/-
  The two losses, index by index, over the extended reals.

  Inputs: features `X b d` (1024 rows of 512), class weights `W k d` (100000 rows of 512), labels `T b`
  (32-bit words). A row `v` is scaled to unit length by `unit v d = v d / max (√(∑ v²)) ε`.

  The reference forms the cosine `cosR b k = ∑ d, unit (X b) d · unit (W k) d`, replaces the label's column by the
  margin value `phi (cosR b k)`, scales by 30 and takes minus the mean of the log-softmax at the label:
  `RLoss`.

  The kernel scales the features first (`xs = 30 · unit`), so its logits are `zK b k = ∑ d, xs b d · unit (W k) d`.
  Over each half of the classes (50 blocks of 1000) it keeps a running maximum and a running sum of exponentials
  (`scan`: one step is `stM`, `stL`), merges the two halves, and then corrects the one summand of the label's
  column from `exp (S cos − m)` to `exp (S phi − m)`: `KLoss`.
-/
import Idealize.ShloMosaic.PureOps.Ideal

noncomputable section

namespace Cert.ArcSpec

open Idealize.ShloMosaic

abbrev Feat := Fin 1024 → Fin 512 → EReal
abbrev Wt := Fin 100000 → Fin 512 → EReal
abbrev Lab := Fin 1024 → BitVec 32

/-! ## The literals, as the words both programs carry -/

def eps : EReal := Ideal.ofBits .f32 0x2B8CBCCC#32
def s30 : EReal := Ideal.ofBits .f32 0x41F00000#32
def one : EReal := Ideal.ofBits .f32 0x3F800000#32
def zero : EReal := Ideal.ofBits .f32 0x00000000#32
def cosM : EReal := Ideal.ofBits .f32 0x3F7490EF#32
def sinM : EReal := Ideal.ofBits .f32 0x3E974E6D#32
def th : EReal := Ideal.ofBits .f32 0xBF7490EF#32
def mm : EReal := Ideal.ofBits .f32 0x3DB5914F#32
def nB : EReal := Ideal.ofBits .f32 0x44800000#32
def negInf : EReal := Ideal.ofBits .f32 0xFF800000#32

/-! ## Rows of unit length -/

/-- The Euclidean length of a row, kept away from zero by `eps`. -/
def nrm (v : Fin 512 → EReal) : EReal := max (Ideal.sqrt (∑ d, v d * v d)) eps

/-- A row scaled to unit length. -/
def unit (v : Fin 512 → EReal) (d : Fin 512) : EReal := Ideal.div (v d) (nrm v)

/-! ## The margin -/

/-- The sine that goes with a cosine. -/
def sine (c : EReal) : EReal := Ideal.sqrt (max (one - c * c) zero)

/-- The cosine of the angle widened by the margin, with the linear continuation past the threshold. -/
def phi (c : EReal) : EReal := if th < c then c * cosM - sine c * sinM else c - mm

/-- The class a label word names (read modulo the number of classes, so that it is total). -/
def tIdx (T : Lab) (b : Fin 1024) : Fin 100000 := ⟨(T b).toNat % 100000, Nat.mod_lt _ (by decide)⟩

/-! ## The reference -/

def cosR (X : Feat) (W : Wt) (b : Fin 1024) (k : Fin 100000) : EReal := ∑ d, unit (X b) d * unit (W k) d

/-- The scaled logits, the label's column replaced by the margin value. -/
def logitR (X : Feat) (W : Wt) (T : Lab) (b : Fin 1024) (k : Fin 100000) : EReal :=
  (if T b = BitVec.ofNat 32 k.val then phi (cosR X W b k) else cosR X W b k) * s30

def rowMaxR (X : Feat) (W : Wt) (T : Lab) (b : Fin 1024) : EReal :=
  (Finset.univ : Finset (Fin 100000)).fold max negInf (logitR X W T b)

def logpR (X : Feat) (W : Wt) (T : Lab) (b : Fin 1024) (k : Fin 100000) : EReal :=
  (logitR X W T b k - rowMaxR X W T b) - Ideal.log (∑ k', Ideal.exp (logitR X W T b k' - rowMaxR X W T b))

def RLoss (X : Feat) (W : Wt) (T : Lab) : EReal := - Ideal.div (∑ b, logpR X W T b (tIdx T b)) nB

/-! ## The kernel -/

def xs (X : Feat) (b : Fin 1024) (d : Fin 512) : EReal := s30 * unit (X b) d

def zK (X : Feat) (W : Wt) (b : Fin 1024) (k : Fin 100000) : EReal := ∑ d, xs X b d * unit (W k) d

/-- One step of the running maximum over a block of 1000 logits. -/
def stM (mp : EReal) (zs : Fin 1000 → EReal) : EReal := max mp ((Finset.univ : Finset (Fin 1000)).fold max negInf zs)

/-- One step of the running sum of exponentials, rescaled to the new maximum. -/
def stL (mp lp : EReal) (zs : Fin 1000 → EReal) : EReal :=
  Ideal.exp (mp - stM mp zs) * lp + ∑ r, Ideal.exp (zs r - stM mp zs)

/-- Class `r` of block `q` (blocks of 1000 classes in order; total by reading modulo the class count). -/
def cls (q : ℕ) (r : Fin 1000) : Fin 100000 := ⟨(q * 1000 + r.val) % 100000, Nat.mod_lt _ (by decide)⟩

/-- The running (maximum, sum) of row `b` over the first `n` blocks of half `i` (blocks `50 i … 50 i + n − 1`). -/
def scan (X : Feat) (W : Wt) (b : Fin 1024) (i : ℕ) : ℕ → EReal × EReal
  | 0 => (negInf, zero)
  | n + 1 =>
    ((stM (scan X W b i n).1 fun r => zK X W b (cls (50 * i + n) r)),
     (stL (scan X W b i n).1 (scan X W b i n).2 fun r => zK X W b (cls (50 * i + n) r)))

def mHalf (X : Feat) (W : Wt) (b : Fin 1024) (i : ℕ) : EReal := (scan X W b i 50).1
def lHalf (X : Feat) (W : Wt) (b : Fin 1024) (i : ℕ) : EReal := (scan X W b i 50).2

def mTot (X : Feat) (W : Wt) (b : Fin 1024) : EReal := max (mHalf X W b 0) (mHalf X W b 1)

def lTot (X : Feat) (W : Wt) (b : Fin 1024) : EReal :=
  Ideal.exp (mHalf X W b 0 - mTot X W b) * lHalf X W b 0 + Ideal.exp (mHalf X W b 1 - mTot X W b) * lHalf X W b 1

/-- The label's scaled logit, recomputed from the label's own weight row. -/
def sT (X : Feat) (W : Wt) (T : Lab) (b : Fin 1024) : EReal := ∑ d, xs X b d * unit (W (tIdx T b)) d

/-- The label's scaled margin logit. -/
def sPhi (X : Feat) (W : Wt) (T : Lab) (b : Fin 1024) : EReal := s30 * phi (Ideal.div (sT X W T b) s30)

def lTrue (X : Feat) (W : Wt) (T : Lab) (b : Fin 1024) : EReal :=
  (lTot X W b + Ideal.exp (sPhi X W T b - mTot X W b)) - Ideal.exp (sT X W T b - mTot X W b)

def lossRow (X : Feat) (W : Wt) (T : Lab) (b : Fin 1024) : EReal :=
  (mTot X W b + Ideal.log (lTrue X W T b)) - sPhi X W T b

def KLoss (X : Feat) (W : Wt) (T : Lab) : EReal := Ideal.div (∑ b, lossRow X W T b) nB

/-! ## What the precondition gives -/

/-- Every entry a real number. -/
def Fin2 {A B : Type} (X : A → B → EReal) : Prop := ∀ a b, X a b ≠ ⊤ ∧ X a b ≠ ⊥

/-- Every label names a class. -/
def InRange (T : Lab) : Prop := ∀ b, (T b).toNat < 100000

end Cert.ArcSpec

end
-- ==== Proof.Arc.Coords.lean ====
/-
  The argument arrays as coordinate functions: features `X b d`, class weights `W k d`, labels `T b`.
-/
import proofs.«412743_j6253472383512_2_alg».proof.Proof.Arc.Spec
import Idealize.ShloMosaic.Lib.ValueIdx

noncomputable section

namespace Cert.ArcSpec

open Idealize.ShloMosaic Idealize.ShloMosaic.ValueIdx

/-- A 1024 × 512 array of extended reals read by row and column. -/
def featOf (a : (⟨2, ![1024, 512]⟩ : Shape).Idx → EReal) : Feat := fun b d => a (ix2 b d)
/-- A 100000 × 512 array of extended reals read by row and column. -/
def wtOf (a : (⟨2, ![100000, 512]⟩ : Shape).Idx → EReal) : Wt := fun k d => a (ix2 k d)
/-- A length-1024 array of words read by position. -/
def labOf (a : (⟨1, ![1024]⟩ : Shape).Idx → BitVec 32) : Lab := fun b => a (ix1 b)

end Cert.ArcSpec

end
-- ==== Proof.Arc.Body.lean ====
/-
  The kernel body's stored values read at an index, at the ideal values.

  With `x` the scaled features (1024 × 512) and `w` a block of 1000 weight rows, the product `k0_pay5 w x` at row `b`
  and column `r` is `∑ d, x b d · unit (w r) d`: the block's rows are scaled to unit length and contracted with row
  `b` over the 512 coordinates. The next running maximum `k0_pay8` and the next running sum `k0_pay7` at row `b` are
  one step `stM`, `stL` over that row of products; the reset values are minus infinity and zero; the outputs are the
  scratch buffers under a leading unit axis.
-/
import proofs.«412743_j6253472383512_2_alg».proof.Proof.Gen.KernelIdeal.Skeleton
import proofs.«412743_j6253472383512_2_alg».proof.Proof.Arc.Coords
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.ArcSpec

/-- Row `r` of a block of 1000 weight rows. -/
def wrow (w : Vec Ideal S1000x512 .f32) (r : Fin 1000) : Fin 512 → EReal := fun d => w (ix2 r d)

/-- Row `b` of the products against the block. -/
def zrow (w : Vec Ideal S1000x512 .f32) (x : Vec Ideal S1024x512 .bf16) (b : Fin 1024) : Fin 1000 → EReal :=
  fun r => ∑ d, x (ix2 b d) * unit (wrow w r) d

/-! ## Layout operations on a column, read at an index -/

section Layout
variable {α : Type}

/-- A length-`a` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `p` with `k` inserted on axis 1 is `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Layout

/-! ## Row reductions read at a row -/

/-- A sum over axis 1 of an `[a, b]` array reads, at row `p`, the sum of that row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_axis1 h p k))

/-- A maximum over axis 1 of an `[a, b]` array reads, at row `p`, the fold of `max` over that row from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) fun k => src (ix2 p k) :=
  (Ideal.multiReduction_maximumf_single src acc h hφ hacc (ix1 p)).trans
    (congrArg (Finset.fold max (Ideal.ofBits φ acc) · Finset.univ) (funext fun k => congrArg src (lift_axis1 h p k)))

/-! ## The product against the block, read at a row and a column -/

/-- The left operand's row is the output's row. -/
theorem lhs_dot_0 (i : S1024x1000.Idx) (q : dot_S1024x512_S1000x512_S1024x1000_1_1_0_0_n_n.contr.Idx) :
    (dot_S1024x512_S1000x512_S1024x1000_1_1_0_0_n_n.lhsIdx i q 0).val = (i 0).val := by
  unfold DotDims.lhsIdx
  rw [dif_neg (show ¬(0 : Fin S1024x512.rank) ∈ dot_S1024x512_S1000x512_S1024x1000_1_1_0_0_n_n.lhsBatch by decide), dif_pos (show (0 : Fin S1024x512.rank) ∈ dot_S1024x512_S1000x512_S1024x1000_1_1_0_0_n_n.lhsNonContracting by decide)]
  rfl
/-- The left operand's column is the contracted coordinate. -/
theorem lhs_dot_1 (i : S1024x1000.Idx) (q : dot_S1024x512_S1000x512_S1024x1000_1_1_0_0_n_n.contr.Idx) :
    (dot_S1024x512_S1000x512_S1024x1000_1_1_0_0_n_n.lhsIdx i q 1).val = (q ⟨0, by decide⟩).val :=
  dot_S1024x512_S1000x512_S1024x1000_1_1_0_0_n_n.lhsIdx_val_of_single rfl i q
/-- The right operand's row is the output's column. -/
theorem rhs_dot_0 (i : S1024x1000.Idx) (q : dot_S1024x512_S1000x512_S1024x1000_1_1_0_0_n_n.contr.Idx) :
    (dot_S1024x512_S1000x512_S1024x1000_1_1_0_0_n_n.rhsIdx i q 0).val = (i 1).val := by
  unfold DotDims.rhsIdx
  rw [dif_neg (show ¬(0 : Fin S1000x512.rank) ∈ dot_S1024x512_S1000x512_S1024x1000_1_1_0_0_n_n.rhsBatch by decide), dif_pos (show (0 : Fin S1000x512.rank) ∈ dot_S1024x512_S1000x512_S1024x1000_1_1_0_0_n_n.rhsNonContracting by decide)]
  rfl
/-- The right operand's column is the contracted coordinate. -/
theorem rhs_dot_1 (i : S1024x1000.Idx) (q : dot_S1024x512_S1000x512_S1024x1000_1_1_0_0_n_n.contr.Idx) :
    (dot_S1024x512_S1000x512_S1024x1000_1_1_0_0_n_n.rhsIdx i q 1).val = (q ⟨0, by decide⟩).val :=
  dot_S1024x512_S1000x512_S1024x1000_1_1_0_0_n_n.rhsIdx_val_of_single rfl i q

/-- The product into a zero accumulator, at row `b` and column `c`: row `b` of the left operand contracted with row `c` of
    the right one over the 512 coordinates. -/
theorem matmul_apply_ix (l : FVec Ideal S1024x512 .bf16) (r : FVec Ideal S1000x512 .bf16) (b : Fin 1024) (c : Fin 1000) :
    matmul dot_S1024x512_S1000x512_S1024x1000_1_1_0_0_n_n none l r (constant (F := Ideal) S1024x1000 .f32 0x00000000#32) (ix2 b c)
      = ∑ d : Fin 512, l (ix2 b d) * r (ix2 c d) := by
  simp only [matmul]
  rw [Ideal.matmul_constant_zero_apply, ← Equiv.sum_comp (contrEquiv1 dot_S1024x512_S1000x512_S1024x1000_1_1_0_0_n_n 512 rfl rfl).symm]
  refine Finset.sum_congr rfl fun k _ => ?_
  have hk := contrEquiv1_symm_val dot_S1024x512_S1000x512_S1024x1000_1_1_0_0_n_n 512 rfl rfl k
  have el : dot_S1024x512_S1000x512_S1024x1000_1_1_0_0_n_n.lhsIdx (ix2 b c) ((contrEquiv1 dot_S1024x512_S1000x512_S1024x1000_1_1_0_0_n_n 512 rfl rfl).symm k) = ix2 b k := funext fun a => Fin.ext (by
    match a with
    | ⟨0, _⟩ => exact lhs_dot_0 _ _
    | ⟨1, _⟩ => exact (lhs_dot_1 _ _).trans hk)
  have er : dot_S1024x512_S1000x512_S1024x1000_1_1_0_0_n_n.rhsIdx (ix2 b c) ((contrEquiv1 dot_S1024x512_S1000x512_S1024x1000_1_1_0_0_n_n 512 rfl rfl).symm k) = ix2 c k := funext fun a => Fin.ext (by
    match a with
    | ⟨0, _⟩ => exact rhs_dot_0 _ _
    | ⟨1, _⟩ => exact (rhs_dot_1 _ _).trans hk)
  rw [el, er]

/-! ## The block's rows scaled to unit length, and the products -/

/-- The column the block's rows are divided by, read at row `r`: the length of that row, kept away from zero. -/
theorem nrm_apply (w : FVec Ideal S1000x512 .f32) (r : Fin 1000) :
    maximumf (sqrt (shapeCast S1000x1 (multiReduction .add [1] S1000 (mulf w w) 0x00000000#32 reduces_S1000x512_S1000 (.inl rfl) rfl) shapeCasts_S1000_S1000x1))
      (broadcast S1000x1 (Scalar.ofBits (F := Ideal) .f32 0x2B8CBCCC#32)) (ix2 r (0 : Fin 1)) = nrm (wrow w r) := by
  have h1 : shapeCast S1000x1 (multiReduction .add [1] S1000 (mulf w w) 0x00000000#32 reduces_S1000x512_S1000 (.inl rfl) rfl) shapeCasts_S1000_S1000x1 (ix2 r (0 : Fin 1))
      = multiReduction .add [1] S1000 (mulf w w) 0x00000000#32 reduces_S1000x512_S1000 (.inl rfl) rfl (ix1 r) :=
    shapeCast_a_a1_apply _ shapeCasts_S1000_S1000x1 r 0
  have h2 : multiReduction .add [1] S1000 (mulf w w) 0x00000000#32 reduces_S1000x512_S1000 (.inl rfl) rfl (ix1 r)
      = ∑ k : Fin 512, mulf w w (ix2 r k) :=
    rowSum_apply (mulf w w) 0x00000000#32 reduces_S1000x512_S1000 (.inl rfl) rfl r
  exact congrArg (fun t => max (Ideal.sqrt t) eps) (h1.trans h2)

theorem pay5_apply (w : Vec Ideal S1000x512 .f32) (x : Vec Ideal S1024x512 .bf16) (b : Fin 1024) (r : Fin 1000) :
    k0_pay5 (F := Ideal) w x (ix2 b r) = zrow w x b r := by
  unfold k0_pay5
  refine (matmul_apply_ix _ _ b r).trans ?_
  unfold zrow
  refine Finset.sum_congr rfl fun d _ => ?_
  refine congrArg₂ (· * ·) ?_ ?_
  · rw [shapeCast_self]
  · show Ideal.div (w (ix2 r d)) (broadcastTo S1000x512 _ broadcasts_S1000x1_S1000x512 (ix2 r d)) = _
    exact congrArg (Ideal.div (w (ix2 r d))) ((broadcastTo_a1_ab_apply _ broadcasts_S1000x1_S1000x512 r d).trans (nrm_apply w r))

/-! ## One step of the running maximum and of the running sum -/

/-- The new running maximum at row `b`: the old one against the maximum of that row of products. -/
theorem pay6_apply (w : Vec Ideal S1000x512 .f32) (x : Vec Ideal S1024x512 .bf16) (mp : Vec Ideal S1024x1 .f32) (b : Fin 1024) :
    k0_pay6 (F := Ideal) w x mp (ix2 b (0 : Fin 1)) = stM (mp (ix2 b 0)) (zrow w x b) := by
  unfold k0_pay6
  have h1 : shapeCast S1024x1 (multiReduction .maximumf [1] S1024 (k0_pay5 (F := Ideal) w x) 0xFF800000#32 reduces_S1024x1000_S1024 (.inl rfl) rfl) shapeCasts_S1024_S1024x1 (ix2 b (0 : Fin 1))
      = multiReduction .maximumf [1] S1024 (k0_pay5 (F := Ideal) w x) 0xFF800000#32 reduces_S1024x1000_S1024 (.inl rfl) rfl (ix1 b) :=
    shapeCast_a_a1_apply _ shapeCasts_S1024_S1024x1 b 0
  have h2 : multiReduction .maximumf [1] S1024 (k0_pay5 (F := Ideal) w x) 0xFF800000#32 reduces_S1024x1000_S1024 (.inl rfl) rfl (ix1 b)
      = (Finset.univ : Finset (Fin 1000)).fold max negInf fun k => k0_pay5 (F := Ideal) w x (ix2 b k) :=
    rowMax_apply (k0_pay5 (F := Ideal) w x) 0xFF800000#32 reduces_S1024x1000_S1024 (.inl rfl) rfl b
  have h3 : (fun k => k0_pay5 (F := Ideal) w x (ix2 b k)) = zrow w x b := funext fun k => pay5_apply w x b k
  rw [h3] at h2
  exact congrArg (max (mp (ix2 b 0))) (h1.trans h2)

theorem pay8_apply (w : Vec Ideal S1000x512 .f32) (x : Vec Ideal S1024x512 .bf16) (mp : Vec Ideal S1024x1 .f32) (b : Fin 1024) :
    k0_pay8 (F := Ideal) w x mp (ix2 b 0) = stM (mp (ix2 b 0)) (zrow w x b) := by
  unfold k0_pay8
  rw [shapeCast_self]
  exact pay6_apply w x mp b

theorem pay7_apply (w : Vec Ideal S1000x512 .f32) (x : Vec Ideal S1024x512 .bf16) (mp lp : Vec Ideal S1024x1 .f32) (b : Fin 1024) :
    k0_pay7 (F := Ideal) w x mp lp (ix2 b 0) = stL (mp (ix2 b 0)) (lp (ix2 b 0)) (zrow w x b) := by
  unfold k0_pay7
  rw [shapeCast_self]
  generalize hm : k0_pay6 (F := Ideal) w x mp = m6
  have hm6 : m6 (ix2 b (0 : Fin 1)) = stM (mp (ix2 b 0)) (zrow w x b) := by rw [← hm]; exact pay6_apply w x mp b
  generalize hz : k0_pay5 (F := Ideal) w x = z5
  have hz5 : ∀ k : Fin 1000, z5 (ix2 b k) = zrow w x b k := fun k => by rw [← hz]; exact pay5_apply w x b k
  have h1 : shapeCast S1024x1 (multiReduction .add [1] S1024 (exp (subf z5 (broadcastTo S1024x1000 m6 broadcasts_S1024x1_S1024x1000))) 0x00000000#32 reduces_S1024x1000_S1024 (.inl rfl) rfl) shapeCasts_S1024_S1024x1 (ix2 b (0 : Fin 1))
      = multiReduction .add [1] S1024 (exp (subf z5 (broadcastTo S1024x1000 m6 broadcasts_S1024x1_S1024x1000))) 0x00000000#32 reduces_S1024x1000_S1024 (.inl rfl) rfl (ix1 b) :=
    shapeCast_a_a1_apply _ shapeCasts_S1024_S1024x1 b 0
  have h2 : multiReduction .add [1] S1024 (exp (subf z5 (broadcastTo S1024x1000 m6 broadcasts_S1024x1_S1024x1000))) 0x00000000#32 reduces_S1024x1000_S1024 (.inl rfl) rfl (ix1 b)
      = ∑ k : Fin 1000, exp (subf z5 (broadcastTo S1024x1000 m6 broadcasts_S1024x1_S1024x1000)) (ix2 b k) :=
    rowSum_apply (exp (subf z5 (broadcastTo S1024x1000 m6 broadcasts_S1024x1_S1024x1000))) 0x00000000#32 reduces_S1024x1000_S1024 (.inl rfl) rfl b
  have h3 : ∀ k : Fin 1000, exp (subf z5 (broadcastTo S1024x1000 m6 broadcasts_S1024x1_S1024x1000)) (ix2 b k)
      = Ideal.exp (zrow w x b k - stM (mp (ix2 b 0)) (zrow w x b)) := fun k => by
    show Ideal.exp (z5 (ix2 b k) - broadcastTo S1024x1000 m6 broadcasts_S1024x1_S1024x1000 (ix2 b k)) = _
    rw [broadcastTo_a1_ab_apply, hz5 k, hm6]
  show Ideal.exp (mp (ix2 b 0) - m6 (ix2 b (0 : Fin 1))) * lp (ix2 b 0)
      + shapeCast S1024x1 _ shapeCasts_S1024_S1024x1 (ix2 b (0 : Fin 1)) = _
  rw [h1, h2, hm6, Finset.sum_congr rfl fun k _ => h3 k]
  rfl

/-! ## The reset values and the outputs -/

theorem pay3_apply (b : Fin 1024) : k0_pay3 (F := Ideal) (ix2 b 0) = negInf := by
  unfold k0_pay3
  rw [shapeCast_self]
  rfl

theorem pay4_apply (b : Fin 1024) : k0_pay4 (F := Ideal) (ix2 b 0) = zero := by
  unfold k0_pay4
  rw [shapeCast_self]
  rfl

theorem pay1_apply (v : Vec Ideal S1024x1 .f32) (b : Fin 1024) : k0_pay1 (F := Ideal) v (ix3 0 b 0) = v (ix2 b 0) := by
  unfold k0_pay1
  exact shapeCast_ab_1ab_apply v shapeCasts_S1024x1_S1x1024x1 0 b 0

theorem pay2_apply (v : Vec Ideal S1024x1 .f32) (b : Fin 1024) : k0_pay2 (F := Ideal) v (ix3 0 b 0) = v (ix2 b 0) := by
  unfold k0_pay2
  exact shapeCast_ab_1ab_apply v shapeCasts_S1024x1_S1x1024x1 0 b 0

end Cert.KernelIdeal.BodyValue

end
-- ==== Proof.Arc.Region.lean ====
/-
  What the kernel call's two output arrays hold after the call, as functions of the program's arguments.

  The host lines before the call scale each feature row to length 30: the call's first array is `xs X`. At point
  `t = 50·i + j` the weights' block is rows `1000·t … 1000·t + 999`, so row `b` of the body's products is the logits
  `zK X W b` of block `t`; the scratch buffers after the body are therefore the scan of half `i` over `j + 1` blocks
  (induction on `j`: the reset values at `j = 0`, one step `stM`, `stL` at every point). The outputs are written back
  at `j = 49` only, point `50·i + 49` writing slab `i`: the two output arrays end at `mHalf` and `lHalf`.
-/
import proofs.«412743_j6253472383512_2_alg».proof.Proof.KI.Frame
import proofs.«412743_j6253472383512_2_alg».proof.Proof.Arc.Body
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic
import Idealize.ShloMosaic.Lib.IdealHost

set_option maxRecDepth 16384

noncomputable section

namespace Cert.KernelIdeal.RegionValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.ArcSpec Cert.KernelIdeal.BodyValue

variable (m : (ℓ : Loc nD τ sig) → Buf (Elt Ideal) ℓ)

/-- The scaled features the host lines before the call compute, read at row `b` and coordinate `d`:
    `30 · x b d / max (√(0 + ∑ x b ·²)) ε`; the closing change of format is the identity. -/
theorem hostScaled_apply (x : S1024x512.Idx → EReal) (b : Fin 1024) (d : Fin 512) :
    (truncf (F := Ideal) .bf16
      (mulf (broadcastInDim S1024x512 ![] bcast_S_S1024x512 (constant (F := Ideal) S_ .f32 0x41F00000#32))
        (Host.divf (F := Ideal) (φ := .f32) x
          (broadcastInDim S1024x512 ![0, 1] bcast_S1024x1_S1024x512_0_1
            (maximumf
              (Host.sqrt (F := Ideal)
                (broadcastInDim S1024x1 ![0] bcast_S1024_S1024x1_0
                  (Host.reduceAdd (F := Ideal) (φ := .f32) (mulf x x)
                    (constant (F := Ideal) S_ .f32 0x00000000#32) reducesTo_S1024x512_S1024_d1 h_S_)))
              (broadcastInDim S1024x1 ![] bcast_S_S1024x1 (constant (F := Ideal) S_ .f32 0x2B8CBCCC#32))))))
      bitsLt_bf16_f32 : S1024x512.Idx → EReal) (ix2 b d) = xs (featOf x) b d := by
  have hr : S1024x512.Reduces [1] S1024 := by decide
  rw [truncf_apply, mulf_apply, broadcastInDim_scalar_apply, constant_apply, hostDivf_apply,
    broadcastInDim_apply _ _ _ (ix2 b d) (ix2 b (0 : Fin 1)) (fun a => by match a with | ⟨0, _⟩ => rfl | ⟨1, _⟩ => rfl),
    maximumf_apply, broadcastInDim_scalar_apply, constant_apply]
  have hsq : ∀ (v : S1024x1.Idx → EReal) (j : S1024x1.Idx), Host.sqrt (F := Ideal) (φ := .f32) v j = Ideal.sqrt (v j) := fun _ _ => rfl
  rw [hsq]
  rw [broadcastInDim_apply _ _ _ (ix2 b (0 : Fin 1)) (ix1 b) (fun a => by match a with | ⟨0, _⟩ => rfl),
    hostReduceAdd_apply, Ideal.hostReduceAdd_single _ hr, constant_apply, Ideal.ofBits_zero_f32, zero_add]
  unfold xs unit nrm
  refine congrArg (fun s => s30 * Ideal.div (x (ix2 b d)) (max (Ideal.sqrt s) eps)) ?_
  refine Finset.sum_congr rfl fun k _ => ?_
  rw [mulf_apply]
  have e : hr.lift (ix1 b) k = ix2 b k := by
    funext a; match a with | ⟨0, _⟩ => rfl | ⟨1, _⟩ => rfl
  rw [e]
  rfl

/-- The scaled features as the region finds them: the host lines before the call leave `xs X` in the call's first array. -/
theorem fs_eq (c : Dev nD) : (Hand.V m c main_v10 : S1024x512.Idx → EReal)
    = fun i => xs (featOf (m ((c : Thread nD τ).loc main_arg0))) (i 0) (i 1) := by
  funext i
  obtain ⟨b, d, rfl⟩ : ∃ (b : Fin 1024) (d : Fin 512), i = ix2 b d := ⟨i 0, i 1, eq_ix2 i⟩
  refine Eq.trans ?_ (hostScaled_apply (m ((c : Thread nD τ).loc main_arg0)) b d)
  refine congrFun ?_ (ix2 b d)
  dsimp only [Hand.V, Hand.V0]
  simp only [Gen.hostOps0, List.flatten_cons, List.flatten_nil, List.append_nil]
  after_results

/-! ## The index maps, decided over the grid -/

theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem index2 : ∀ t : Fin cfg0.N, win0_2.index t (0 : Fin 3) = t.val / 50 ∧ win0_2.index t (1 : Fin 3) = 0 ∧ win0_2.index t (2 : Fin 3) = 0 :=
  (by decide +kernel : ∀ t : Fin grid0.N, win0_2.index t (0 : Fin 3) = t.val / 50 ∧ win0_2.index t (1 : Fin 3) = 0 ∧ win0_2.index t (2 : Fin 3) = 0)

theorem index3 : ∀ t : Fin cfg0.N, win0_3.index t (0 : Fin 3) = t.val / 50 ∧ win0_3.index t (1 : Fin 3) = 0 ∧ win0_3.index t (2 : Fin 3) = 0 :=
  (by decide +kernel : ∀ t : Fin grid0.N, win0_3.index t (0 : Fin 3) = t.val / 50 ∧ win0_3.index t (1 : Fin 3) = 0 ∧ win0_3.index t (2 : Fin 3) = 0)

/-! ## The two input blocks at a point -/

/-- The scaled features' block at every point is the whole array. -/
theorem xblk_apply (c : Dev nD) (t : Fin cfg0.N) (b : Fin 1024) (d : Fin 512) :
    (Hand.iblk m c 0 t : Vec Ideal S1024x512 .bf16) (ix2 b d) = (Hand.V m c main_v10 : S1024x512.Idx → EReal) (ix2 b d) := by
  obtain ⟨e0, e1⟩ := index0 t
  unfold Hand.iblk
  rw [View.read_apply]
  show Hand.V m c main_v10 _ = Hand.V m c main_v10 _
  congr 1
  funext a
  apply Fin.ext
  match a with
  | ⟨0, _⟩ => show win0_0.index t (0 : Fin 2) * 1024 + 1 * b.val = b.val; rw [e0]; omega
  | ⟨1, _⟩ => show win0_0.index t (1 : Fin 2) * 512 + 1 * d.val = d.val; rw [e1]; omega

/-- The weights' block at point `t` is rows `1000·t … 1000·t + 999` of the weights. -/
theorem wblk_apply (c : Dev nD) (t : Fin cfg0.N) (r : Fin 1000) (d : Fin 512) (k : Fin 100000) (hk : k.val = 1000 * t.val + r.val) :
    (Hand.iblk m c 1 t : Vec Ideal S1000x512 .f32) (ix2 r d) = (Hand.V m c main_arg1 : S100000x512.Idx → EReal) (ix2 k d) := by
  obtain ⟨e0, e1⟩ := index1 t
  unfold Hand.iblk
  rw [View.read_apply]
  show Hand.V m c main_arg1 _ = Hand.V m c main_arg1 _
  congr 1
  funext a
  apply Fin.ext
  match a with
  | ⟨0, _⟩ => show win0_1.index t (0 : Fin 2) * 1000 + 1 * r.val = k.val; rw [e0, hk]; omega
  | ⟨1, _⟩ => show win0_1.index t (1 : Fin 2) * 512 + 1 * d.val = d.val; rw [e1]; omega

/-! ## The running maximum and sum are the scan -/

/-- The features and the weights as coordinate functions of the launch memory. -/
abbrev feat (c : Dev nD) : Feat := featOf (m ((c : Thread nD τ).loc main_arg0))
abbrev wts (c : Dev nD) : Wt := wtOf (m ((c : Thread nD τ).loc main_arg1))

/-- With the features' block the scaled features and the weights' block the rows of block `q`, row `b` of the
    products is the kernel's logits of block `q`. -/
theorem zrow_of (w : Vec Ideal S1000x512 .f32) (x : Vec Ideal S1024x512 .bf16) (X : Feat) (W : Wt) (q : ℕ) (b : Fin 1024)
    (hx : ∀ d, x (ix2 b d) = xs X b d) (hw : ∀ r d, w (ix2 r d) = W (cls q r) d) :
    zrow w x b = fun r => zK X W b (cls q r) := by
  funext r
  have e : wrow w r = W (cls q r) := funext fun d => hw r d
  unfold zrow zK
  rw [e]
  exact Finset.sum_congr rfl fun d _ => by rw [hx d]

/-- One step of the body over a row of products known to be `zs`, from a maximum `M` and a sum `L`. -/
theorem step_of (w : Vec Ideal S1000x512 .f32) (x : Vec Ideal S1024x512 .bf16) (mp lp : Vec Ideal S1024x1 .f32) (b : Fin 1024)
    (zs : Fin 1000 → EReal) (M L : EReal) (hz : zrow w x b = zs) (hm : mp (ix2 b 0) = M) (hl : lp (ix2 b 0) = L) :
    k0_pay8 (F := Ideal) w x mp (ix2 b 0) = stM M zs ∧ k0_pay7 (F := Ideal) w x mp lp (ix2 b 0) = stL M L zs := by
  rw [pay8_apply, pay7_apply, hz, hm, hl]
  exact ⟨rfl, rfl⟩

/-- At point `t` the products' row `b` is the logits of block `t`: the features' block is the scaled features, the
    weights' block is rows `1000·t …` of the weights, and `1000·t + r < 100000`. -/
theorem zrow_blk (c : Dev nD) (t : Fin cfg0.N) (b : Fin 1024) :
    zrow (Hand.iblk m c 1 t) (Hand.iblk m c 0 t) b = fun r => zK (feat m c) (wts m c) b (cls t.val r) := by
  have hN : cfg0.N = 100 := N_0
  have ht := t.isLt
  refine zrow_of (Hand.iblk m c 1 t) (Hand.iblk m c 0 t) (feat m c) (wts m c) t.val b (fun d => ?_) (fun r d => ?_)
  · refine (xblk_apply m c t b d).trans ?_
    exact congrFun (fs_eq m c) (ix2 b d)
  · have hr := r.isLt
    refine (wblk_apply m c t r d (cls t.val r) ?_).trans ?_
    · show (t.val * 1000 + r.val) % 100000 = 1000 * t.val + r.val
      omega
    · exact congrFun (Hand.V_main_arg1 m c) (ix2 (cls t.val r) d)

/-- The scratch buffers at a point with `j = 0` and at any other point, by position. -/
theorem scr_first (c : Dev nD) (n : ℕ) (h : n < cfg0.N) (h0 : n % 50 = 0) :
    Hand.scr m c n h = (k0_pay8 (Hand.iblk m c 1 ⟨n, h⟩) (Hand.iblk m c 0 ⟨n, h⟩) (k0_pay3 (F := Ideal)),
      k0_pay7 (Hand.iblk m c 1 ⟨n, h⟩) (Hand.iblk m c 0 ⟨n, h⟩) (k0_pay3 (F := Ideal)) (k0_pay4 (F := Ideal))) :=
  Hand.scr_reset m c ⟨n, h⟩ h0

theorem scr_succ (c : Dev nD) (n : ℕ) (h : n + 1 < cfg0.N) (h0 : (n + 1) % 50 ≠ 0) :
    Hand.scr m c (n + 1) h = (k0_pay8 (Hand.iblk m c 1 ⟨n + 1, h⟩) (Hand.iblk m c 0 ⟨n + 1, h⟩) (Hand.scr m c n (Nat.lt_of_succ_lt h)).1,
      k0_pay7 (Hand.iblk m c 1 ⟨n + 1, h⟩) (Hand.iblk m c 0 ⟨n + 1, h⟩) (Hand.scr m c n (Nat.lt_of_succ_lt h)).1 (Hand.scr m c n (Nat.lt_of_succ_lt h)).2) :=
  Hand.scr_step m c ⟨n + 1, h⟩ h0

/-- One point of the grid: from the scan over `j` blocks of half `i` to the scan over `j + 1`. -/
theorem point_step (c : Dev nD) (t : Fin cfg0.N) (b : Fin 1024) (mp lp : Vec Ideal S1024x1 .f32) (i j : ℕ) (ht : t.val = 50 * i + j)
    (hm : mp (ix2 b 0) = (scan (feat m c) (wts m c) b i j).1) (hl : lp (ix2 b 0) = (scan (feat m c) (wts m c) b i j).2) :
    k0_pay8 (F := Ideal) (Hand.iblk m c 1 t) (Hand.iblk m c 0 t) mp (ix2 b 0) = (scan (feat m c) (wts m c) b i (j + 1)).1
    ∧ k0_pay7 (F := Ideal) (Hand.iblk m c 1 t) (Hand.iblk m c 0 t) mp lp (ix2 b 0) = (scan (feat m c) (wts m c) b i (j + 1)).2 := by
  have hz := zrow_blk m c t b
  rw [ht] at hz
  exact step_of (Hand.iblk m c 1 t) (Hand.iblk m c 0 t) mp lp b _ _ _ hz hm hl

/-- After the body at point `50·i + j` the scratch buffers hold, at row `b`, the scan of half `i` over `j + 1` blocks. -/
theorem scr_scan (c : Dev nD) (i : ℕ) (b : Fin 1024) : ∀ (j : ℕ) (hj : j < 50) (h : 50 * i + j < cfg0.N),
    (Hand.scr m c (50 * i + j) h).1 (ix2 b 0) = (scan (feat m c) (wts m c) b i (j + 1)).1
    ∧ (Hand.scr m c (50 * i + j) h).2 (ix2 b 0) = (scan (feat m c) (wts m c) b i (j + 1)).2
  | 0, hj, h => by
    rw [scr_first m c (50 * i + 0) h (by omega)]
    exact point_step m c ⟨50 * i + 0, h⟩ b (k0_pay3 (F := Ideal)) (k0_pay4 (F := Ideal)) i 0 rfl (pay3_apply b) (pay4_apply b)
  | j + 1, hj, h => by
    have ih := scr_scan c i b j (by omega) (by omega)
    show (Hand.scr m c (50 * i + j + 1) h).1 (ix2 b 0) = _ ∧ (Hand.scr m c (50 * i + j + 1) h).2 (ix2 b 0) = _
    rw [scr_succ m c (50 * i + j) h (by omega)]
    exact point_step m c ⟨50 * i + j + 1, h⟩ b _ _ i (j + 1) rfl ih.1 ih.2

theorem scr_eq (c : Dev nD) (i : Fin 2) (j : Fin 50) (b : Fin 1024) (h : 50 * i.val + j.val < cfg0.N) :
    (Hand.scr m c (50 * i.val + j.val) h).1 (ix2 b 0) = (scan (feat m c) (wts m c) b i.val (j.val + 1)).1
    ∧ (Hand.scr m c (50 * i.val + j.val) h).2 (ix2 b 0) = (scan (feat m c) (wts m c) b i.val (j.val + 1)).2 :=
  scr_scan m c i.val b j.val j.isLt h

/-! ## The two outputs -/

theorem scr_irrel (c : Dev nD) {n n' : ℕ} (e : n = n') (h : n < cfg0.N) (h' : n' < cfg0.N) :
    Hand.scr m c n h = Hand.scr m c n' h' := by
  subst e; rfl

/-- The outputs' payloads are the scratch buffers under a leading unit axis, at any index. -/
theorem pay1_at (v : Vec Ideal S1024x1 .f32) (y : S1x1024x1.Idx) : k0_pay1 (F := Ideal) v y = v (ix2 (y 1) 0) := by
  obtain ⟨a, b, c', rfl⟩ : ∃ (a : Fin 1) (b : Fin 1024) (c' : Fin 1), y = ix3 a b c' := ⟨y 0, y 1, y 2, eq_ix3 y⟩
  obtain rfl : a = 0 := Subsingleton.elim _ _
  obtain rfl : c' = 0 := Subsingleton.elim _ _
  exact pay1_apply v b

theorem pay2_at (v : Vec Ideal S1024x1 .f32) (y : S1x1024x1.Idx) : k0_pay2 (F := Ideal) v y = v (ix2 (y 1) 0) := by
  obtain ⟨a, b, c', rfl⟩ : ∃ (a : Fin 1) (b : Fin 1024) (c' : Fin 1), y = ix3 a b c' := ⟨y 0, y 1, y 2, eq_ix3 y⟩
  obtain rfl : a = 0 := Subsingleton.elim _ _
  obtain rfl : c' = 0 := Subsingleton.elim _ _
  exact pay2_apply v b

/-- The maxima and the sums of the two halves, as arrays `[half, row, 0]`. -/
abbrev outM (c : Dev nD) : S2x1024x1.Idx → EReal := fun idx => mHalf (feat m c) (wts m c) (idx 1) (idx 0).val
abbrev outL (c : Dev nD) : S2x1024x1.Idx → EReal := fun idx => lHalf (feat m c) (wts m c) (idx 1) (idx 0).val

/-- A point with `j = 49` writes back slab `t / 50` of the maxima. -/
theorem flushed2_eq (c : Dev nD) (t : Fin cfg0.N) (hf : (cfg0.win 2).flush t = true) :
    (Hand.dats m 0 c).flushed 2 t = ((cfg0.win 2).blk t).view.read (Elt Ideal) (outM m c) := by
  have hN : cfg0.N = 100 := N_0
  have ht := t.isLt
  have h49 : t.val % 50 = 49 := (flush0_2 t).mp hf
  obtain ⟨e0, e1, e2⟩ := index2 t
  show (cfg0.win 2).cut (grid0.coords t) ((Hand.dats m 0 c).after 2 t) = _
  rw [Hand.after2]
  funext y
  have hy0 : (y 0).val < 1 := (y 0).isLt
  have hy1 : (y 1).val < 1024 := (y 1).isLt
  have hq : 50 * (t.val / 50) + 49 < cfg0.N := by omega
  have hb : (((cfg0.win 2).blk t).view.emb y) 1 = (⟨(y 1).val, hy1⟩ : Fin 1024) :=
    Fin.ext (by show win0_2.index t (1 : Fin 3) * 1024 + 1 * (y 1).val = (y 1).val; rw [e1]; omega)
  have hi : ((((cfg0.win 2).blk t).view.emb y) 0).val = t.val / 50 := by
    show win0_2.index t (0 : Fin 3) * 1 + 1 * (y 0).val = t.val / 50
    rw [e0]; omega
  show k0_pay1 (F := Ideal) (Hand.scr m c t.val t.isLt).1 ((cfg0.win 2).xinj (grid0.coords t) y) = outM m c (((cfg0.win 2).blk t).view.emb y)
  refine (pay1_at (Hand.scr m c t.val t.isLt).1 ((cfg0.win 2).xinj (grid0.coords t) y)).trans ?_
  refine (congrArg (fun p => p.1 (ix2 (⟨(y 1).val, hy1⟩ : Fin 1024) 0)) (scr_irrel m c (show t.val = 50 * (t.val / 50) + 49 by omega) t.isLt hq)).trans ?_
  refine (scr_scan m c (t.val / 50) ⟨(y 1).val, hy1⟩ 49 (by decide) hq).1.trans ?_
  show (scan (feat m c) (wts m c) ⟨(y 1).val, hy1⟩ (t.val / 50) 50).1
    = (scan (feat m c) (wts m c) ((((cfg0.win 2).blk t).view.emb y) 1) ((((cfg0.win 2).blk t).view.emb y) 0).val 50).1
  rw [hb, hi]

/-- A point with `j = 49` writes back slab `t / 50` of the sums. -/
theorem flushed3_eq (c : Dev nD) (t : Fin cfg0.N) (hf : (cfg0.win 3).flush t = true) :
    (Hand.dats m 0 c).flushed 3 t = ((cfg0.win 3).blk t).view.read (Elt Ideal) (outL m c) := by
  have hN : cfg0.N = 100 := N_0
  have ht := t.isLt
  have h49 : t.val % 50 = 49 := (flush0_3 t).mp hf
  obtain ⟨e0, e1, e2⟩ := index3 t
  show (cfg0.win 3).cut (grid0.coords t) ((Hand.dats m 0 c).after 3 t) = _
  rw [Hand.after3]
  funext y
  have hy0 : (y 0).val < 1 := (y 0).isLt
  have hy1 : (y 1).val < 1024 := (y 1).isLt
  have hq : 50 * (t.val / 50) + 49 < cfg0.N := by omega
  have hb : (((cfg0.win 3).blk t).view.emb y) 1 = (⟨(y 1).val, hy1⟩ : Fin 1024) :=
    Fin.ext (by show win0_3.index t (1 : Fin 3) * 1024 + 1 * (y 1).val = (y 1).val; rw [e1]; omega)
  have hi : ((((cfg0.win 3).blk t).view.emb y) 0).val = t.val / 50 := by
    show win0_3.index t (0 : Fin 3) * 1 + 1 * (y 0).val = t.val / 50
    rw [e0]; omega
  show k0_pay2 (F := Ideal) (Hand.scr m c t.val t.isLt).2 ((cfg0.win 3).xinj (grid0.coords t) y) = outL m c (((cfg0.win 3).blk t).view.emb y)
  refine (pay2_at (Hand.scr m c t.val t.isLt).2 ((cfg0.win 3).xinj (grid0.coords t) y)).trans ?_
  refine (congrArg (fun p => p.2 (ix2 (⟨(y 1).val, hy1⟩ : Fin 1024) 0)) (scr_irrel m c (show t.val = 50 * (t.val / 50) + 49 by omega) t.isLt hq)).trans ?_
  refine (scr_scan m c (t.val / 50) ⟨(y 1).val, hy1⟩ 49 (by decide) hq).2.trans ?_
  show (scan (feat m c) (wts m c) ⟨(y 1).val, hy1⟩ (t.val / 50) 50).2
    = (scan (feat m c) (wts m c) ((((cfg0.win 3).blk t).view.emb y) 1) ((((cfg0.win 3).blk t).view.emb y) 0).val 50).2
  rw [hb, hi]

/-- An index of an output array is in point `t`'s block iff each coordinate is in the block's range on its axis. -/
theorem mem_blk2 (t : Fin cfg0.N) (idx : S2x1024x1.Idx) :
    idx ∈ ((cfg0.win 2).blk t).view.set ↔ ∀ a : Fin 3, win0_2.index t a * S1x1024x1.size a ≤ (idx a).val ∧ (idx a).val < win0_2.index t a * S1x1024x1.size a + S1x1024x1.size a := by
  show idx ∈ ((View.whole main_v11_0).slice (win0_2.rect t)).set ↔ _
  rw [View.set_slice_whole, Rect.mem_set_unit]
  exact Iff.rfl

theorem mem_blk3 (t : Fin cfg0.N) (idx : S2x1024x1.Idx) :
    idx ∈ ((cfg0.win 3).blk t).view.set ↔ ∀ a : Fin 3, win0_3.index t a * S1x1024x1.size a ≤ (idx a).val ∧ (idx a).val < win0_3.index t a * S1x1024x1.size a + S1x1024x1.size a := by
  show idx ∈ ((View.whole main_v11_1).slice (win0_3.rect t)).set ↔ _
  rw [View.set_slice_whole, Rect.mem_set_unit]
  exact Iff.rfl

/-- The last point of half `i`. -/
abbrev tlast (i : Fin 2) : Fin cfg0.N := ⟨50 * i.val + 49, by have hN : cfg0.N = 100 := N_0; have := i.isLt; omega⟩

/-- Slab `i` of an output is written back by the last point of half `i`. -/
theorem cover2 (idx : S2x1024x1.Idx) : ∃ t : Fin cfg0.N, (cfg0.win 2).flush t = true ∧ idx ∈ ((cfg0.win 2).blk t).view.set := by
  have h0 : (idx 0).val < 2 := (idx 0).isLt
  have h1 : (idx 1).val < 1024 := (idx 1).isLt
  have h2 : (idx 2).val < 1 := (idx 2).isLt
  refine ⟨tlast ⟨(idx 0).val, h0⟩, (flush0_2 _).mpr (by show (50 * (idx 0).val + 49) % 50 = 49; omega), ?_⟩
  obtain ⟨e0, e1, e2⟩ := index2 (tlast ⟨(idx 0).val, h0⟩)
  have e0' : win0_2.index (tlast ⟨(idx 0).val, h0⟩) (0 : Fin 3) = (50 * (idx 0).val + 49) / 50 := e0
  rw [mem_blk2]
  intro a
  match a with
  | ⟨0, _⟩ =>
    show win0_2.index (tlast ⟨(idx 0).val, h0⟩) (0 : Fin 3) * 1 ≤ (idx 0).val ∧ (idx 0).val < win0_2.index (tlast ⟨(idx 0).val, h0⟩) (0 : Fin 3) * 1 + 1
    rw [e0']; omega
  | ⟨1, _⟩ =>
    show win0_2.index (tlast ⟨(idx 0).val, h0⟩) (1 : Fin 3) * 1024 ≤ (idx 1).val ∧ (idx 1).val < win0_2.index (tlast ⟨(idx 0).val, h0⟩) (1 : Fin 3) * 1024 + 1024
    rw [e1]; omega
  | ⟨2, _⟩ =>
    show win0_2.index (tlast ⟨(idx 0).val, h0⟩) (2 : Fin 3) * 1 ≤ (idx 2).val ∧ (idx 2).val < win0_2.index (tlast ⟨(idx 0).val, h0⟩) (2 : Fin 3) * 1 + 1
    rw [e2]; omega

theorem cover3 (idx : S2x1024x1.Idx) : ∃ t : Fin cfg0.N, (cfg0.win 3).flush t = true ∧ idx ∈ ((cfg0.win 3).blk t).view.set := by
  have h0 : (idx 0).val < 2 := (idx 0).isLt
  have h1 : (idx 1).val < 1024 := (idx 1).isLt
  have h2 : (idx 2).val < 1 := (idx 2).isLt
  refine ⟨tlast ⟨(idx 0).val, h0⟩, (flush0_3 _).mpr (by show (50 * (idx 0).val + 49) % 50 = 49; omega), ?_⟩
  obtain ⟨e0, e1, e2⟩ := index3 (tlast ⟨(idx 0).val, h0⟩)
  have e0' : win0_3.index (tlast ⟨(idx 0).val, h0⟩) (0 : Fin 3) = (50 * (idx 0).val + 49) / 50 := e0
  rw [mem_blk3]
  intro a
  match a with
  | ⟨0, _⟩ =>
    show win0_3.index (tlast ⟨(idx 0).val, h0⟩) (0 : Fin 3) * 1 ≤ (idx 0).val ∧ (idx 0).val < win0_3.index (tlast ⟨(idx 0).val, h0⟩) (0 : Fin 3) * 1 + 1
    rw [e0']; omega
  | ⟨1, _⟩ =>
    show win0_3.index (tlast ⟨(idx 0).val, h0⟩) (1 : Fin 3) * 1024 ≤ (idx 1).val ∧ (idx 1).val < win0_3.index (tlast ⟨(idx 0).val, h0⟩) (1 : Fin 3) * 1024 + 1024
    rw [e1]; omega
  | ⟨2, _⟩ =>
    show win0_3.index (tlast ⟨(idx 0).val, h0⟩) (2 : Fin 3) * 1 ≤ (idx 2).val ∧ (idx 2).val < win0_3.index (tlast ⟨(idx 0).val, h0⟩) (2 : Fin 3) * 1 + 1
    rw [e2]; omega

/-- After the call the first output holds the two halves' maxima, -/
theorem out_m (c : Dev nD) : ((Hand.dats m 0 c).arrAt 2 cfg0.N : S2x1024x1.Idx → EReal)
    = fun idx => mHalf (feat m c) (wts m c) (idx 1) (idx 0).val :=
  (Hand.dats m 0 c).arrAt_eq_of_cover 2 (outM m c) (flushed2_eq m c) cover2

/-- and the second the two halves' sums. -/
theorem out_l (c : Dev nD) : ((Hand.dats m 0 c).arrAt 3 cfg0.N : S2x1024x1.Idx → EReal)
    = fun idx => lHalf (feat m c) (wts m c) (idx 1) (idx 0).val :=
  (Hand.dats m 0 c).arrAt_eq_of_cover 3 (outL m c) (flushed3_eq m c) cover3

end Cert.KernelIdeal.RegionValue

end
-- ==== Proof.Arc.TailA.lean ====
/-
  The host operations after the kernel call, read back as functions of the starting valuation.

  The call leaves two arrays of shape [2, 1024, 1]: the running maxima and the running sums of the two halves of the
  classes. The first stretch of operations cuts each into its halves `m0, m1` and `l0, l1` (columns [1024, 1]), takes the
  merged maximum `M = max m0 m1` and the merged sum `exp (m0 − M) · l0 + exp (m1 − M) · l1`. The second stretch takes the
  rows of the weights at the labels: a negative label is moved up by the class count, the rows are gathered at the
  start indices so obtained (read signed and clamped to the rows), and a row whose start index is not a class is
  replaced by a fill pattern. When every label is a class, the label is its own start index, the clamp is the identity,
  the mask is all ones, and the taken row is the weights' row at the label.
-/
import proofs.«412743_j6253472383512_2_alg».proof.Proof.Gen.KernelIdeal.Launch
import proofs.«412743_j6253472383512_2_alg».proof.Proof.Arc.Coords
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.TailValue

open Idealize.ShloMosaic Idealize.ShloMosaic.ValueIdx Cert.KernelIdeal Cert.KernelIdeal.Gen Cert.ArcSpec

/-! ## The buffers read, at their literal types -/

/-- The valuation after the two stretches. -/
abbrev V1 (Vt : Valuation τ sig (Elt Ideal)) : Valuation τ sig (Elt Ideal) := StableHlo.after (hostOps1 ++ hostOps1_1) Vt

/-- The kernel's first output (the two running maxima), [2, 1024, 1]. -/
abbrev mOut (Vt : Valuation τ sig (Elt Ideal)) : S2x1024x1.Idx → EReal := Vt (Proc.devRef .tc main_v11_0)
/-- The kernel's second output (the two running sums), [2, 1024, 1]. -/
abbrev lOut (Vt : Valuation τ sig (Elt Ideal)) : S2x1024x1.Idx → EReal := Vt (Proc.devRef .tc main_v11_1)
/-- The class weights, [100000, 512]. -/
abbrev wArr (Vt : Valuation τ sig (Elt Ideal)) : S100000x512.Idx → EReal := Vt (Proc.devRef .tc main_arg1)
/-- The labels, [1024] words. -/
abbrev labArr (Vt : Valuation τ sig (Elt Ideal)) : S1024.Idx → BitVec 32 := Vt (Proc.devRef .tc main_arg2)

/-! ## The two halves of a kernel output

A kernel output has shape [2, 1024, 1]: half `h` is the slice at leading coordinate `h`, reshaped to [1024, 1]. -/

/-- The first half of a [2, 1024, 1] array as a [1024, 1] column. -/
def half0 (a : S2x1024x1.Idx → EReal) : S1024x1.Idx → EReal := fun i =>
  shapeCast S1024x1 (extractStridedSlice S1x1024x1 ![0, 0, 0] a slices_S2x1024x1_S1x1024x1_0_0_0) shapeCasts_S1x1024x1_S1024x1 i

/-- The second half of a [2, 1024, 1] array as a [1024, 1] column. -/
def half1 (a : S2x1024x1.Idx → EReal) : S1024x1.Idx → EReal := fun i =>
  shapeCast S1024x1 (extractStridedSlice S1x1024x1 ![1, 0, 0] a slices_S2x1024x1_S1x1024x1_1_0_0) shapeCasts_S1x1024x1_S1024x1 i

/-- The slice at leading coordinate 0, read at `(0, b, 0)`. -/
theorem slice0_apply (a : S2x1024x1.Idx → EReal) (b : Fin 1024) :
    extractStridedSlice S1x1024x1 ![0, 0, 0] a slices_S2x1024x1_S1x1024x1_0_0_0 (ix3 (0 : Fin 1) b (0 : Fin 1))
      = a (ix3 (0 : Fin 2) b (0 : Fin 1)) :=
  extractStridedSlice_apply _ _ _ _ _ (fun ax => by
    match ax with
    | ⟨0, _⟩ => rfl
    | ⟨1, _⟩ => exact (Nat.zero_add _).symm
    | ⟨2, _⟩ => rfl)

/-- The slice at leading coordinate 1, read at `(0, b, 0)`. -/
theorem slice1_apply (a : S2x1024x1.Idx → EReal) (b : Fin 1024) :
    extractStridedSlice S1x1024x1 ![1, 0, 0] a slices_S2x1024x1_S1x1024x1_1_0_0 (ix3 (0 : Fin 1) b (0 : Fin 1))
      = a (ix3 (1 : Fin 2) b (0 : Fin 1)) :=
  extractStridedSlice_apply _ _ _ _ _ (fun ax => by
    match ax with
    | ⟨0, _⟩ => rfl
    | ⟨1, _⟩ => exact (Nat.zero_add _).symm
    | ⟨2, _⟩ => rfl)

/-- A [1024, 1] index is its row and the column 0. -/
theorem idx_col (i : S1024x1.Idx) : i = ix2 (i 0) (0 : Fin 1) := by
  funext a
  match a with
  | ⟨0, _⟩ => rfl
  | ⟨1, _⟩ => exact Fin.ext (by have := idx2_lt1 i; show (i 1).val = 0; omega)

theorem half0_apply (a : S2x1024x1.Idx → EReal) (i : S1024x1.Idx) : half0 a i = a (ix3 (0 : Fin 2) (i 0) (0 : Fin 1)) := by
  rw [idx_col i]
  exact (shapeCast_1ab_ab_apply _ _ (i 0) (0 : Fin 1)).trans (slice0_apply a (i 0))

theorem half1_apply (a : S2x1024x1.Idx → EReal) (i : S1024x1.Idx) : half1 a i = a (ix3 (1 : Fin 2) (i 0) (0 : Fin 1)) := by
  rw [idx_col i]
  exact (shapeCast_1ab_ab_apply _ _ (i 0) (0 : Fin 1)).trans (slice1_apply a (i 0))

/-! ## The merge of the two halves -/

theorem v20_term (Vt : Valuation τ sig (Elt Ideal)) :
    @Eq (S1024x1.Idx → EReal) (V1 Vt (Proc.devRef .tc main_v20))
      (maximumf (F := Ideal) (φ := .f32) (half0 (mOut Vt)) (half1 (mOut Vt))) := by
  show @Eq (S1024x1.Idx → EReal) (StableHlo.after (hostOps1 ++ hostOps1_1) Vt (Proc.devRef .tc main_v20)) _
  simp only [hostOps1, hostOps1_1, List.cons_append, List.nil_append]
  after_results_simp
  rfl

theorem v27_term (Vt : Valuation τ sig (Elt Ideal)) :
    @Eq (S1024x1.Idx → EReal) (V1 Vt (Proc.devRef .tc main_v27))
      (addf (F := Ideal) (φ := .f32)
        (mulf (F := Ideal) (φ := .f32) (Host.exp (F := Ideal) (φ := .f32) (subf (F := Ideal) (φ := .f32) (half0 (mOut Vt))
            (maximumf (F := Ideal) (φ := .f32) (half0 (mOut Vt)) (half1 (mOut Vt)))))
          (half0 (lOut Vt)))
        (mulf (F := Ideal) (φ := .f32) (Host.exp (F := Ideal) (φ := .f32) (subf (F := Ideal) (φ := .f32) (half1 (mOut Vt))
            (maximumf (F := Ideal) (φ := .f32) (half0 (mOut Vt)) (half1 (mOut Vt)))))
          (half1 (lOut Vt)))) := by
  show @Eq (S1024x1.Idx → EReal) (StableHlo.after (hostOps1 ++ hostOps1_1) Vt (Proc.devRef .tc main_v27)) _
  simp only [hostOps1, hostOps1_1, List.cons_append, List.nil_append]
  after_results_simp
  rfl

/-- The merged maximum: at row `b` the larger of the two halves' maxima. -/
theorem v20_eq (Vt : Valuation τ sig (Elt Ideal)) :
    @Eq (S1024x1.Idx → EReal) (V1 Vt (Proc.devRef .tc main_v20))
      (fun i => max (mOut Vt (ix3 (0 : Fin 2) (i 0) (0 : Fin 1))) (mOut Vt (ix3 (1 : Fin 2) (i 0) (0 : Fin 1)))) := by
  rw [v20_term]
  funext i
  rw [maximumf_apply, half0_apply, half1_apply]

/-- The merged sum: each half's sum rescaled from its own maximum to the merged one. -/
theorem v27_eq (Vt : Valuation τ sig (Elt Ideal)) :
    @Eq (S1024x1.Idx → EReal) (V1 Vt (Proc.devRef .tc main_v27))
      (fun i =>
        Ideal.exp (mOut Vt (ix3 (0 : Fin 2) (i 0) (0 : Fin 1))
            - max (mOut Vt (ix3 (0 : Fin 2) (i 0) (0 : Fin 1))) (mOut Vt (ix3 (1 : Fin 2) (i 0) (0 : Fin 1))))
          * lOut Vt (ix3 (0 : Fin 2) (i 0) (0 : Fin 1))
        + Ideal.exp (mOut Vt (ix3 (1 : Fin 2) (i 0) (0 : Fin 1))
            - max (mOut Vt (ix3 (0 : Fin 2) (i 0) (0 : Fin 1))) (mOut Vt (ix3 (1 : Fin 2) (i 0) (0 : Fin 1))))
          * lOut Vt (ix3 (1 : Fin 2) (i 0) (0 : Fin 1))) := by
  rw [v27_term]
  funext i
  rw [addf_apply, mulf_apply, mulf_apply]
  show Ideal.exp (subf (F := Ideal) (φ := .f32) _ _ i) * _ + Ideal.exp (subf (F := Ideal) (φ := .f32) _ _ i) * _ = _
  rw [subf_apply, subf_apply, maximumf_apply, half0_apply, half1_apply, half0_apply, half1_apply]

/-- No operation of the two stretches writes the scaled features. -/
theorem v10_keep (Vt : Valuation τ sig (Elt Ideal)) : V1 Vt (Proc.devRef .tc main_v10) = Vt (Proc.devRef .tc main_v10) := by
  show StableHlo.after (hostOps1 ++ hostOps1_1) Vt (Proc.devRef .tc main_v10) = _
  simp only [hostOps1, hostOps1_1, List.cons_append, List.nil_append]
  after_results_simp

/-! ## The rows of the weights taken at the labels

`take(weight, labels, axis = 0)` in fill mode: a negative label is wrapped by the class count, the rows are gathered at the
wrapped labels (the start index read signed and clamped), and a row whose wrapped label is outside the classes is
replaced by the fill pattern. -/

/-- The labels with the negative ones wrapped by the class count. -/
def wrapped (lab : IVec S1024 32) : IVec S1024 32 :=
  select (cmpi .slt lab (broadcastInDim S1024 ![] bcast_S_S1024 (constantI S_ 32 0#32)))
    (addi lab (broadcastInDim S1024 ![] bcast_S_S1024 (constantI S_ 32 100000#32))) lab

/-- The wrapped labels as a column of start indices. -/
def startIdx (lab : IVec S1024 32) : IVec S1024x1 32 := broadcastInDim S1024x1 ![0] bcast_S1024_S1024x1_0 (wrapped lab)

/-- Row by row: is the start index a class? -/
def inMask (idx : IVec S1024x1 32) : IVec S1024 1 :=
  Host.reduce IntOp.andi
    (andi (cmpi .sge idx (broadcastInDim S1024x1 ![] bcast_S_S1024x1 (constantI S_ 32 0#32)))
      (cmpi .sle idx (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- The taken rows. -/
def takeRows (w : S100000x512.Idx → EReal) (lab : IVec S1024 32) : S1024x512.Idx → EReal :=
  select (broadcastInDim S1024x512 ![0] bcast_S1024_S1024x512_0 (inMask (startIdx lab)))
    (Host.gather gather_S100000x512_S1024x1_S1024x512_1_0_n_n_0_1_1512 w (startIdx lab))
    (broadcastInDim S1024x512 ![] bcast_S_S1024x512 (constant (F := Ideal) S_ .f32 0x7FC00000#32))

/-! ### Words: a label that names a class -/

/-- A word below the class count is not negative as a signed word. -/
theorem not_neg_of_lt (x : BitVec 32) (h : x.toNat < 100000) : IntOp.cmpi .slt x 0#32 = 0#1 := by
  refine eq_zero_of_ne_one fun e => ?_
  have h0 := (StableHlo.Predicate.slt_iff_toNat (a := x) (b := 0#32) (by omega) (by decide)).mp e
  exact absurd h0 (Nat.not_lt_zero _)

/-- A word below the class count is at least zero and at most the last class, as signed words. -/
theorem in_range_of_lt (x : BitVec 32) (h : x.toNat < 100000) :
    IntOp.andi (IntOp.cmpi .sge x 0#32) (IntOp.cmpi .sle x 99999#32) = 1#1 := by
  have h1 : IntOp.cmpi .sge x 0#32 = 1#1 :=
    (StableHlo.Predicate.sge_iff_toNat (a := x) (b := 0#32) (by omega) (by decide)).mpr (Nat.zero_le _)
  have h2 : IntOp.cmpi .sle x 99999#32 = 1#1 :=
    (StableHlo.Predicate.sle_iff_toNat (a := x) (b := 99999#32) (by omega) (by decide)).mpr
      (by show x.toNat ≤ 99999; omega)
  rw [h1, h2]; rfl

/-- A word below the class count, read signed and clamped to the classes, is its value. -/
theorem clamp_of_lt (x : BitVec 32) (h : x.toNat < 100000) : min x.toInt.toNat (100000 - 1) = x.toNat := by
  rw [StableHlo.Predicate.toInt_eq_toNat_of_lt (a := x) (by omega), Int.toNat_natCast]
  omega

/-! ### The operations at a row -/

theorem wrapped_apply (lab : IVec S1024 32) (b : Fin 1024) (h : (lab (ix1 b)).toNat < 100000) :
    wrapped lab (ix1 b) = lab (ix1 b) := by
  show Scalar.select (IntOp.cmpi .slt (lab (ix1 b)) 0#32) _ _ = _
  rw [not_neg_of_lt _ h, select_zero]

theorem startIdx_apply (lab : IVec S1024 32) (b : Fin 1024) : startIdx lab (ix2 b (0 : Fin 1)) = wrapped lab (ix1 b) :=
  broadcastInDim_apply _ _ _ _ _ (fun a => by match a with | ⟨0, _⟩ => rfl)

theorem reduces_col : S1024x1.Reduces [1] S1024 := by decide

/-- A conjunction with the bit 1 is the other bit. -/
theorem andi_one (x : BitVec 1) : IntOp.andi x 1#1 = x := by revert x; decide

/-- The conjunction over an axis of extent 1, from the bit 1, is the one element. -/
theorem fold_andi_fin1 (f : Fin 1 → BitVec 1) : (Finset.univ : Finset (Fin 1)).fold IntOp.andi 1#1 f = f 0 := by
  rw [Finset.univ_unique, Finset.fold_singleton]
  exact andi_one _

theorem inMask_apply (idx : IVec S1024x1 32) (b : Fin 1024) (h : (idx (ix2 b (0 : Fin 1))).toNat < 100000) :
    inMask idx (ix1 b) = 1#1 := by
  unfold inMask
  rw [Host.reduce_eq_fold_single IntOp.andi _ _ reducesTo_S1024x1_S1024_d1 reduces_col h_S_ (ix1 b)]
  refine (fold_andi_fin1 _).trans ?_
  have hl : reduces_col.lift (ix1 b) (0 : Fin 1) = ix2 b (0 : Fin 1) := by
    funext a
    match a with
    | ⟨0, _⟩ => rfl
    | ⟨1, _⟩ => rfl
  show IntOp.andi (IntOp.cmpi .sge (idx (reduces_col.lift (ix1 b) (0 : Fin 1))) 0#32)
    (IntOp.cmpi .sle (idx (reduces_col.lift (ix1 b) (0 : Fin 1))) 99999#32) = 1#1
  rw [hl]
  exact in_range_of_lt _ h

/-- The row gather at `(b, d)`: the operand's row at the start index of `b`, read signed and clamped to the rows, column `d`. -/
theorem gather_row_apply (w : S100000x512.Idx → EReal) (idx : IVec S1024x1 32) (b : Fin 1024) (d : Fin 512) :
    Host.gather gather_S100000x512_S1024x1_S1024x512_1_0_n_n_0_1_1512 w idx (ix2 b d)
      = w (ix2 (⟨min (idx (ix2 b (0 : Fin 1))).toInt.toNat (100000 - 1), by omega⟩ : Fin 100000) d) := by
  unfold Host.gather
  congr 1
  funext a
  refine Fin.ext ?_
  match a with
  | ⟨0, _⟩ =>
    show gather_S100000x512_S1024x1_S1024x512_1_0_n_n_0_1_1512.start (ix2 b d) idx 0
      + gather_S100000x512_S1024x1_S1024x512_1_0_n_n_0_1_1512.batchCoord (ix2 b d) 0
      + gather_S100000x512_S1024x1_S1024x512_1_0_n_n_0_1_1512.offCoord (ix2 b d) 0 = _
    rw [GatherDims.batchCoord_eq_zero _ _ _ (by decide), GatherDims.offCoord_eq_zero _ _ _ (by decide)]
    simp only [Nat.add_zero]
    unfold GatherDims.start
    rw [dif_pos (show (0 : Fin 2) ∈ gather_S100000x512_S1024x1_S1024x512_1_0_n_n_0_1_1512.startIndexMap from List.mem_singleton.mpr rfl)]
    have hsi : gather_S100000x512_S1024x1_S1024x512_1_0_n_n_0_1_1512.siIdx (ix2 b d)
        ⟨List.idxOf (0 : Fin 2) gather_S100000x512_S1024x1_S1024x512_1_0_n_n_0_1_1512.startIndexMap,
          List.idxOf_lt_length_iff.2 (List.mem_singleton.mpr rfl)⟩ = ix2 b (0 : Fin 1) := by
      funext c
      refine Fin.ext ?_
      match c with
      | ⟨0, _⟩ => rfl
      | ⟨1, _⟩ => rfl
    rw [hsi]
    rfl
  | ⟨1, _⟩ =>
    show gather_S100000x512_S1024x1_S1024x512_1_0_n_n_0_1_1512.start (ix2 b d) idx 1
      + gather_S100000x512_S1024x1_S1024x512_1_0_n_n_0_1_1512.batchCoord (ix2 b d) 1
      + gather_S100000x512_S1024x1_S1024x512_1_0_n_n_0_1_1512.offCoord (ix2 b d) 1 = d.val
    rw [GatherDims.batchCoord_eq_zero _ _ _ (by decide)]
    unfold GatherDims.start
    rw [dif_neg (by decide)]
    unfold GatherDims.offCoord
    rw [dif_pos (by decide)]
    simp only [Nat.zero_add]
    rfl

/-! ### The taken rows at an entry -/

/-- With every label a class, row `b` of the taken rows is the weights' row at the label. -/
theorem takeRows_apply (w : S100000x512.Idx → EReal) (lab : IVec S1024 32) (hT : InRange (labOf lab)) (b : Fin 1024) (d : Fin 512) :
    takeRows w lab (ix2 b d) = w (ix2 (tIdx (labOf lab) b) d) := by
  have hb : (lab (ix1 b)).toNat < 100000 := hT b
  have hs : startIdx lab (ix2 b (0 : Fin 1)) = lab (ix1 b) := (startIdx_apply lab b).trans (wrapped_apply lab b hb)
  have hm : broadcastInDim S1024x512 ![0] bcast_S1024_S1024x512_0 (inMask (startIdx lab)) (ix2 b d) = 1#1 :=
    (broadcastInDim_apply _ _ _ (ix2 b d) (ix1 b) (fun a => by match a with | ⟨0, _⟩ => rfl)).trans
      (inMask_apply _ b (by rw [hs]; exact hb))
  unfold takeRows
  rw [select_apply, hm, select_one, gather_row_apply]
  refine congrArg w (funext fun a => ?_)
  match a with
  | ⟨0, _⟩ =>
    refine Fin.ext ?_
    show min (startIdx lab (ix2 b (0 : Fin 1))).toInt.toNat (100000 - 1) = (lab (ix1 b)).toNat % 100000
    rw [hs, clamp_of_lt _ hb, Nat.mod_eq_of_lt hb]
  | ⟨1, _⟩ => rfl

/-! ### The last buffer of the second stretch -/

theorem v28_term (Vt : Valuation τ sig (Elt Ideal)) :
    @Eq (S1024x512.Idx → EReal) (V1 Vt (Proc.devRef .tc main_v28)) (takeRows (wArr Vt) (labArr Vt)) := by
  show @Eq (S1024x512.Idx → EReal) (StableHlo.after (hostOps1 ++ hostOps1_1) Vt (Proc.devRef .tc main_v28)) _
  simp only [hostOps1, hostOps1_1, List.cons_append, List.nil_append]
  after_results_simp
  simp only [StableHlo.TRef.ofBuf, StableHlo.TRef.toBuf, cast_eq]
  rfl

/-- With every label a class, the taken rows are the weights' rows at the labels. -/
theorem v28_eq (Vt : Valuation τ sig (Elt Ideal)) (hT : InRange (labOf (labArr Vt))) :
    @Eq (S1024x512.Idx → EReal) (V1 Vt (Proc.devRef .tc main_v28))
      (fun i => wArr Vt (ix2 (tIdx (labOf (labArr Vt)) (i 0)) (i 1))) := by
  rw [v28_term]
  funext i
  exact (congrArg (takeRows (wArr Vt) (labArr Vt)) (eq_ix2 i)).trans (takeRows_apply _ _ hT (i 0) (i 1))

end Cert.KernelIdeal.TailValue

end
-- ==== Proof.Arc.TailB.lean ====
/-
  The host operations after the kernel call, read back as a function of any starting valuation.

  From the labels' weight rows `wt`, the scaled features `fs`, the running maximum `mt` and the running sum `lt`
  the three last stretches compute: the rows of `wt` scaled to unit length, the label's scaled logit
  `s_t b = ∑ d, fs b d · unit (wt b) d`, its cosine `s_t / 30`, the margin value `phi` of it, `30 · phi`, the corrected
  sum `l = (lt + exp (30 phi − mt)) − exp (s_t − mt)`, the row loss `(mt + log l) − 30 phi`, and the mean of the
  row losses over the 1024 rows.
-/
import proofs.«412743_j6253472383512_2_alg».proof.Proof.Arc.Coords
import proofs.«412743_j6253472383512_2_alg».proof.Proof.Gen.KernelIdeal.Launch
import Idealize.ShloMosaic.Lib.ValueIdx
import Idealize.ShloMosaic.Lib.IdealHost
import Idealize.ShloMosaic.Lib.Pipeline.Value
import Idealize.ShloMosaic.Lib.StableHlo.Run
import Idealize.ShloMosaic.PureOps.Ideal.Laws

noncomputable section

namespace Cert.KernelIdeal.TailValue2

open Idealize.ShloMosaic Idealize.ShloMosaic.ValueIdx Cert.KernelIdeal Cert.KernelIdeal.Gen Cert.ArcSpec

/-! ## The stretches' operations as functions of whole arrays -/

/-- A scalar word laid over a column of 1024. -/
def colK (w : BitVec 32) : FVec Ideal S1024x1 .f32 :=
  broadcastInDim S1024x1 ![] bcast_S_S1024x1 (constant (F := Ideal) S_ .f32 w)

/-- The sums over axis 1 of a 1024 × 512 array, from a zero initial value, as a column. -/
def rowSums (x : FVec Ideal S1024x512 .f32) : FVec Ideal S1024x1 .f32 :=
  broadcastInDim S1024x1 ![0] bcast_S1024_S1024x1_0
    (Host.reduceAdd x (constant (F := Ideal) S_ .f32 0x00000000#32) reducesTo_S1024x512_S1024_d1 h_S_)

/-- The rows' lengths, kept away from zero. -/
def nrmV (wt : FVec Ideal S1024x512 .f32) : FVec Ideal S1024x1 .f32 :=
  maximumf (Host.sqrt (rowSums (mulf wt wt))) (colK 0x2B8CBCCC#32)

/-- The rows scaled to unit length. -/
def unitV (wt : FVec Ideal S1024x512 .f32) : FVec Ideal S1024x512 .f32 :=
  Host.divf wt (broadcastInDim S1024x512 ![0, 1] bcast_S1024x1_S1024x512_0_1 (nrmV wt))

/-- The label's scaled logit, row by row. -/
def sTV (fs : FVec Ideal S1024x512 .bf16) (wt : FVec Ideal S1024x512 .f32) : FVec Ideal S1024x1 .f32 :=
  rowSums (mulf (extf .f32 fs bitsLt_bf16_f32) (extf .f32 (truncf .bf16 (unitV wt) bitsLt_bf16_f32) bitsLt_bf16_f32))

/-- The cosine: the scaled logit over 30. -/
def cosV (s : FVec Ideal S1024x1 .f32) : FVec Ideal S1024x1 .f32 := Host.divf s (colK 0x41F00000#32)

/-- The margin value of a column of cosines. -/
def phiV (c : FVec Ideal S1024x1 .f32) : FVec Ideal S1024x1 .f32 :=
  select (cmpf .ogt c (colK 0xBF7490EF#32))
    (subf (mulf c (colK 0x3F7490EF#32))
      (mulf (Host.sqrt (maximumf (subf (colK 0x3F800000#32) (mulf c c)) (colK 0x00000000#32))) (colK 0x3E974E6D#32)))
    (subf c (colK 0x3DB5914F#32))

/-- The row losses from the running maximum, the running sum, the scaled logit and the scaled margin logit. -/
def rowV (mt lt s p : FVec Ideal S1024x1 .f32) : FVec Ideal S1024x1 .f32 :=
  subf (addf mt (Host.log (subf (addf lt (Host.exp (subf p mt))) (Host.exp (subf s mt))))) p

/-- The mean over the 1024 rows. -/
def meanV (x : FVec Ideal S1024x1 .f32) : FVec Ideal S_ .f32 :=
  Host.divf (Host.reduceAdd x (constant (F := Ideal) S_ .f32 0x00000000#32) reducesTo_S1024x1_S_d0_1 h_S_)
    (constant (F := Ideal) S_ .f32 0x44800000#32)

/-- The whole tail on the four arrays it reads. -/
def tailV (wt : FVec Ideal S1024x512 .f32) (fs : FVec Ideal S1024x512 .bf16) (mt lt : FVec Ideal S1024x1 .f32) : FVec Ideal S_ .f32 :=
  meanV (rowV mt lt (sTV fs wt) (mulf (colK 0x41F00000#32) (phiV (cosV (sTV fs wt)))))

/-- The three stretches leave the tail's term at the result buffer. -/
theorem v73_term (V1 : Valuation τ sig (Elt Ideal)) :
    StableHlo.after (hostOps1_2 (F := Ideal) ++ hostOps1_3 ++ hostOps1_4) V1 (Proc.devRef .tc main_v73)
      = tailV (V1 (Proc.devRef .tc main_v28)) (V1 (Proc.devRef .tc main_v10)) (V1 (Proc.devRef .tc main_v20)) (V1 (Proc.devRef .tc main_v27)) := by
  simp only [hostOps1_2, hostOps1_3, hostOps1_4, List.cons_append, List.nil_append]
  after_results_simp
  rfl

/-! ## The operations read at an index -/

theorem red1 : S1024x512.Reduces [1] S1024 := by decide

theorem colK_apply (w : BitVec 32) (j : S1024x1.Idx) : colK w j = Ideal.ofBits .f32 w :=
  (broadcastInDim_scalar_apply _ _ j).trans rfl

theorem rowSums_apply (x : FVec Ideal S1024x512 .f32) (b : Fin 1024) :
    rowSums x (ix2 b 0) = ∑ d : Fin 512, x (ix2 b d) := by
  unfold rowSums
  refine (broadcastInDim_apply _ _ _ (ix2 b 0) (ix1 b) ?_).trans ?_
  · intro a; match a with | ⟨0, _⟩ => rfl
  rw [hostReduceAdd_apply, Ideal.hostReduceAdd_single _ red1]
  show Ideal.ofBits .f32 0x00000000#32 + _ = _
  rw [Ideal.ofBits_zero_f32, zero_add]
  refine Finset.sum_congr rfl fun d _ => congrArg x ?_
  funext a; match a with | ⟨0, _⟩ => rfl | ⟨1, _⟩ => rfl

theorem nrmV_apply (wt : FVec Ideal S1024x512 .f32) (b : Fin 1024) :
    nrmV wt (ix2 b 0) = nrm (fun d => wt (ix2 b d)) := by
  unfold nrmV nrm eps
  show max (Ideal.sqrt (rowSums (mulf wt wt) (ix2 b 0))) (colK 0x2B8CBCCC#32 (ix2 b 0)) = _
  rw [rowSums_apply, colK_apply]
  rfl

theorem unitV_apply (wt : FVec Ideal S1024x512 .f32) (b : Fin 1024) (d : Fin 512) :
    unitV wt (ix2 b d) = unit (fun d => wt (ix2 b d)) d := by
  unfold unitV unit
  show Ideal.div (wt (ix2 b d)) (broadcastInDim S1024x512 ![0, 1] bcast_S1024x1_S1024x512_0_1 (nrmV wt) (ix2 b d)) = _
  exact congrArg (Ideal.div (wt (ix2 b d)))
    ((broadcastInDim_apply _ _ _ (ix2 b d) (ix2 b 0) (by intro a; match a with | ⟨0, _⟩ => rfl | ⟨1, _⟩ => rfl)).trans
      (nrmV_apply wt b))

/-- The label's scaled logit of row `b`. -/
def sTf (fs : FVec Ideal S1024x512 .bf16) (wt : FVec Ideal S1024x512 .f32) (b : Fin 1024) : EReal :=
  ∑ d : Fin 512, fs (ix2 b d) * unit (fun d => wt (ix2 b d)) d

/-- The label's scaled margin logit of row `b`. -/
def sPhif (fs : FVec Ideal S1024x512 .bf16) (wt : FVec Ideal S1024x512 .f32) (b : Fin 1024) : EReal :=
  s30 * phi (Ideal.div (sTf fs wt b) s30)

/-- The loss of row `b`. -/
def rowLf (wt : FVec Ideal S1024x512 .f32) (fs : FVec Ideal S1024x512 .bf16) (mt lt : FVec Ideal S1024x1 .f32) (b : Fin 1024) : EReal :=
  (mt (ix2 b 0) + Ideal.log ((lt (ix2 b 0) + Ideal.exp (sPhif fs wt b - mt (ix2 b 0))) - Ideal.exp (sTf fs wt b - mt (ix2 b 0))))
    - sPhif fs wt b

theorem sTV_apply (fs : FVec Ideal S1024x512 .bf16) (wt : FVec Ideal S1024x512 .f32) (b : Fin 1024) :
    sTV fs wt (ix2 b 0) = sTf fs wt b := by
  unfold sTV sTf
  rw [rowSums_apply]
  exact Finset.sum_congr rfl fun d _ => congrArg (fs (ix2 b d) * ·) (unitV_apply wt b d)

theorem cosV_apply (s : FVec Ideal S1024x1 .f32) (b : Fin 1024) : cosV s (ix2 b 0) = Ideal.div (s (ix2 b 0)) s30 := by
  unfold cosV s30
  show Ideal.div (s (ix2 b 0)) (colK 0x41F00000#32 (ix2 b 0)) = _
  rw [colK_apply]

theorem cmp_ogt_pos {x y : EReal} (h : y < x) : Ideal.cmp .ogt x y = 1#1 := by simp [Ideal.cmp, h]
theorem cmp_ogt_neg {x y : EReal} (h : ¬ y < x) : Ideal.cmp .ogt x y = 0#1 := by simp [Ideal.cmp, h]

theorem phiV_apply (c : FVec Ideal S1024x1 .f32) (b : Fin 1024) : phiV c (ix2 b 0) = phi (c (ix2 b 0)) := by
  unfold phiV phi sine th cosM sinM one zero mm
  show Scalar.select (Ideal.cmp .ogt (c (ix2 b 0)) (colK 0xBF7490EF#32 (ix2 b 0)))
      (c (ix2 b 0) * colK 0x3F7490EF#32 (ix2 b 0)
        - Ideal.sqrt (max (colK 0x3F800000#32 (ix2 b 0) - c (ix2 b 0) * c (ix2 b 0)) (colK 0x00000000#32 (ix2 b 0)))
          * colK 0x3E974E6D#32 (ix2 b 0))
      (c (ix2 b 0) - colK 0x3DB5914F#32 (ix2 b 0)) = _
  simp only [colK_apply]
  by_cases h : Ideal.ofBits .f32 0xBF7490EF#32 < c (ix2 b 0)
  · rw [if_pos h, cmp_ogt_pos h, select_one]
  · rw [if_neg h, cmp_ogt_neg h, select_zero]

theorem meanV_eq (x : FVec Ideal S1024x1 .f32) : meanV x = fun _ => Ideal.div (∑ b : Fin 1024, x (ix2 b 0)) nB := by
  funext j
  unfold meanV nB
  show Ideal.div (Host.reduceAdd x (constant (F := Ideal) S_ .f32 0x00000000#32) reducesTo_S1024x1_S_d0_1 h_S_ j)
    (Ideal.ofBits .f32 0x44800000#32) = _
  rw [hostReduceAdd_apply, Ideal.hostReduceAdd_total _ (fun b => b.elim0)]
  show Ideal.div (Ideal.ofBits .f32 0x00000000#32 + _) _ = _
  rw [Ideal.ofBits_zero_f32, zero_add, sum_idx2]
  simp only [Fin.sum_univ_one]

/-- The tail on the four arrays it reads is the mean of the row losses. -/
theorem tailV_eq (wt : FVec Ideal S1024x512 .f32) (fs : FVec Ideal S1024x512 .bf16) (mt lt : FVec Ideal S1024x1 .f32) :
    tailV wt fs mt lt = fun _ => Ideal.div (∑ b : Fin 1024, rowLf wt fs mt lt b) nB := by
  unfold tailV
  rw [meanV_eq]
  funext _
  refine congrArg (Ideal.div · nB) (Finset.sum_congr rfl fun b _ => ?_)
  have hs : sTV fs wt (ix2 b 0) = sTf fs wt b := sTV_apply fs wt b
  have hp : mulf (colK 0x41F00000#32) (phiV (cosV (sTV fs wt))) (ix2 b 0) = sPhif fs wt b := by
    show colK 0x41F00000#32 (ix2 b 0) * phiV (cosV (sTV fs wt)) (ix2 b 0) = _
    rw [colK_apply, phiV_apply, cosV_apply, hs]
    rfl
  show (mt (ix2 b 0) + Ideal.log ((lt (ix2 b 0)
      + Ideal.exp (mulf (colK 0x41F00000#32) (phiV (cosV (sTV fs wt))) (ix2 b 0) - mt (ix2 b 0)))
      - Ideal.exp (sTV fs wt (ix2 b 0) - mt (ix2 b 0))))
    - mulf (colK 0x41F00000#32) (phiV (cosV (sTV fs wt))) (ix2 b 0) = _
  rw [hp, hs]
  rfl

/-! ## The result as a function of the starting valuation -/

/-- The label's scaled logit of row `b`, from the valuation's features and label rows. -/
def sT' (V1 : Valuation τ sig (Elt Ideal)) (b : Fin 1024) : EReal :=
  sTf (V1 (Proc.devRef .tc main_v10)) (V1 (Proc.devRef .tc main_v28)) b

/-- The label's scaled margin logit of row `b`. -/
def sPhi' (V1 : Valuation τ sig (Elt Ideal)) (b : Fin 1024) : EReal :=
  Cert.ArcSpec.s30 * Cert.ArcSpec.phi (Ideal.div (sT' V1 b) Cert.ArcSpec.s30)

/-- The loss of row `b`, from the valuation's running maximum and running sum. -/
def rowLoss' (V1 : Valuation τ sig (Elt Ideal)) (b : Fin 1024) : EReal :=
  rowLf (V1 (Proc.devRef .tc main_v28)) (V1 (Proc.devRef .tc main_v10)) (V1 (Proc.devRef .tc main_v20))
    (V1 (Proc.devRef .tc main_v27)) b

theorem sPhi'_eq (V1 : Valuation τ sig (Elt Ideal)) (b : Fin 1024) :
    sPhi' V1 b = sPhif (V1 (Proc.devRef .tc main_v10)) (V1 (Proc.devRef .tc main_v28)) b := rfl

/-- The row loss written out over the valuation's four arrays. -/
theorem rowLoss'_eq (V1 : Valuation τ sig (Elt Ideal)) (mt lt : S1024x1.Idx → EReal)
    (hm : V1 (Proc.devRef .tc main_v20) = mt) (hl : V1 (Proc.devRef .tc main_v27) = lt) (b : Fin 1024) :
    rowLoss' V1 b
      = (mt (ix2 b 0) + Ideal.log ((lt (ix2 b 0) + Ideal.exp (sPhi' V1 b - mt (ix2 b 0))) - Ideal.exp (sT' V1 b - mt (ix2 b 0))))
        - sPhi' V1 b := by
  subst hm hl; rfl

/-- After the three stretches the result buffer holds the mean of the row losses over the four arrays read. -/
theorem v73_eq_arrays (V1 : Valuation τ sig (Elt Ideal)) :
    StableHlo.after (hostOps1_2 (F := Ideal) ++ hostOps1_3 ++ hostOps1_4) V1 (Proc.devRef .tc main_v73)
      = fun _ => Ideal.div (∑ b : Fin 1024, rowLf (V1 (Proc.devRef .tc main_v28)) (V1 (Proc.devRef .tc main_v10))
          (V1 (Proc.devRef .tc main_v20)) (V1 (Proc.devRef .tc main_v27)) b) Cert.ArcSpec.nB :=
  (v73_term V1).trans (tailV_eq _ _ _ _)

/-- After the three stretches the result buffer holds the mean of the row losses. -/
theorem v73_eq (V1 : Valuation τ sig (Elt Ideal)) :
    (StableHlo.after (hostOps1_2 (F := Ideal) ++ hostOps1_3 ++ hostOps1_4) V1 (Proc.devRef .tc main_v73) : S_.Idx → EReal)
      = fun _ => Ideal.div (∑ b : Fin 1024, rowLoss' V1 b) Cert.ArcSpec.nB :=
  v73_eq_arrays V1

/-- The label's scaled logit written out over the valuation's two arrays. -/
theorem sT'_eq (V1 : Valuation τ sig (Elt Ideal)) (fs wt : S1024x512.Idx → EReal)
    (hf : V1 (Proc.devRef .tc main_v10) = fs) (hw : V1 (Proc.devRef .tc main_v28) = wt) (b : Fin 1024) :
    sT' V1 b = ∑ d : Fin 512, fs (ix2 b d) * Cert.ArcSpec.unit (fun d => wt (ix2 b d)) d := by
  subst hf hw; rfl

end Cert.KernelIdeal.TailValue2

end
-- ==== Proof.Arc.KernelValue.lean ====
/-
  What the idealized kernel program returns: the mean of the row losses, `KLoss` of its three arguments.

  After the kernel call the two output arrays hold, for each half `i` of the classes and each row `b`, the scan's running
  maximum `mHalf b i` and running sum `lHalf b i`; the scaled features are `xs`, and the weights and labels are as at
  launch. The host lines after the call merge the halves (`mTot`, `lTot`), take the weights' rows at the labels, and
  from them the label's scaled logit `sT`, its margin logit `sPhi`, the corrected sum `lTrue`, the row loss and the mean.
-/
import proofs.«412743_j6253472383512_2_alg».proof.Proof.KI.Frame
import proofs.«412743_j6253472383512_2_alg».proof.Proof.Arc.Region
import proofs.«412743_j6253472383512_2_alg».proof.Proof.Arc.TailA
import proofs.«412743_j6253472383512_2_alg».proof.Proof.Arc.TailB

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.ArcSpec

variable (m : (ℓ : Loc nD τ sig) → Buf (Elt Ideal) ℓ) (ρ : Dev nD → PrngReg)

/-- The three arguments of core `c` as coordinate functions. -/
abbrev X (c : Dev nD) : Feat := featOf (m ((c : Thread nD τ).loc main_arg0))
abbrev W (c : Dev nD) : Wt := wtOf (m ((c : Thread nD τ).loc main_arg1))
abbrev Tl (c : Dev nD) : Lab := labOf (m ((c : Thread nD τ).loc main_arg2))

/-- Core `c`'s buffers when the host lines after the call start: the call's arrays as the call left them, the rest as
    the call found them. -/
abbrev Vt (c : Dev nD) : Valuation τ sig (Elt Ideal) :=
  Pipeline.withArrays spec0 c (V0 m c) fun w => (dats m 0 c).arrAt w cfg0.N

theorem Vt_m (c : Dev nD) : TailValue.mOut (Vt m c) = fun idx => mHalf (X m c) (W m c) (idx 1) (idx 0).val :=
  (Pipeline.withArrays_arr spec0 launch0.win.arr_inj c _ _ 2).trans (RegionValue.out_m m c)

theorem Vt_l (c : Dev nD) : TailValue.lOut (Vt m c) = fun idx => lHalf (X m c) (W m c) (idx 1) (idx 0).val :=
  (Pipeline.withArrays_arr spec0 launch0.win.arr_inj c _ _ 3).trans (RegionValue.out_l m c)

theorem Vt_fs (c : Dev nD) : (Vt m c (Proc.devRef .tc main_v10) : S1024x512.Idx → EReal) = fun i => xs (X m c) (i 0) (i 1) :=
  (Pipeline.withArrays_arr spec0 launch0.win.arr_inj c _ _ 0).trans
    (((dats m 0 c).arrAt_in 0 rfl _).trans ((A_eq m c 0).trans (RegionValue.fs_eq m c)))

theorem Vt_w (c : Dev nD) : TailValue.wArr (Vt m c) = m ((c : Thread nD τ).loc main_arg1) :=
  (Pipeline.withArrays_arr spec0 launch0.win.arr_inj c _ _ 1).trans
    (((dats m 0 c).arrAt_in 1 rfl _).trans ((A_eq m c 1).trans (V_main_arg1 m c)))

theorem Vt_lab (c : Dev nD) : TailValue.labArr (Vt m c) = m ((c : Thread nD τ).loc main_arg2) :=
  (Pipeline.withArrays_of_ne spec0 c _ _ main_arg2 (by decide)).trans (V_main_arg2 m c)

/-- The five stretches after the call, as the first two followed by the last three. -/
theorem tail_split : (tailOps (F := Ideal)).flatten = (hostOps1 ++ hostOps1_1) ++ (hostOps1_2 ++ hostOps1_3 ++ hostOps1_4) := by
  simp only [tailOps, List.flatten_cons, List.flatten_nil, List.append_nil, List.append_assoc]

/-- Row `b`'s loss as the host lines compute it is the specification's. -/
theorem row_eq (c : Dev nD) (hT : InRange (Tl m c)) (b : Fin 1024) :
    TailValue2.rowLoss' (TailValue.V1 (Vt m c)) b = lossRow (X m c) (W m c) (Tl m c) b := by
  have hlab : labOf (TailValue.labArr (Vt m c)) = Tl m c := by rw [Vt_lab]
  have hs : TailValue2.sT' (TailValue.V1 (Vt m c)) b = sT (X m c) (W m c) (Tl m c) b := by
    rw [TailValue2.sT'_eq _ _ _ ((TailValue.v10_keep (Vt m c)).trans (Vt_fs m c)) (TailValue.v28_eq (Vt m c) (hlab ▸ hT)) b]
    unfold sT
    refine Finset.sum_congr rfl fun d _ => ?_
    rw [hlab, Vt_w]
    rfl
  have hp : TailValue2.sPhi' (TailValue.V1 (Vt m c)) b = sPhi (X m c) (W m c) (Tl m c) b := by
    unfold TailValue2.sPhi' sPhi; rw [hs]
  rw [TailValue2.rowLoss'_eq _ _ _ (TailValue.v20_eq (Vt m c)) (TailValue.v27_eq (Vt m c)) b, hs, hp, Vt_m, Vt_l]
  rfl

/-- The result buffer after the host lines: the mean of the row losses. -/
theorem result_eq (c : Dev nD) (hT : InRange (Tl m c)) :
    (Pipeline.afterTail₀ cfgs (dats m) 0 (V0 m) tailOps c main_v73 : S_.Idx → EReal) = fun _ => KLoss (X m c) (W m c) (Tl m c) := by
  show StableHlo.after (tailOps (F := Ideal)).flatten (Vt m c) (Proc.devRef .tc main_v73) = _
  rw [tail_split, StableHlo.after_append]
  refine (TailValue2.v73_eq (TailValue.V1 (Vt m c))).trans ?_
  unfold KLoss
  exact funext fun _ => congrArg (fun s => Ideal.div s nB) (Finset.sum_congr rfl fun b _ => row_eq m c hT b)

/-- The run: every weakly fair execution terminates, with the result at `KLoss` of the arguments and the arguments
    unchanged. -/
theorem run (hT : ∀ c, InRange (Tl m c)) :
    θ_run defs (onTc (τ := τ) (main (F := Ideal))) ⟨m, fun _ => 0, ρ⟩ (fun r => ∀ c : Dev nD,
      r.2.mem ((c.tc : Thread nD τ).loc main_v73) = (fun _ => KLoss (X m c) (W m c) (Tl m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c =>
    ⟨((hr c).2 main_v73 (Pipeline.mem_restRefs_of main_v73 rfl (by decide))).trans (result_eq m c (hT c)),
     frame_args m (dats m) (A_eq m) r hr c⟩) (run_main m ρ)

end Cert.KernelIdeal.KValue

end
-- ==== Proof.Arc.RefRun.lean ====
import proofs.«412743_j6253472383512_2_alg».proof.Proof.RefReadP
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The run of the reference program, by stages

The reference's 97 host operations are cut at the program's narrow waists into four consecutive lines:
(A) up to the cosine matrix `main_v17`; (B) margin, one-hot and scale, up to `main_v42`; (C) the log-softmax,
up to `main_v43`; (D) the gather of the label's entry and the mean, up to `main_v48`. For each line and ANY
starting valuation the buffer the next line reads is the corresponding stage function of the line's inputs,
and no line writes an argument. The four facts compose along `after_append`. -/

/-! ## Typed-reference operations at literal references are the plain operations

An inlined callee's operation moves its function along the references' type equations; at a literal
reference the equation is reflexivity and the transport is the identity. Stated for arbitrary functions. -/

section Plain

variable {Val : EltTy → Type}

theorem tref_nullary_eq {Ty : BufTy} (y : Ref sig .tc) (hy : y.ty = Ty) (dy : y.space ≠ .host) (uy : y.isScoped = false)
    (v : Ty.Contents Val) (v' : y.ty.Contents Val) (hv : HEq v v') :
    TRef.nullary (τ := τ) (TRef.of y hy dy uy) v = StableHlo.nullary y v' (TRef.dev (TRef.of y hy dy uy)) := by
  subst hy; obtain rfl := eq_of_heq hv; rfl

theorem tref_unary_eq {Tx Ty : BufTy} (x y : Ref sig .tc) (hx : x.ty = Tx) (hy : y.ty = Ty)
    (dx : x.space ≠ .host) (ux : x.isScoped = false) (dy : y.space ≠ .host) (uy : y.isScoped = false)
    (f : Tx.Contents Val → Ty.Contents Val) (f' : x.ty.Contents Val → y.ty.Contents Val) (hf : HEq f f') :
    TRef.unary (τ := τ) (TRef.of x hx dx ux) (TRef.of y hy dy uy) f
      = StableHlo.unary x y f' (TRef.dev (TRef.of x hx dx ux)) (TRef.dev (TRef.of y hy dy uy)) := by
  subst hx hy; obtain rfl := eq_of_heq hf; rfl

theorem tref_binary_eq {Ta Tb Ty : BufTy} (a b y : Ref sig .tc) (ha : a.ty = Ta) (hb : b.ty = Tb) (hy : y.ty = Ty)
    (da : a.space ≠ .host) (ua : a.isScoped = false) (db : b.space ≠ .host) (ub : b.isScoped = false)
    (dy : y.space ≠ .host) (uy : y.isScoped = false)
    (f : Ta.Contents Val → Tb.Contents Val → Ty.Contents Val)
    (f' : a.ty.Contents Val → b.ty.Contents Val → y.ty.Contents Val) (hf : HEq f f') :
    TRef.binary (τ := τ) (TRef.of a ha da ua) (TRef.of b hb db ub) (TRef.of y hy dy uy) f
      = StableHlo.binary a b y f' (TRef.dev (TRef.of a ha da ua)) (TRef.dev (TRef.of b hb db ub)) (TRef.dev (TRef.of y hy dy uy)) := by
  subst ha hb hy; obtain rfl := eq_of_heq hf; rfl

end Plain

/-! ## The four lines -/

/-- (A) the two row normalizations and the cosine matrix. -/
abbrev chunkA : List (HloOp τ sig (Elt F)) :=
  [ binary main_arg0 main_arg0 main_v0 (mulf : (⟨S1024x512, .f32⟩ : BufTy).Contents (Elt F) → (⟨S1024x512, .f32⟩ : BufTy).Contents (Elt F) → (⟨S1024x512, .f32⟩ : BufTy).Contents (Elt F)),
    nullary main_cst (constant S_ .f32 0x00000000#32),
    binary main_v0 main_cst main_v1 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v1 main_v2 (broadcastInDim S1024x1 ![0] bcast_S1024_S1024x1_0 : (⟨S1024, .f32⟩ : BufTy).Contents (Elt F) → (⟨S1024x1, .f32⟩ : BufTy).Contents (Elt F)),
    unary main_v2 main_v3 (Host.sqrt : (⟨S1024x1, .f32⟩ : BufTy).Contents (Elt F) → (⟨S1024x1, .f32⟩ : BufTy).Contents (Elt F)),
    nullary main_cst_0 (constant S_ .f32 0x2B8CBCCC#32),
    unary main_cst_0 main_v4 (broadcastInDim S1024x1 ![] bcast_S_S1024x1 : (⟨S_, .f32⟩ : BufTy).Contents (Elt F) → (⟨S1024x1, .f32⟩ : BufTy).Contents (Elt F)),
    binary main_v3 main_v4 main_v5 (maximumf : (⟨S1024x1, .f32⟩ : BufTy).Contents (Elt F) → (⟨S1024x1, .f32⟩ : BufTy).Contents (Elt F) → (⟨S1024x1, .f32⟩ : BufTy).Contents (Elt F)),
    unary main_v5 main_v6 (broadcastInDim S1024x512 ![0, 1] bcast_S1024x1_S1024x512_0_1 : (⟨S1024x1, .f32⟩ : BufTy).Contents (Elt F) → (⟨S1024x512, .f32⟩ : BufTy).Contents (Elt F)),
    binary main_arg0 main_v6 main_v7 (Host.divf : (⟨S1024x512, .f32⟩ : BufTy).Contents (Elt F) → (⟨S1024x512, .f32⟩ : BufTy).Contents (Elt F) → (⟨S1024x512, .f32⟩ : BufTy).Contents (Elt F)),
    binary main_arg1 main_arg1 main_v8 (mulf : (⟨S100000x512, .f32⟩ : BufTy).Contents (Elt F) → (⟨S100000x512, .f32⟩ : BufTy).Contents (Elt F) → (⟨S100000x512, .f32⟩ : BufTy).Contents (Elt F)),
    nullary main_cst_1 (constant S_ .f32 0x00000000#32),
    binary main_v8 main_cst_1 main_v9 ((fun x v => Host.reduceAdd x v reducesTo_S100000x512_S100000_d1 h_S_) : (⟨S100000x512, .f32⟩ : BufTy).Contents (Elt F) → (⟨S_, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    unary main_v10 main_v11 (Host.sqrt : (⟨S100000x1, .f32⟩ : BufTy).Contents (Elt F) → (⟨S100000x1, .f32⟩ : BufTy).Contents (Elt F)),
    nullary main_cst_2 (constant S_ .f32 0x2B8CBCCC#32),
    unary main_cst_2 main_v12 (broadcastInDim S100000x1 ![] bcast_S_S100000x1 : (⟨S_, .f32⟩ : BufTy).Contents (Elt F) → (⟨S100000x1, .f32⟩ : BufTy).Contents (Elt F)),
    binary main_v11 main_v12 main_v13 (maximumf : (⟨S100000x1, .f32⟩ : BufTy).Contents (Elt F) → (⟨S100000x1, .f32⟩ : BufTy).Contents (Elt F) → (⟨S100000x1, .f32⟩ : BufTy).Contents (Elt F)),
    unary main_v13 main_v14 (broadcastInDim S100000x512 ![0, 1] bcast_S100000x1_S100000x512_0_1 : (⟨S100000x1, .f32⟩ : BufTy).Contents (Elt F) → (⟨S100000x512, .f32⟩ : BufTy).Contents (Elt F)),
    binary main_arg1 main_v14 main_v15 (Host.divf : (⟨S100000x512, .f32⟩ : BufTy).Contents (Elt F) → (⟨S100000x512, .f32⟩ : BufTy).Contents (Elt F) → (⟨S100000x512, .f32⟩ : BufTy).Contents (Elt F)),
    unary main_v15 main_v16 ((transpose S512x100000 [1, 0] · transposes_S100000x512_S512x100000_1_0) : (⟨S100000x512, .f32⟩ : BufTy).Contents (Elt F) → (⟨S512x100000, .f32⟩ : BufTy).Contents (Elt F)),
    binary main_v7 main_v16 main_v17 ((fun l r => Host.dotGeneral dot_S1024x512_S512x100000_S1024x100000_1_0_0_1_n_n none l r) : (⟨S1024x512, .f32⟩ : BufTy).Contents (Elt F) → (⟨S512x100000, .f32⟩ : BufTy).Contents (Elt F) → (⟨S1024x100000, .f32⟩ : BufTy).Contents (Elt F)) ]

/-- (B) the additive angular margin at the label's column and the scale. -/
abbrev chunkB : List (HloOp τ sig (Elt F)) :=
  [ binary main_v17 main_v17 main_v18 (mulf : (⟨S1024x100000, .f32⟩ : BufTy).Contents (Elt F) → (⟨S1024x100000, .f32⟩ : BufTy).Contents (Elt F) → (⟨S1024x100000, .f32⟩ : BufTy).Contents (Elt F)),
    nullary main_cst_3 (constant S_ .f32 0x3F800000#32),
    unary main_cst_3 main_v19 (broadcastInDim S1024x100000 ![] bcast_S_S1024x100000 : (⟨S_, .f32⟩ : BufTy).Contents (Elt F) → (⟨S1024x100000, .f32⟩ : BufTy).Contents (Elt F)),
    binary main_v19 main_v18 main_v20 (subf : (⟨S1024x100000, .f32⟩ : BufTy).Contents (Elt F) → (⟨S1024x100000, .f32⟩ : BufTy).Contents (Elt F) → (⟨S1024x100000, .f32⟩ : BufTy).Contents (Elt F)),
    nullary main_cst_4 (constant S_ .f32 0x00000000#32),
    unary main_cst_4 main_v21 (broadcastInDim S1024x100000 ![] bcast_S_S1024x100000 : (⟨S_, .f32⟩ : BufTy).Contents (Elt F) → (⟨S1024x100000, .f32⟩ : BufTy).Contents (Elt F)),
    binary main_v20 main_v21 main_v22 (maximumf : (⟨S1024x100000, .f32⟩ : BufTy).Contents (Elt F) → (⟨S1024x100000, .f32⟩ : BufTy).Contents (Elt F) → (⟨S1024x100000, .f32⟩ : BufTy).Contents (Elt F)),
    unary main_v22 main_v23 (Host.sqrt : (⟨S1024x100000, .f32⟩ : BufTy).Contents (Elt F) → (⟨S1024x100000, .f32⟩ : BufTy).Contents (Elt F)),
    nullary main_cst_5 (constant S_ .f32 0x3F7490EF#32),
    unary main_cst_5 main_v24 (broadcastInDim S1024x100000 ![] bcast_S_S1024x100000 : (⟨S_, .f32⟩ : BufTy).Contents (Elt F) → (⟨S1024x100000, .f32⟩ : BufTy).Contents (Elt F)),
    binary main_v17 main_v24 main_v25 (mulf : (⟨S1024x100000, .f32⟩ : BufTy).Contents (Elt F) → (⟨S1024x100000, .f32⟩ : BufTy).Contents (Elt F) → (⟨S1024x100000, .f32⟩ : BufTy).Contents (Elt F)),
    nullary main_cst_6 (constant S_ .f32 0x3E974E6D#32),
    unary main_cst_6 main_v26 (broadcastInDim S1024x100000 ![] bcast_S_S1024x100000 : (⟨S_, .f32⟩ : BufTy).Contents (Elt F) → (⟨S1024x100000, .f32⟩ : BufTy).Contents (Elt F)),
    binary main_v23 main_v26 main_v27 (mulf : (⟨S1024x100000, .f32⟩ : BufTy).Contents (Elt F) → (⟨S1024x100000, .f32⟩ : BufTy).Contents (Elt F) → (⟨S1024x100000, .f32⟩ : BufTy).Contents (Elt F)),
    binary main_v25 main_v27 main_v28 (subf : (⟨S1024x100000, .f32⟩ : BufTy).Contents (Elt F) → (⟨S1024x100000, .f32⟩ : BufTy).Contents (Elt F) → (⟨S1024x100000, .f32⟩ : BufTy).Contents (Elt F)),
    nullary main_cst_7 (constant S_ .f32 0xBF7490EF#32),
    unary main_cst_7 main_v29 (broadcastInDim S1024x100000 ![] bcast_S_S1024x100000 : (⟨S_, .f32⟩ : BufTy).Contents (Elt F) → (⟨S1024x100000, .f32⟩ : BufTy).Contents (Elt F)),
    binary main_v17 main_v29 main_v30 (cmpf .ogt : (⟨S1024x100000, .f32⟩ : BufTy).Contents (Elt F) → (⟨S1024x100000, .f32⟩ : BufTy).Contents (Elt F) → (⟨S1024x100000, .i1⟩ : BufTy).Contents (Elt F)),
    nullary main_cst_8 (constant S_ .f32 0x3DB5914F#32),
    unary main_cst_8 main_v31 (broadcastInDim S1024x100000 ![] bcast_S_S1024x100000 : (⟨S_, .f32⟩ : BufTy).Contents (Elt F) → (⟨S1024x100000, .f32⟩ : BufTy).Contents (Elt F)),
    binary main_v17 main_v31 main_v32 (subf : (⟨S1024x100000, .f32⟩ : BufTy).Contents (Elt F) → (⟨S1024x100000, .f32⟩ : BufTy).Contents (Elt F) → (⟨S1024x100000, .f32⟩ : BufTy).Contents (Elt F)),
    TRef.ternary (TRef.of (T := ⟨S1024x100000, .i1⟩) main_v30) (TRef.of (T := ⟨S1024x100000, .f32⟩) main_v28) (TRef.of (T := ⟨S1024x100000, .f32⟩) main_v32) (TRef.of (T := ⟨S1024x100000, .f32⟩) main_v33) select,
    unary main_arg2 main_v34 (broadcastInDim S1024x1 ![0] bcast_S1024_S1024x1_0 : (⟨S1024, .i32⟩ : BufTy).Contents (Elt F) → (⟨S1024x1, .i32⟩ : BufTy).Contents (Elt F)),
    nullary main_v35 (iotaInDim S100000 32 0),
    unary main_v35 main_v36 (broadcastInDim S1x100000 ![1] bcast_S100000_S1x100000_1 : (⟨S100000, .i32⟩ : BufTy).Contents (Elt F) → (⟨S1x100000, .i32⟩ : BufTy).Contents (Elt F)),
    unary main_v34 main_v37 (broadcastInDim S1024x100000 ![0, 1] bcast_S1024x1_S1024x100000_0_1 : (⟨S1024x1, .i32⟩ : BufTy).Contents (Elt F) → (⟨S1024x100000, .i32⟩ : BufTy).Contents (Elt F)),
    unary main_v36 main_v38 (broadcastInDim S1024x100000 ![0, 1] bcast_S1x100000_S1024x100000_0_1 : (⟨S1x100000, .i32⟩ : BufTy).Contents (Elt F) → (⟨S1024x100000, .i32⟩ : BufTy).Contents (Elt F)),
    binary main_v37 main_v38 main_v39 (cmpi .eq : (⟨S1024x100000, .i32⟩ : BufTy).Contents (Elt F) → (⟨S1024x100000, .i32⟩ : BufTy).Contents (Elt F) → (⟨S1024x100000, .i1⟩ : BufTy).Contents (Elt F)),
    TRef.ternary (TRef.of (T := ⟨S1024x100000, .i1⟩) main_v39) (TRef.of (T := ⟨S1024x100000, .f32⟩) main_v33) (TRef.of (T := ⟨S1024x100000, .f32⟩) main_v17) (TRef.of (T := ⟨S1024x100000, .f32⟩) main_v40) select,
    nullary main_cst_9 (constant S_ .f32 0x41F00000#32),
    unary main_cst_9 main_v41 (broadcastInDim S1024x100000 ![] bcast_S_S1024x100000 : (⟨S_, .f32⟩ : BufTy).Contents (Elt F) → (⟨S1024x100000, .f32⟩ : BufTy).Contents (Elt F)),
    binary main_v40 main_v41 main_v42 (mulf : (⟨S1024x100000, .f32⟩ : BufTy).Contents (Elt F) → (⟨S1024x100000, .f32⟩ : BufTy).Contents (Elt F) → (⟨S1024x100000, .f32⟩ : BufTy).Contents (Elt F)) ]

/-- (C) the row-wise log-softmax, as the program spells it: over typed references. -/
abbrev chunkCT : List (HloOp τ sig (Elt F)) :=
  [ TRef.nullary (TRef.of (T := ⟨S_, .f32⟩) main_call2_cst) (constant S_ .f32 0xFF800000#32),
    TRef.binary (TRef.of (T := ⟨S1024x100000, .f32⟩) main_v42) (TRef.of (T := ⟨S_, .f32⟩) main_call2_cst) (TRef.of (T := ⟨S1024, .f32⟩) main_call2_v0) (fun x v => Host.reduce FloatOps.maximumf x v reducesTo_S1024x100000_S1024_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S1024, .f32⟩) main_call2_v1) (broadcastInDim S1024 ![] bcast_S_S1024),
    TRef.binary (TRef.of (T := ⟨S1024, .f32⟩) main_call2_v1) (TRef.of (T := ⟨S1024, .f32⟩) main_call2_v0) (TRef.of (T := ⟨S1024, .f32⟩) main_call2_v2) maximumf,
    TRef.unary (TRef.of (T := ⟨S1024, .f32⟩) main_call2_v2) (TRef.of (T := ⟨S1024x1, .f32⟩) main_call2_v3) (broadcastInDim S1024x1 ![0] bcast_S1024_S1024x1_0),
    TRef.unary (TRef.of (T := ⟨S1024x1, .f32⟩) main_call2_v3) (TRef.of (T := ⟨S1024x100000, .f32⟩) main_call2_v4) (broadcastInDim S1024x100000 ![0, 1] bcast_S1024x1_S1024x100000_0_1),
    TRef.binary (TRef.of (T := ⟨S1024x100000, .f32⟩) main_v42) (TRef.of (T := ⟨S1024x100000, .f32⟩) main_call2_v4) (TRef.of (T := ⟨S1024x100000, .f32⟩) main_call2_v5) subf,
    TRef.unary (TRef.of (T := ⟨S1024x100000, .f32⟩) main_call2_v5) (TRef.of (T := ⟨S1024x100000, .f32⟩) main_call2_v6) Host.exp,
    TRef.nullary (TRef.of (T := ⟨S_, .f32⟩) main_call2_cst_1) (constant S_ .f32 0x00000000#32),
    TRef.binary (TRef.of (T := ⟨S1024x100000, .f32⟩) main_call2_v6) (TRef.of (T := ⟨S_, .f32⟩) main_call2_cst_1) (TRef.of (T := ⟨S1024, .f32⟩) main_call2_v7) (fun x v => Host.reduceAdd x v reducesTo_S1024x100000_S1024_d1 h_S_),
    TRef.unary (TRef.of (T := ⟨S1024, .f32⟩) main_call2_v7) (TRef.of (T := ⟨S1024x1, .f32⟩) main_call2_v8) (broadcastInDim S1024x1 ![0] bcast_S1024_S1024x1_0),
    TRef.unary (TRef.of (T := ⟨S1024x1, .f32⟩) main_call2_v8) (TRef.of (T := ⟨S1024x1, .f32⟩) main_call2_v9) Host.log,
    TRef.unary (TRef.of (T := ⟨S1024x1, .f32⟩) main_call2_v9) (TRef.of (T := ⟨S1024x100000, .f32⟩) main_call2_v10) (broadcastInDim S1024x100000 ![0, 1] bcast_S1024x1_S1024x100000_0_1),
    TRef.binary (TRef.of (T := ⟨S1024x100000, .f32⟩) main_call2_v5) (TRef.of (T := ⟨S1024x100000, .f32⟩) main_call2_v10) (TRef.of (T := ⟨S1024x100000, .f32⟩) main_v43) subf ]

/-- (C) the row-wise log-softmax, over the plain references: the same fifteen operations. -/
abbrev chunkC : List (HloOp τ sig (Elt F)) :=
  [ nullary main_call2_cst (constant S_ .f32 0xFF800000#32 : (⟨S_, .f32⟩ : BufTy).Contents (Elt F)),
    binary main_v42 main_call2_cst main_call2_v0 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    nullary main_call2_cst_0 (constant S_ .f32 0xFF800000#32 : (⟨S_, .f32⟩ : BufTy).Contents (Elt F)),
    unary main_call2_cst_0 main_call2_v1 ((broadcastInDim S1024 ![] bcast_S_S1024) : (⟨S_, .f32⟩ : BufTy).Contents (Elt F) → (⟨S1024, .f32⟩ : BufTy).Contents (Elt F)),
    binary main_call2_v1 main_call2_v0 main_call2_v2 (maximumf : (⟨S1024, .f32⟩ : BufTy).Contents (Elt F) → (⟨S1024, .f32⟩ : BufTy).Contents (Elt F) → (⟨S1024, .f32⟩ : BufTy).Contents (Elt F)),
    unary main_call2_v2 main_call2_v3 ((broadcastInDim S1024x1 ![0] bcast_S1024_S1024x1_0) : (⟨S1024, .f32⟩ : BufTy).Contents (Elt F) → (⟨S1024x1, .f32⟩ : BufTy).Contents (Elt F)),
    unary main_call2_v3 main_call2_v4 ((broadcastInDim S1024x100000 ![0, 1] bcast_S1024x1_S1024x100000_0_1) : (⟨S1024x1, .f32⟩ : BufTy).Contents (Elt F) → (⟨S1024x100000, .f32⟩ : BufTy).Contents (Elt F)),
    binary main_v42 main_call2_v4 main_call2_v5 (subf : (⟨S1024x100000, .f32⟩ : BufTy).Contents (Elt F) → (⟨S1024x100000, .f32⟩ : BufTy).Contents (Elt F) → (⟨S1024x100000, .f32⟩ : BufTy).Contents (Elt F)),
    unary main_call2_v5 main_call2_v6 (Host.exp : (⟨S1024x100000, .f32⟩ : BufTy).Contents (Elt F) → (⟨S1024x100000, .f32⟩ : BufTy).Contents (Elt F)),
    nullary main_call2_cst_1 (constant S_ .f32 0x00000000#32 : (⟨S_, .f32⟩ : BufTy).Contents (Elt F)),
    binary main_call2_v6 main_call2_cst_1 main_call2_v7 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    unary main_call2_v7 main_call2_v8 ((broadcastInDim S1024x1 ![0] bcast_S1024_S1024x1_0) : (⟨S1024, .f32⟩ : BufTy).Contents (Elt F) → (⟨S1024x1, .f32⟩ : BufTy).Contents (Elt F)),
    unary main_call2_v8 main_call2_v9 (Host.log : (⟨S1024x1, .f32⟩ : BufTy).Contents (Elt F) → (⟨S1024x1, .f32⟩ : BufTy).Contents (Elt F)),
    unary main_call2_v9 main_call2_v10 ((broadcastInDim S1024x100000 ![0, 1] bcast_S1024x1_S1024x100000_0_1) : (⟨S1024x1, .f32⟩ : BufTy).Contents (Elt F) → (⟨S1024x100000, .f32⟩ : BufTy).Contents (Elt F)),
    binary main_call2_v5 main_call2_v10 main_v43 (subf : (⟨S1024x100000, .f32⟩ : BufTy).Contents (Elt F) → (⟨S1024x100000, .f32⟩ : BufTy).Contents (Elt F) → (⟨S1024x100000, .f32⟩ : BufTy).Contents (Elt F)) ]

/-- (D) the entry at the label (out-of-range labels read as NaN), the sum over rows, the mean and its negation. -/
abbrev chunkD : List (HloOp τ sig (Elt F)) :=
  [ unary main_arg2 main_v44 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S1024x1, .i32⟩) main_call3_v0) (broadcastInDim S1024x1 ![] bcast_S_S1024x1),
    TRef.binary (TRef.of (T := ⟨S1024x1, .i32⟩) main_v44) (TRef.of (T := ⟨S1024x1, .i32⟩) main_call3_v0) (TRef.of (T := ⟨S1024x1, .i1⟩) main_call3_v1) (cmpi .slt),
    TRef.nullary (TRef.of (T := ⟨S_, .i32⟩) main_call3_c_0) (constantI S_ 32 100000#32),
    TRef.unary (TRef.of (T := ⟨S_, .i32⟩) main_call3_c_0) (TRef.of (T := ⟨S1024x1, .i32⟩) main_call3_v2) (broadcastInDim S1024x1 ![] bcast_S_S1024x1),
    TRef.binary (TRef.of (T := ⟨S1024x1, .i32⟩) main_v44) (TRef.of (T := ⟨S1024x1, .i32⟩) main_call3_v2) (TRef.of (T := ⟨S1024x1, .i32⟩) main_call3_v3) addi,
    TRef.ternary (TRef.of (T := ⟨S1024x1, .i1⟩) main_call3_v1) (TRef.of (T := ⟨S1024x1, .i32⟩) main_call3_v3) (TRef.of (T := ⟨S1024x1, .i32⟩) main_v44) (TRef.of (T := ⟨S1024x1, .i32⟩) main_call3_v4) select,
    TRef.reshape (TRef.of (T := ⟨S1024x1, .i32⟩) main_call3_v4) (TRef.of (T := ⟨S1024x1x1, .i32⟩) main_call3_v5) rfl shapeCasts_S1024x1_S1024x1x1,
    TRef.nullary (TRef.of (T := ⟨S1, .i32⟩) main_call3_c_1) (constantI S1 32 99999#32),
    TRef.nullary (TRef.of (T := ⟨S_, .i32⟩) main_call3_c_2) (constantI S_ 32 0#32),
    TRef.unary (TRef.of (T := ⟨S_, .i32⟩) main_call3_c_2) (TRef.of (T := ⟨S1024x1x1, .i32⟩) main_call3_v6) (broadcastInDim S1024x1x1 ![] bcast_S_S1024x1x1),
    TRef.binary (TRef.of (T := ⟨S1024x1x1, .i32⟩) main_call3_v5) (TRef.of (T := ⟨S1024x1x1, .i32⟩) main_call3_v6) (TRef.of (T := ⟨S1024x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S1024x1x1, .i32⟩) main_call3_v9) (broadcastInDim S1024x1x1 ![0, 1, 2] bcast_S1x1x1_S1024x1x1_0_1_2),
    TRef.binary (TRef.of (T := ⟨S1024x1x1, .i32⟩) main_call3_v5) (TRef.of (T := ⟨S1024x1x1, .i32⟩) main_call3_v9) (TRef.of (T := ⟨S1024x1x1, .i1⟩) main_call3_v10) (cmpi .sle),
    TRef.binary (TRef.of (T := ⟨S1024x1x1, .i1⟩) main_call3_v7) (TRef.of (T := ⟨S1024x1x1, .i1⟩) main_call3_v10) (TRef.of (T := ⟨S1024x1x1, .i1⟩) main_call3_v11) andi,
    TRef.nullary (TRef.of (T := ⟨S_, .i1⟩) main_call3_c_3) (constantI S_ 1 1#1),
    TRef.binary (TRef.of (T := ⟨S1024x1x1, .i1⟩) main_call3_v11) (TRef.of (T := ⟨S_, .i1⟩) main_call3_c_3) (TRef.of (T := ⟨S1024x1, .i1⟩) main_call3_v12) (fun x v => Host.reduce IntOp.andi x v reducesTo_S1024x1x1_S1024x1_d2 h_S_),
    TRef.binary (TRef.of (T := ⟨S1024x100000, .f32⟩) main_v43) (TRef.of (T := ⟨S1024x1x1, .i32⟩) main_call3_v5) (TRef.of (T := ⟨S1024x1, .f32⟩) main_call3_v13) (fun x i => Host.gather gather_S1024x100000_S1024x1x1_S1024x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S1024x1, .f32⟩) main_call3_v14) (broadcastInDim S1024x1 ![] bcast_S_S1024x1),
    TRef.ternary (TRef.of (T := ⟨S1024x1, .i1⟩) main_call3_v12) (TRef.of (T := ⟨S1024x1, .f32⟩) main_call3_v13) (TRef.of (T := ⟨S1024x1, .f32⟩) main_call3_v14) (TRef.of (T := ⟨S1024x1, .f32⟩) main_v45) select,
    nullary main_cst_10 (constant S_ .f32 0x00000000#32),
    binary main_v45 main_cst_10 main_v46 ((fun x v => Host.reduceAdd x v reducesTo_S1024x1_S_d0_1 h_S_) : (⟨S1024x1, .f32⟩ : BufTy).Contents (Elt F) → (⟨S_, .f32⟩ : BufTy).Contents (Elt F) → (⟨S_, .f32⟩ : BufTy).Contents (Elt F)),
    nullary main_cst_11 (constant S_ .f32 0x44800000#32),
    binary main_v46 main_cst_11 main_v47 (Host.divf : (⟨S_, .f32⟩ : BufTy).Contents (Elt F) → (⟨S_, .f32⟩ : BufTy).Contents (Elt F) → (⟨S_, .f32⟩ : BufTy).Contents (Elt F)),
    unary main_v47 main_v48 (Host.negf : (⟨S_, .f32⟩ : BufTy).Contents (Elt F) → (⟨S_, .f32⟩ : BufTy).Contents (Elt F)) ]

/-- The two spellings of line (C) agree, operation by operation. -/
theorem chunkC_eq : (chunkCT : List (HloOp τ sig (Elt F))) = chunkC :=
  congrArg₂ List.cons (tref_nullary_eq _ _ _ _ _ _ HEq.rfl) <|
  congrArg₂ List.cons (tref_binary_eq _ _ _ _ _ _ _ _ _ _ _ _ _ _ HEq.rfl) <|
  congrArg₂ List.cons (tref_nullary_eq _ _ _ _ _ _ HEq.rfl) <|
  congrArg₂ List.cons (tref_unary_eq _ _ _ _ _ _ _ _ _ _ HEq.rfl) <|
  congrArg₂ List.cons (tref_binary_eq _ _ _ _ _ _ _ _ _ _ _ _ _ _ HEq.rfl) <|
  congrArg₂ List.cons (tref_unary_eq _ _ _ _ _ _ _ _ _ _ HEq.rfl) <|
  congrArg₂ List.cons (tref_unary_eq _ _ _ _ _ _ _ _ _ _ HEq.rfl) <|
  congrArg₂ List.cons (tref_binary_eq _ _ _ _ _ _ _ _ _ _ _ _ _ _ HEq.rfl) <|
  congrArg₂ List.cons (tref_unary_eq _ _ _ _ _ _ _ _ _ _ HEq.rfl) <|
  congrArg₂ List.cons (tref_nullary_eq _ _ _ _ _ _ HEq.rfl) <|
  congrArg₂ List.cons (tref_binary_eq _ _ _ _ _ _ _ _ _ _ _ _ _ _ HEq.rfl) <|
  congrArg₂ List.cons (tref_unary_eq _ _ _ _ _ _ _ _ _ _ HEq.rfl) <|
  congrArg₂ List.cons (tref_unary_eq _ _ _ _ _ _ _ _ _ _ HEq.rfl) <|
  congrArg₂ List.cons (tref_unary_eq _ _ _ _ _ _ _ _ _ _ HEq.rfl) <|
  congrArg₂ List.cons (tref_binary_eq _ _ _ _ _ _ _ _ _ _ _ _ _ _ HEq.rfl) <|
  rfl

theorem ops_eq' : (ValueP.ops : List (HloOp τ sig (Elt F))) = chunkA ++ (chunkB ++ (chunkCT ++ chunkD)) := rfl

/-- The program's operations are the four lines in a row. -/
theorem ops_eq : (ValueP.ops : List (HloOp τ sig (Elt F))) = chunkA ++ (chunkB ++ (chunkC ++ chunkD)) :=
  ops_eq'.trans (congrArg (fun l => chunkA ++ (chunkB ++ (l ++ chunkD))) chunkC_eq)

/-! ## No operation allocates -/

theorem chunkA_fresh : ∀ op ∈ (chunkA : List (HloOp τ sig (Elt F))), op.fresh = ∅ := by
  intro _ h; (repeat (cases h with | head => rfl | tail _ h => ?_)); exact nomatch h
theorem chunkB_fresh : ∀ op ∈ (chunkB : List (HloOp τ sig (Elt F))), op.fresh = ∅ := by
  intro _ h; (repeat (cases h with | head => rfl | tail _ h => ?_)); exact nomatch h
theorem chunkC_fresh : ∀ op ∈ (chunkC : List (HloOp τ sig (Elt F))), op.fresh = ∅ := by
  intro _ h; (repeat (cases h with | head => rfl | tail _ h => ?_)); exact nomatch h
theorem chunkD_fresh : ∀ op ∈ (chunkD : List (HloOp τ sig (Elt F))), op.fresh = ∅ := by
  intro _ h; (repeat (cases h with | head => rfl | tail _ h => ?_)); exact nomatch h

theorem ops_fresh : ∀ op ∈ (ValueP.ops : List (HloOp τ sig (Elt F))), op.fresh = ∅ := by
  intro op h
  rw [ops_eq, List.mem_append, List.mem_append, List.mem_append] at h
  rcases h with h | h | h | h
  · exact chunkA_fresh op h
  · exact chunkB_fresh op h
  · exact chunkC_fresh op h
  · exact chunkD_fresh op h

/-! ## Line (A) -/

theorem chunkA_v17 (W : Valuation τ sig (Elt F)) :
    after chunkA W (Proc.devRef .tc main_v17)
      = ReadP.val_main_v17 (F := F) (W (Proc.devRef .tc main_arg0)) (W (Proc.devRef .tc main_arg1)) := by
  after_results_simp
  rfl
theorem chunkA_arg0 (W : Valuation τ sig (Elt F)) :
    after chunkA W (Proc.devRef .tc main_arg0) = W (Proc.devRef .tc main_arg0) := by
  after_results_simp
theorem chunkA_arg1 (W : Valuation τ sig (Elt F)) :
    after chunkA W (Proc.devRef .tc main_arg1) = W (Proc.devRef .tc main_arg1) := by
  after_results_simp
theorem chunkA_arg2 (W : Valuation τ sig (Elt F)) :
    after chunkA W (Proc.devRef .tc main_arg2) = W (Proc.devRef .tc main_arg2) := by
  after_results_simp

/-! ## Line (B) -/

set_option maxRecDepth 8192 in
theorem chunkB_v42 (W : Valuation τ sig (Elt F)) (x0 : (⟨S1024x512, .f32⟩ : BufTy).Contents (Elt F)) (x1 : (⟨S100000x512, .f32⟩ : BufTy).Contents (Elt F)) (x2 : (⟨S1024, .i32⟩ : BufTy).Contents (Elt F))
    (h17 : W (Proc.devRef .tc main_v17) = ReadP.val_main_v17 (F := F) x0 x1)
    (h2 : W (Proc.devRef .tc main_arg2) = x2) :
    after chunkB W (Proc.devRef .tc main_v42) = ReadP.val_main_v42 (F := F) x0 x1 x2 := by
  after_results_simp
  simp only [TRef.ofBuf, TRef.toBuf, cast_eq]
  rw [h17, h2]
  rfl
theorem chunkB_arg0 (W : Valuation τ sig (Elt F)) :
    after chunkB W (Proc.devRef .tc main_arg0) = W (Proc.devRef .tc main_arg0) := by
  after_results_simp
theorem chunkB_arg1 (W : Valuation τ sig (Elt F)) :
    after chunkB W (Proc.devRef .tc main_arg1) = W (Proc.devRef .tc main_arg1) := by
  after_results_simp
theorem chunkB_arg2 (W : Valuation τ sig (Elt F)) :
    after chunkB W (Proc.devRef .tc main_arg2) = W (Proc.devRef .tc main_arg2) := by
  after_results_simp

/-! ## Line (C) -/

set_option maxRecDepth 8192 in
theorem chunkC_v43 (W : Valuation τ sig (Elt F)) (x0 : (⟨S1024x512, .f32⟩ : BufTy).Contents (Elt F)) (x1 : (⟨S100000x512, .f32⟩ : BufTy).Contents (Elt F)) (x2 : (⟨S1024, .i32⟩ : BufTy).Contents (Elt F))
    (h42 : W (Proc.devRef .tc main_v42) = ReadP.val_main_v42 (F := F) x0 x1 x2) :
    after chunkC W (Proc.devRef .tc main_v43) = ReadP.val_main_v43 (F := F) x0 x1 x2 := by
  after_results_simp
  rw [h42]
  rfl
theorem chunkC_arg0 (W : Valuation τ sig (Elt F)) :
    after chunkC W (Proc.devRef .tc main_arg0) = W (Proc.devRef .tc main_arg0) := by
  after_results_simp
theorem chunkC_arg1 (W : Valuation τ sig (Elt F)) :
    after chunkC W (Proc.devRef .tc main_arg1) = W (Proc.devRef .tc main_arg1) := by
  after_results_simp
theorem chunkC_arg2 (W : Valuation τ sig (Elt F)) :
    after chunkC W (Proc.devRef .tc main_arg2) = W (Proc.devRef .tc main_arg2) := by
  after_results_simp

/-! ## Line (D) -/

set_option maxRecDepth 8192 in
theorem chunkD_v48 (W : Valuation τ sig (Elt F)) (x0 : (⟨S1024x512, .f32⟩ : BufTy).Contents (Elt F)) (x1 : (⟨S100000x512, .f32⟩ : BufTy).Contents (Elt F)) (x2 : (⟨S1024, .i32⟩ : BufTy).Contents (Elt F))
    (h43 : W (Proc.devRef .tc main_v43) = ReadP.val_main_v43 (F := F) x0 x1 x2)
    (h2 : W (Proc.devRef .tc main_arg2) = x2) :
    after chunkD W (Proc.devRef .tc main_v48) = ReadP.val_main_v48 (F := F) x0 x1 x2 := by
  after_results_simp
  simp only [TRef.ofBuf, TRef.toBuf, cast_eq]
  rw [h43, h2]
  rfl
theorem chunkD_arg0 (W : Valuation τ sig (Elt F)) :
    after chunkD W (Proc.devRef .tc main_arg0) = W (Proc.devRef .tc main_arg0) := by
  after_results_simp
theorem chunkD_arg1 (W : Valuation τ sig (Elt F)) :
    after chunkD W (Proc.devRef .tc main_arg1) = W (Proc.devRef .tc main_arg1) := by
  after_results_simp
theorem chunkD_arg2 (W : Valuation τ sig (Elt F)) :
    after chunkD W (Proc.devRef .tc main_arg2) = W (Proc.devRef .tc main_arg2) := by
  after_results_simp

/-! ## The four lines in a row -/

theorem after_ops (V : Valuation τ sig (Elt F)) :
    after (ValueP.ops : List (HloOp τ sig (Elt F))) V = after chunkD (after chunkC (after chunkB (after chunkA V))) := by
  rw [ops_eq, StableHlo.after_append, StableHlo.after_append, StableHlo.after_append]

theorem after_ops_arg0 (V : Valuation τ sig (Elt F)) :
    after (ValueP.ops : List (HloOp τ sig (Elt F))) V (Proc.devRef .tc main_arg0) = V (Proc.devRef .tc main_arg0) := by
  rw [after_ops, chunkD_arg0, chunkC_arg0, chunkB_arg0, chunkA_arg0]
theorem after_ops_arg1 (V : Valuation τ sig (Elt F)) :
    after (ValueP.ops : List (HloOp τ sig (Elt F))) V (Proc.devRef .tc main_arg1) = V (Proc.devRef .tc main_arg1) := by
  rw [after_ops, chunkD_arg1, chunkC_arg1, chunkB_arg1, chunkA_arg1]
theorem after_ops_arg2 (V : Valuation τ sig (Elt F)) :
    after (ValueP.ops : List (HloOp τ sig (Elt F))) V (Proc.devRef .tc main_arg2) = V (Proc.devRef .tc main_arg2) := by
  rw [after_ops, chunkD_arg2, chunkC_arg2, chunkB_arg2, chunkA_arg2]

theorem after_ops_v48 (V : Valuation τ sig (Elt F)) :
    after (ValueP.ops : List (HloOp τ sig (Elt F))) V (Proc.devRef .tc main_v48)
      = ReadP.val_main_v48 (F := F) (V (Proc.devRef .tc main_arg0)) (V (Proc.devRef .tc main_arg1)) (V (Proc.devRef .tc main_arg2)) := by
  rw [after_ops]
  have hA := chunkA_v17 V
  have hA2 := chunkA_arg2 V
  have hB := chunkB_v42 (after chunkA V) _ _ _ hA hA2
  have hB2 := (chunkB_arg2 (after chunkA V)).trans hA2
  have hC := chunkC_v43 (after chunkB (after chunkA V)) _ _ _ hB
  have hC2 := (chunkC_arg2 (after chunkB (after chunkA V))).trans hB2
  exact chunkD_v48 (after chunkC (after chunkB (after chunkA V))) _ _ _ hC hC2

/-! ## The run -/

/-- On every device, for any float values, from any memory with zero counters: every weakly fair execution of the
    reference terminates with its result at the last stage function of the arguments' launch contents, the
    arguments unchanged. -/
theorem run_stage (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = ReadP.val_main_v48 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v48).trans (after_ops_v48 (launchContents m c)),
      (h c main_arg0).trans (after_ops_arg0 (launchContents m c)),
      (h c main_arg1).trans (after_ops_arg1 (launchContents m c)),
      (h c main_arg2).trans (after_ops_arg2 (launchContents m c))⟩)
    (run_seq ValueP.scopedRefs_eq ValueP.scopedSems_eq defs main (fun _ => ValueP.ops) ValueP.main_eq (fun _ => ValueP.ops_sub) m ρ
      (fun _ => ops_fresh))

end Cert.ReferenceIdeal.RefRun

end
-- ==== Proof.Arc.RefLogp.lean ====
/-
  The reference's log-softmax stage, read at an index.

  Stage by stage at explicit coordinates: the rows scaled to unit length, the cosine as the contraction over the 512
  coordinates, the margin value `phi` of the cosine, the label's column replaced by it (the label's word compared
  with the column's word), the scale by 30; then the row maximum as the fold of `max` from minus infinity over the
  100000 columns, and the logit minus the maximum minus the logarithm of the sum of the exponentials.
-/
import proofs.«412743_j6253472383512_2_alg».proof.Proof.RefReadP
import proofs.«412743_j6253472383512_2_alg».proof.Proof.Arc.Coords
import Idealize.ShloMosaic.Lib.StableHlo.Predicate
import Idealize.ShloMosaic.PureOps.Reduce

noncomputable section

namespace Cert.ReferenceIdeal.RefLogp

open Cert.ReferenceIdeal Cert.ReferenceIdeal.Gen Idealize.ShloMosaic Idealize.ShloMosaic.ValueIdx

/-- The three argument arrays at the ideal values. -/
abbrev Arg0 : Type := (⟨S1024x512, .f32⟩ : BufTy).Contents (Elt Ideal)
abbrev Arg1 : Type := (⟨S100000x512, .f32⟩ : BufTy).Contents (Elt Ideal)
abbrev Arg2 : Type := (⟨S1024, .i32⟩ : BufTy).Contents (Elt Ideal)

/-! ## Words: a select on a comparison is the `if` -/

/-- A select on "greater than" is the `if` on the strict order. -/
theorem select_ogt {α : Type} (c t : EReal) (A B : α) [Decidable (t < c)] :
    Scalar.select (Ideal.cmp .ogt c t) A B = if t < c then A else B := by
  by_cases h : t < c
  · rw [if_pos h]
    have e : Ideal.cmp .ogt c t = 1#1 := by simp [Ideal.cmp, h]
    rw [e]; exact select_one A B
  · rw [if_neg h]
    have e : Ideal.cmp .ogt c t = 0#1 := by simp [Ideal.cmp, h]
    rw [e]; exact select_zero A B

/-- A select on the equality of two words is the `if` on their equality. -/
theorem select_eq {α : Type} {w : Nat} (a b : BitVec w) (A B : α) [Decidable (a = b)] :
    Scalar.select (IntOp.cmpi .eq a b) A B = if a = b then A else B := by
  by_cases h : a = b
  · rw [if_pos h, (StableHlo.Predicate.cmpi_eq_iff).mpr h]; exact select_one A B
  · rw [if_neg h, eq_zero_of_ne_one (fun e => h ((StableHlo.Predicate.cmpi_eq_iff).mp e))]; exact select_zero A B

/-- The word of minus infinity denotes the least extended real. -/
theorem negInf_bot : Ideal.ofBits .f32 0xFF800000#32 = (⊥ : EReal) := by simp [Ideal.ofBits, Ideal.ieee]

/-! ## The rows of unit length -/

theorem idx_feat_row (b : Fin 1024) (d k : Fin 512) :
    ReadP.idx_main_v1 (ReadP.idx_main_v2 (ReadP.idx_main_v6 (ix2 b d))) k = ix2 b k :=
  funext fun a => Fin.ext (by match a with | ⟨0, _⟩ => rfl | ⟨1, _⟩ => rfl)

/-- A feature row divided by its length. -/
theorem feat_unit (x0 : Arg0) (b : Fin 1024) (d : Fin 512) :
    ReadP.val_main_v7 (F := Ideal) x0 (ix2 b d) = ArcSpec.unit (ArcSpec.featOf x0 b) d := by
  rw [ReadP.val_main_v7_apply, ReadP.val_main_v6_apply, ReadP.val_main_v5_apply, ReadP.val_main_v3_apply,
    ReadP.val_main_v2_apply, ReadP.val_main_v1_apply, ReadP.val_main_v4_apply, ReadP.val_main_cst_0_apply,
    ReadP.val_main_cst_apply]
  simp only [ReadP.val_main_v0_apply, idx_feat_row, Ideal.hostDivf_def, Ideal.hostUnary_sqrt_def, Ideal.maximumf_def,
    Ideal.mulf_def, Ideal.ofBits_def, Ideal.ofBits_zero_f32, zero_add]
  rfl

theorem idx_wt_row (k : Fin 100000) (d j : Fin 512) :
    ReadP.idx_main_v9 (ReadP.idx_main_v10 (ReadP.idx_main_v14 (ix2 k d))) j = ix2 k j :=
  funext fun a => Fin.ext (by match a with | ⟨0, _⟩ => rfl | ⟨1, _⟩ => rfl)

/-- A class-weight row divided by its length. -/
theorem wt_unit (x1 : Arg1) (k : Fin 100000) (d : Fin 512) :
    ReadP.val_main_v15 (F := Ideal) x1 (ix2 k d) = ArcSpec.unit (ArcSpec.wtOf x1 k) d := by
  rw [ReadP.val_main_v15_apply, ReadP.val_main_v14_apply, ReadP.val_main_v13_apply, ReadP.val_main_v11_apply,
    ReadP.val_main_v10_apply, ReadP.val_main_v9_apply, ReadP.val_main_v12_apply, ReadP.val_main_cst_2_apply,
    ReadP.val_main_cst_1_apply]
  simp only [ReadP.val_main_v8_apply, idx_wt_row, Ideal.hostDivf_def, Ideal.hostUnary_sqrt_def, Ideal.maximumf_def,
    Ideal.mulf_def, Ideal.ofBits_def, Ideal.ofBits_zero_f32, zero_add]
  rfl

/-! ## The cosine -/

theorem idx_cos_l (b : Fin 1024) (k : Fin 100000) (d : Fin 512) : ReadP.lidx_main_v17 (ix2 b k) d = ix2 b d :=
  funext fun a => Fin.ext (by match a with | ⟨0, _⟩ => rfl | ⟨1, _⟩ => rfl)

theorem idx_cos_r (b : Fin 1024) (k : Fin 100000) (d : Fin 512) :
    ReadP.idx_main_v16 (ReadP.ridx_main_v17 (ix2 b k) d) = ix2 k d :=
  funext fun a => Fin.ext (by match a with | ⟨0, _⟩ => rfl | ⟨1, _⟩ => rfl)

/-- The contraction of the two unit rows over the 512 coordinates. -/
theorem cos_read (x0 : Arg0) (x1 : Arg1) (b : Fin 1024) (k : Fin 100000) :
    ReadP.val_main_v17 (F := Ideal) x0 x1 (ix2 b k) = ArcSpec.cosR (ArcSpec.featOf x0) (ArcSpec.wtOf x1) b k := by
  rw [ReadP.val_main_v17_apply]
  unfold ArcSpec.cosR
  refine Finset.sum_congr rfl fun d _ => ?_
  rw [ReadP.val_main_v16_apply, idx_cos_l, idx_cos_r, feat_unit, wt_unit]

/-! ## The margin -/

/-- The margin chain is `phi` of the cosine. -/
theorem phi_read (x0 : Arg0) (x1 : Arg1) (b : Fin 1024) (k : Fin 100000) :
    ReadP.val_main_v33 (F := Ideal) x0 x1 (ix2 b k)
      = ArcSpec.phi (ArcSpec.cosR (ArcSpec.featOf x0) (ArcSpec.wtOf x1) b k) := by
  simp only [ReadP.val_main_v33_apply, ReadP.val_main_v30_apply, ReadP.val_main_v28_apply, ReadP.val_main_v32_apply,
    ReadP.val_main_v25_apply, ReadP.val_main_v27_apply, ReadP.val_main_v23_apply, ReadP.val_main_v22_apply,
    ReadP.val_main_v20_apply, ReadP.val_main_v18_apply, ReadP.val_main_v19_apply, ReadP.val_main_v21_apply,
    ReadP.val_main_v24_apply, ReadP.val_main_v26_apply, ReadP.val_main_v29_apply, ReadP.val_main_v31_apply,
    ReadP.val_main_cst_3_apply, ReadP.val_main_cst_4_apply, ReadP.val_main_cst_5_apply, ReadP.val_main_cst_6_apply,
    ReadP.val_main_cst_7_apply, ReadP.val_main_cst_8_apply, cos_read, Ideal.cmpf_def, Ideal.subf_def, Ideal.mulf_def,
    Ideal.maximumf_def, Ideal.hostUnary_sqrt_def, Ideal.ofBits_def]
  rw [select_ogt]
  rfl

/-! ## The label's column -/

theorem idx_lab (b : Fin 1024) (k : Fin 100000) : ReadP.idx_main_v34 (ReadP.idx_main_v37 (ix2 b k)) = ix1 b :=
  funext fun a => Fin.ext (by match a with | ⟨0, _⟩ => rfl)

/-- The one-hot bit: the label's word against the column's word. -/
theorem onehot_read (x2 : Arg2) (b : Fin 1024) (k : Fin 100000) :
    ReadP.val_main_v39 (F := Ideal) x2 (ix2 b k) = IntOp.cmpi .eq (ArcSpec.labOf x2 b) (BitVec.ofNat 32 k.val) := by
  rw [ReadP.val_main_v39_apply, ReadP.val_main_v37_apply, ReadP.val_main_v34_apply, ReadP.val_main_v38_apply,
    ReadP.val_main_v36_apply, ReadP.val_main_v35_apply, idx_lab]
  rfl

/-- The scaled logits, the label's column replaced by the margin value. -/
theorem logit_read (x0 : Arg0) (x1 : Arg1) (x2 : Arg2) (b : Fin 1024) (k : Fin 100000) :
    ReadP.val_main_v42 (F := Ideal) x0 x1 x2 (ix2 b k)
      = ArcSpec.logitR (ArcSpec.featOf x0) (ArcSpec.wtOf x1) (ArcSpec.labOf x2) b k := by
  rw [ReadP.val_main_v42_apply, ReadP.val_main_v40_apply, ReadP.val_main_v41_apply, ReadP.val_main_cst_9_apply,
    onehot_read, phi_read, cos_read, select_eq]
  rfl

/-! ## The row maximum -/

/-- Row `b` with column `k` put back is (b, k). -/
theorem lift_row (h : S1024x100000.Reduces [1] S1024) (b : Fin 1024) (k : Fin (S1024x100000.size 1)) :
    h.lift (ix1 b) k = ix2 b (⟨k.val, k.isLt⟩ : Fin 100000) := by
  funext c; apply Fin.ext
  fin_cases c <;> rfl

/-- The reduce with a maximum body over the columns, from minus infinity, is the fold of `max` over the row. -/
theorem rowmax_fold (y : S1024x100000.Idx → EReal) (b : Fin 1024) :
    Host.reduce (FloatOps.maximumf (F := Ideal) (φ := .f32)) y (ReadP.val_main_call2_cst (F := Ideal))
        reducesTo_S1024x100000_S1024_d1 h_S_ (ix1 b)
      = (Finset.univ : Finset (Fin 100000)).fold max ArcSpec.negInf (fun k => y (ix2 b k)) := by
  have h : S1024x100000.Reduces [1] S1024 := by decide
  refine (Host.reduce_eq_fold_single (FloatOps.maximumf (F := Ideal) (φ := .f32)) y (ReadP.val_main_call2_cst (F := Ideal))
    reducesTo_S1024x100000_S1024_d1 h h_S_ (ix1 b)).trans ?_
  have hf : (y ∘ h.lift (ix1 b)) = fun k : Fin 100000 => y (ix2 b k) :=
    funext fun k => congrArg y (lift_row h b k)
  exact congrArg (fun f => Finset.fold max ArcSpec.negInf f (Finset.univ : Finset (Fin 100000))) hf

/-- The row maximum of the logits. -/
theorem rowmax_read (x0 : Arg0) (x1 : Arg1) (x2 : Arg2) (b : Fin 1024) :
    ReadP.val_main_call2_v2 (F := Ideal) x0 x1 x2 (ix1 b)
      = ArcSpec.rowMaxR (ArcSpec.featOf x0) (ArcSpec.wtOf x1) (ArcSpec.labOf x2) b := by
  have hv0 : ReadP.val_main_call2_v0 (F := Ideal) x0 x1 x2 (ix1 b)
      = (Finset.univ : Finset (Fin 100000)).fold max ArcSpec.negInf
          (fun k => ReadP.val_main_v42 (F := Ideal) x0 x1 x2 (ix2 b k)) := by
    unfold ReadP.val_main_call2_v0
    generalize ReadP.val_main_v42 (F := Ideal) x0 x1 x2 = y
    exact rowmax_fold y b
  rw [ReadP.val_main_call2_v2_apply, ReadP.val_main_call2_v1_apply, ReadP.val_main_call2_cst_0_apply, hv0]
  simp only [logit_read, Ideal.maximumf_def, Ideal.ofBits_def, negInf_bot]
  rw [max_bot_left]
  unfold ArcSpec.rowMaxR ArcSpec.negInf
  rw [negInf_bot]

/-! ## The log-softmax -/

theorem idx_max (b : Fin 1024) (k : Fin 100000) :
    ReadP.idx_main_call2_v3 (ReadP.idx_main_call2_v4 (ix2 b k)) = ix1 b :=
  funext fun a => Fin.ext (by match a with | ⟨0, _⟩ => rfl)

theorem idx_sum (b : Fin 1024) (k k' : Fin 100000) :
    ReadP.idx_main_call2_v7 (ReadP.idx_main_call2_v8 (ReadP.idx_main_call2_v10 (ix2 b k))) k' = ix2 b k' :=
  funext fun a => Fin.ext (by match a with | ⟨0, _⟩ => rfl | ⟨1, _⟩ => rfl)

/-- The log-softmax at row `b`, column `k`. -/
theorem logp_apply (x0 : (⟨S1024x512, .f32⟩ : BufTy).Contents (Elt Ideal))
    (x1 : (⟨S100000x512, .f32⟩ : BufTy).Contents (Elt Ideal)) (x2 : (⟨S1024, .i32⟩ : BufTy).Contents (Elt Ideal))
    (b : Fin 1024) (k : Fin 100000) :
    ReadP.val_main_v43 (F := Ideal) x0 x1 x2 (ix2 b k)
      = ArcSpec.logpR (ArcSpec.featOf x0) (ArcSpec.wtOf x1) (ArcSpec.labOf x2) b k := by
  rw [ReadP.val_main_v43_apply, ReadP.val_main_call2_v10_apply, ReadP.val_main_call2_v9_apply,
    ReadP.val_main_call2_v8_apply, ReadP.val_main_call2_v7_apply, ReadP.val_main_call2_v5_apply,
    ReadP.val_main_call2_v4_apply, ReadP.val_main_call2_v3_apply, ReadP.val_main_call2_cst_1_apply]
  simp only [ReadP.val_main_call2_v6_apply, ReadP.val_main_call2_v5_apply, ReadP.val_main_call2_v4_apply,
    ReadP.val_main_call2_v3_apply, idx_sum, idx_max, rowmax_read, logit_read, Ideal.subf_def,
    Ideal.hostUnary_exp_def, Ideal.hostUnary_log_def, Ideal.ofBits_def, Ideal.ofBits_zero_f32, zero_add]
  rfl

end Cert.ReferenceIdeal.RefLogp

end
-- ==== Proof.Arc.RefValue.lean ====
/-
  The reference's result as a function of its arguments.

  The last stages of the reference take, in each row, the log-softmax at the row's label, sum the taken column, divide by
  the number of rows and negate. The take is printed with its index arithmetic: a negative index wrapped by the class
  count, a mask "the index is in the class range", a batched gather whose start index is read signed and clamped, and a
  select on the and-reduced mask. When every label names a class the wrap keeps the label, the clamp is the identity and
  the mask is set everywhere, so the taken column at row `b` is the log-softmax at `(b, the label's class)`, and the
  result is minus the mean of those: the specification's loss.
-/
import proofs.«412743_j6253472383512_2_alg».proof.Proof.RefReadP
import proofs.«412743_j6253472383512_2_alg».proof.Proof.Arc.Coords
import Idealize.ShloMosaic.Lib.ValueIdx
import Idealize.ShloMosaic.Lib.StableHlo.Predicate
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.ValueIdx
open Idealize.ShloMosaic.StableHlo.Predicate Cert.ArcSpec

/-! ## Words: a label that names a class passes the index arithmetic unchanged -/

/-- The wrap of a negative index by the class count keeps a label that names a class. -/
theorem wrap_keep (t : BitVec 32) (ht : t.toNat < 100000) :
    Scalar.select (IntOp.cmpi .slt t 0#32) (IntOp.addi t 100000#32) t = t := by
  have h : ¬ IntOp.cmpi .slt t 0#32 = 1#1 := by
    rw [slt_iff_toNat (by omega) (by decide)]
    exact Nat.not_lt_zero _
  rw [eq_zero_of_ne_one h, select_zero]

/-- The in-range mask `0 ≤ t ≤ 99999` of a label that names a class is set. -/
theorem mask_one (t : BitVec 32) (ht : t.toNat < 100000) :
    IntOp.andi (IntOp.cmpi .sge t 0#32) (IntOp.cmpi .sle t 99999#32) = 1#1 := by
  have h1 : IntOp.cmpi .sge t 0#32 = 1#1 := (sge_iff_toNat (by omega) (by decide)).mpr (Nat.zero_le _)
  have h2 : IntOp.cmpi .sle t 99999#32 = 1#1 :=
    (sle_iff_toNat (by omega) (by decide)).mpr (by show t.toNat ≤ 99999; omega)
  rw [h1, h2]; rfl

/-- Read signed and clamped into the class range, a label that names a class is its own value. -/
theorem clamp_id (t : BitVec 32) (ht : t.toNat < 100000) : min t.toInt.toNat 99999 = t.toNat := by
  rw [toInt_eq_toNat_of_lt (by omega), Int.toNat_natCast]
  exact Nat.min_eq_left (by omega)

/-- An and-reduction of a mask that is set everywhere, from the set bit, is the set bit. -/
theorem reduce_and_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_fold, hi]
  induction (Finset.univ.filter fun i => h.drop i = j) using Finset.cons_induction with
  | empty => rfl
  | cons a S ha ih => rw [Finset.fold_cons, ih, hx]; rfl

/-- The batched gather along the class axis at row `b`: the operand at row `b` and the column the start index at
    `(b, 0, 0)` names, read signed and clamped into the class range. -/
theorem gather_row {α : Type} (x : S1024x100000.Idx → α) (idx : IVec S1024x1x1 32) (b : Fin 1024) :
    Host.gather gather_S1024x100000_S1024x1x1_S1024x1_n_1_0_0_1_2_11 x idx (ix2 b (0 : Fin 1))
      = x (ix2 b ⟨min (idx (ix3 b (0 : Fin 1) (0 : Fin 1))).toInt.toNat 99999, by omega⟩) := by
  unfold Host.gather
  congr 1
  funext a
  refine Fin.ext ?_
  match a with
  | ⟨0, _⟩ =>
    show GatherDims.start gather_S1024x100000_S1024x1x1_S1024x1_n_1_0_0_1_2_11 (ix2 b (0 : Fin 1)) idx 0
      + GatherDims.batchCoord gather_S1024x100000_S1024x1x1_S1024x1_n_1_0_0_1_2_11 (ix2 b (0 : Fin 1)) 0
      + GatherDims.offCoord gather_S1024x100000_S1024x1x1_S1024x1_n_1_0_0_1_2_11 (ix2 b (0 : Fin 1)) 0 = b.val
    rw [GatherDims.start_batching _ _ _ _ (show (0 : Fin 2) ∈ [(0 : Fin 2)] from List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ gather_S1024x100000_S1024x1x1_S1024x1_n_1_0_0_1_2_11.operandBatchingDims from List.mem_singleton.mpr rfl)]
    rfl
  | ⟨1, _⟩ =>
    show GatherDims.start gather_S1024x100000_S1024x1x1_S1024x1_n_1_0_0_1_2_11 (ix2 b (0 : Fin 1)) idx 1
      + GatherDims.batchCoord gather_S1024x100000_S1024x1x1_S1024x1_n_1_0_0_1_2_11 (ix2 b (0 : Fin 1)) 1
      + GatherDims.offCoord gather_S1024x100000_S1024x1x1_S1024x1_n_1_0_0_1_2_11 (ix2 b (0 : Fin 1)) 1 = _
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x100000_S1024x1x1_S1024x1_n_1_0_0_1_2_11.startIndexMap from List.mem_singleton.mpr rfl)]
    have hsi : gather_S1024x100000_S1024x1x1_S1024x1_n_1_0_0_1_2_11.siIdx (ix2 b (0 : Fin 1))
        ⟨List.idxOf (1 : Fin 2) gather_S1024x100000_S1024x1x1_S1024x1_n_1_0_0_1_2_11.startIndexMap,
          List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-! ## The stages of the take along the class axis, at an index -/

/-- The label column at any index is the label of its row. -/
theorem v44_at (x2 : (⟨S1024, .i32⟩ : BufTy).Contents (Elt Ideal)) (i : S1024x1.Idx) :
    ReadP.val_main_v44 (F := Ideal) x2 i = labOf x2 ⟨(i 0).val, idx2_lt0 i⟩ := by
  rw [ReadP.val_main_v44_apply]
  exact congrArg x2 (funext fun a => match a with | ⟨0, _⟩ => rfl)

/-- The wrapped index column is the label column when every label names a class. -/
theorem v4_at (x2 : (⟨S1024, .i32⟩ : BufTy).Contents (Elt Ideal)) (hT : InRange (labOf x2)) (i : S1024x1.Idx) :
    ReadP.val_main_call3_v4 (F := Ideal) x2 i = labOf x2 ⟨(i 0).val, idx2_lt0 i⟩ := by
  rw [ReadP.val_main_call3_v4_apply, ReadP.val_main_call3_v1_apply, ReadP.val_main_call3_v3_apply,
    ReadP.val_main_call3_v0_apply, ReadP.val_main_call3_c_apply, ReadP.val_main_call3_v2_apply,
    ReadP.val_main_call3_c_0_apply, v44_at]
  exact wrap_keep _ (hT _)

/-- The reshaped index column at any index is the label of a row. -/
theorem v5_at (x2 : (⟨S1024, .i32⟩ : BufTy).Contents (Elt Ideal)) (hT : InRange (labOf x2)) (i : S1024x1x1.Idx) :
    ReadP.val_main_call3_v5 (F := Ideal) x2 i
      = labOf x2 ⟨((ReadP.idx_main_call3_v5 i) 0).val, idx2_lt0 (ReadP.idx_main_call3_v5 i)⟩ := by
  rw [ReadP.val_main_call3_v5_apply, v4_at x2 hT]

/-- The reshaped index column at row `b` is the label of row `b`. -/
theorem v5_row (x2 : (⟨S1024, .i32⟩ : BufTy).Contents (Elt Ideal)) (hT : InRange (labOf x2)) (b : Fin 1024) :
    ReadP.val_main_call3_v5 (F := Ideal) x2 (ix3 b (0 : Fin 1) (0 : Fin 1)) = labOf x2 b := by
  rw [v5_at x2 hT]
  refine congrArg (labOf x2) (Fin.ext ?_)
  show ((b.val * 1 + 0) * 1 + 0) / 1 = b.val
  omega

/-- The in-range mask is set everywhere when every label names a class. -/
theorem v11_at (x2 : (⟨S1024, .i32⟩ : BufTy).Contents (Elt Ideal)) (hT : InRange (labOf x2)) (i : S1024x1x1.Idx) :
    ReadP.val_main_call3_v11 (F := Ideal) x2 i = 1#1 := by
  rw [ReadP.val_main_call3_v11_apply, ReadP.val_main_call3_v7_apply, ReadP.val_main_call3_v10_apply,
    ReadP.val_main_call3_v6_apply, ReadP.val_main_call3_c_2_apply, ReadP.val_main_call3_v9_apply,
    ReadP.val_main_call3_v8_apply, ReadP.val_main_call3_c_1_apply, v5_at x2 hT]
  exact mask_one _ (hT _)

/-- Its and-reduction over the unit axis is set everywhere. -/
theorem v12_at (x2 : (⟨S1024, .i32⟩ : BufTy).Contents (Elt Ideal)) (hT : InRange (labOf x2)) (j : S1024x1.Idx) :
    ReadP.val_main_call3_v12 (F := Ideal) x2 j = 1#1 := by
  unfold ReadP.val_main_call3_v12
  exact reduce_and_ones _ _ _ _ (v11_at x2 hT) (fun _ => rfl) j

/-- The gathered column at row `b` is the log-softmax at row `b` and the class its label names. -/
theorem v13_row (x0 : (⟨S1024x512, .f32⟩ : BufTy).Contents (Elt Ideal)) (x1 : (⟨S100000x512, .f32⟩ : BufTy).Contents (Elt Ideal))
    (x2 : (⟨S1024, .i32⟩ : BufTy).Contents (Elt Ideal)) (hT : InRange (labOf x2)) (b : Fin 1024) :
    ReadP.val_main_call3_v13 (F := Ideal) x0 x1 x2 (ix2 b (0 : Fin 1))
      = ReadP.val_main_v43 (F := Ideal) x0 x1 x2 (ix2 b (tIdx (labOf x2) b)) := by
  unfold ReadP.val_main_call3_v13
  generalize ReadP.val_main_v43 (F := Ideal) x0 x1 x2 = y
  refine (gather_row y _ b).trans (congrArg y (congrArg (ix2 b) (Fin.ext ?_)))
  show min (ReadP.val_main_call3_v5 (F := Ideal) x2 (ix3 b (0 : Fin 1) (0 : Fin 1))).toInt.toNat 99999
    = (labOf x2 b).toNat % 100000
  rw [v5_row x2 hT b, clamp_id _ (hT b), Nat.mod_eq_of_lt (hT b)]

/-- The taken column at row `b`, given the log-softmax stage. -/
theorem v45_row (x0 : (⟨S1024x512, .f32⟩ : BufTy).Contents (Elt Ideal)) (x1 : (⟨S100000x512, .f32⟩ : BufTy).Contents (Elt Ideal))
    (x2 : (⟨S1024, .i32⟩ : BufTy).Contents (Elt Ideal))
    (hlogp : ∀ b k, ReadP.val_main_v43 (F := Ideal) x0 x1 x2 (ix2 b k) = logpR (featOf x0) (wtOf x1) (labOf x2) b k)
    (hT : InRange (labOf x2)) (b : Fin 1024) :
    ReadP.val_main_v45 (F := Ideal) x0 x1 x2 (ix2 b (0 : Fin 1))
      = logpR (featOf x0) (wtOf x1) (labOf x2) b (tIdx (labOf x2) b) := by
  rw [ReadP.val_main_v45_apply, v12_at x2 hT, select_one, v13_row x0 x1 x2 hT b, hlogp]

/-! ## The mean and its sign -/

/-- The sum over the taken column is the sum over the rows of the log-softmax at the label. -/
theorem v46_at (x0 : (⟨S1024x512, .f32⟩ : BufTy).Contents (Elt Ideal)) (x1 : (⟨S100000x512, .f32⟩ : BufTy).Contents (Elt Ideal))
    (x2 : (⟨S1024, .i32⟩ : BufTy).Contents (Elt Ideal))
    (hlogp : ∀ b k, ReadP.val_main_v43 (F := Ideal) x0 x1 x2 (ix2 b k) = logpR (featOf x0) (wtOf x1) (labOf x2) b k)
    (hT : InRange (labOf x2)) (i : S_.Idx) :
    ReadP.val_main_v46 (F := Ideal) x0 x1 x2 i
      = ∑ b, logpR (featOf x0) (wtOf x1) (labOf x2) b (tIdx (labOf x2) b) := by
  rw [ReadP.val_main_v46_apply, ReadP.val_main_cst_10_apply, Ideal.ofBits_def, Ideal.ofBits_zero_f32, zero_add, sum_idx2]
  refine Finset.sum_congr rfl fun b _ => ?_
  rw [Fin.sum_univ_one]
  exact v45_row x0 x1 x2 hlogp hT b

/-- The reference's result: minus the mean over the rows of the log-softmax at the label. -/
theorem v48_eq (x0 : (⟨S1024x512, .f32⟩ : BufTy).Contents (Elt Ideal)) (x1 : (⟨S100000x512, .f32⟩ : BufTy).Contents (Elt Ideal))
    (x2 : (⟨S1024, .i32⟩ : BufTy).Contents (Elt Ideal))
    (hlogp : ∀ b k, ReadP.val_main_v43 (F := Ideal) x0 x1 x2 (ix2 b k) = logpR (featOf x0) (wtOf x1) (labOf x2) b k)
    (hT : InRange (labOf x2)) :
    ReadP.val_main_v48 (F := Ideal) x0 x1 x2 = fun _ => RLoss (featOf x0) (wtOf x1) (labOf x2) := by
  funext i
  rw [ReadP.val_main_v48_apply, ReadP.val_main_v47_apply, ReadP.val_main_cst_11_apply, v46_at x0 x1 x2 hlogp hT]
  rfl

/-! ## The reference's run -/

section Run
open Idealize.ShloMosaic.TcCoe Idealize.SL.Sem Idealize.ShloMosaic.StableHlo

/-- On every device every weakly fair execution of the reference terminates with its result at minus the mean over
    the rows of the log-softmax at the label, the arguments unchanged: from the run that ends with the result at the
    last stage, that stage read as the specification's loss. -/
theorem ref_run (m' : (ℓ : Loc nD τ sig) → Buf (Elt Ideal) ℓ) (ρ' : Dev nD → PrngReg)
    (hrun : θ_run Cert.ReferenceIdeal.defs (onTc (τ := τ) (main (F := Ideal))) ⟨m', fun _ => 0, ρ'⟩ (fun r => ∀ c : Dev nD,
      r.2.mem ((c.tc : Thread nD τ).loc main_v48)
          = ReadP.val_main_v48 (F := Ideal) (m' ((c.tc : Thread nD τ).loc main_arg0)) (m' ((c.tc : Thread nD τ).loc main_arg1))
              (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)))
    (hlogp : ∀ (c : Dev nD) b k,
      ReadP.val_main_v43 (F := Ideal) (m' ((c.tc : Thread nD τ).loc main_arg0)) (m' ((c.tc : Thread nD τ).loc main_arg1))
          (m' ((c.tc : Thread nD τ).loc main_arg2)) (ix2 b k)
        = logpR (featOf (m' ((c.tc : Thread nD τ).loc main_arg0))) (wtOf (m' ((c.tc : Thread nD τ).loc main_arg1)))
            (labOf (m' ((c.tc : Thread nD τ).loc main_arg2))) b k)
    (hT : ∀ c : Dev nD, InRange (labOf (m' ((c.tc : Thread nD τ).loc main_arg2)))) :
    θ_run Cert.ReferenceIdeal.defs (onTc (τ := τ) (main (F := Ideal))) ⟨m', fun _ => 0, ρ'⟩ (fun r => ∀ c : Dev nD,
      r.2.mem ((c.tc : Thread nD τ).loc main_v48)
          = (fun _ => RLoss (featOf (m' ((c.tc : Thread nD τ).loc main_arg0))) (wtOf (m' ((c.tc : Thread nD τ).loc main_arg1)))
              (labOf (m' ((c.tc : Thread nD τ).loc main_arg2))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run Cert.ReferenceIdeal.defs _ _).mono
    (fun _ h c => ⟨(h c).1.trans (v48_eq _ _ _ (hlogp c) (hT c)), (h c).2⟩) hrun

end Run

end Cert.ReferenceIdeal.RefValue

end
-- ==== Proof.Arc.Scan.lean ====
/-
  The running (maximum, sum) over the blocks of one half of the classes, in closed form.

  For a row whose logits are real numbers `z k`, after all 50 blocks of half `i` the running maximum is the largest
  logit of the half and the running sum is the sum over the half of `exp (z k − that maximum)`: each step rescales
  the sum found by `exp (old maximum − new maximum)`, and `exp (a − b) · exp (b − c) = exp (a − c)`; the first step
  starts from minus infinity and zero, where the rescaling factor is `exp (−∞) = 0`.
-/
import proofs.«412743_j6253472383512_2_alg».proof.Proof.Arc.Spec
import Mathlib.Analysis.SpecialFunctions.Exp
import Mathlib.Order.Filter.Basic
import Mathlib.Data.EReal.Basic
import Mathlib.Data.EReal.Operations
import Mathlib.Data.Finset.Fold
import Mathlib.Data.Finset.Lattice.Fold
import Mathlib.Logic.Equiv.Fin.Basic
import Mathlib.Algebra.BigOperators.Fin

noncomputable section

namespace Cert.ArcSpec

open Idealize.ShloMosaic

/-- Class `r` of half `i` (the halves are the classes `0 … 49999` and `50000 … 99999`). -/
def half (i : ℕ) (r : Fin 50000) : Fin 100000 := ⟨(50000 * i + r.val) % 100000, Nat.mod_lt _ (by decide)⟩

/-- The largest logit of row `b` over half `i`. -/
def halfMax (z : Fin 100000 → ℝ) (i : ℕ) : ℝ :=
  (Finset.univ : Finset (Fin 50000)).sup' ⟨⟨0, by decide⟩, Finset.mem_univ _⟩ fun r => z (half i r)

/-- The sum over half `i` of the exponentials of the logits less the half's largest. -/
def halfSum (z : Fin 100000 → ℝ) (i : ℕ) : ℝ := ∑ r : Fin 50000, Real.exp (z (half i r) - halfMax z i)

/-! ## The two literals the scan starts from -/

theorem negInf_eq_bot : negInf = (⊥ : EReal) := by simp [negInf, Ideal.ofBits, Ideal.ieee]

theorem zero_eq_zero : zero = (0 : EReal) := by simp [zero, Ideal.ofBits, Ideal.ieee]

/-! ## Coercions through finite sums and finite maxima -/

/-- A finite sum of real numbers, read in the extended reals, is the sum of the readings. -/
theorem coe_finset_sum {ι : Type*} (s : Finset ι) (f : ι → ℝ) :
    (∑ j ∈ s, (f j : EReal)) = ((∑ j ∈ s, f j : ℝ) : EReal) := by
  induction s using Finset.cons_induction with
  | empty => simp
  | cons a s ha ih => rw [Finset.sum_cons, Finset.sum_cons, ih, EReal.coe_add]

/-- Reading in the extended reals keeps the order, so it commutes with the maximum of two. -/
theorem coe_max (a b : ℝ) : ((max a b : ℝ) : EReal) = max (a : EReal) (b : EReal) :=
  EReal.coe_strictMono.monotone.map_max

/-- The maximum of finitely many real numbers, folded from minus infinity in the extended reals, is their largest. -/
theorem fold_max_coe {ι : Type*} (s : Finset ι) (hs : s.Nonempty) (f : ι → ℝ) :
    s.fold max (⊥ : EReal) (fun r => (f r : EReal)) = ((s.sup' hs f : ℝ) : EReal) := by
  induction hs using Finset.Nonempty.cons_induction with
  | singleton a => simp
  | cons a s ha hs ih => rw [Finset.fold_cons, ih, Finset.sup'_cons hs, coe_max]

/-- The largest of a block of 1000 real numbers. -/
def blockMax (zs : Fin 1000 → ℝ) : ℝ :=
  (Finset.univ : Finset (Fin 1000)).sup' ⟨⟨0, by decide⟩, Finset.mem_univ _⟩ zs

theorem blockFold_coe (zs : Fin 1000 → ℝ) :
    (Finset.univ : Finset (Fin 1000)).fold max negInf (fun r => (zs r : EReal)) = ((blockMax zs : ℝ) : EReal) := by
  rw [negInf_eq_bot]; exact fold_max_coe _ _ zs

/-! ## One step of the scan at real numbers -/

/-- A step from a real running maximum: the new maximum is real, and the sum is rescaled at real numbers. -/
theorem step_coe (mp lp : ℝ) (zs : Fin 1000 → ℝ) :
    stM (mp : EReal) (fun r => (zs r : EReal)) = ((max mp (blockMax zs) : ℝ) : EReal) ∧
    stL (mp : EReal) (lp : EReal) (fun r => (zs r : EReal))
      = ((Real.exp (mp - max mp (blockMax zs)) * lp + ∑ r, Real.exp (zs r - max mp (blockMax zs)) : ℝ) : EReal) := by
  have hM : stM (mp : EReal) (fun r => (zs r : EReal)) = ((max mp (blockMax zs) : ℝ) : EReal) := by
    rw [stM, blockFold_coe, coe_max]
  refine ⟨hM, ?_⟩
  rw [stL, hM]
  simp only [← EReal.coe_sub, Ideal.exp_coe]
  rw [coe_finset_sum, ← EReal.coe_mul, ← EReal.coe_add]

/-- The first step, from minus infinity and zero: the rescaling factor is `exp (−∞) = 0`. -/
theorem step_bot (zs : Fin 1000 → ℝ) :
    stM negInf (fun r => (zs r : EReal)) = ((blockMax zs : ℝ) : EReal) ∧
    stL negInf zero (fun r => (zs r : EReal)) = ((∑ r, Real.exp (zs r - blockMax zs) : ℝ) : EReal) := by
  have hM : stM negInf (fun r => (zs r : EReal)) = ((blockMax zs : ℝ) : EReal) := by
    rw [stM, blockFold_coe, negInf_eq_bot, max_eq_right bot_le]
  refine ⟨hM, ?_⟩
  rw [stL, hM, zero_eq_zero, mul_zero, zero_add]
  simp only [← EReal.coe_sub, Ideal.exp_coe]
  rw [coe_finset_sum]

/-! ## The scan at real numbers: a recursion on the number of blocks done, and its closed form -/

/-- The running maximum after blocks `0 … n` of a sequence of blocks of real numbers. -/
def runM (g : ℕ → Fin 1000 → ℝ) : ℕ → ℝ
  | 0 => blockMax (g 0)
  | n + 1 => max (runM g n) (blockMax (g (n + 1)))

/-- The running sum after blocks `0 … n`, each step rescaled to the new maximum. -/
def runL (g : ℕ → Fin 1000 → ℝ) : ℕ → ℝ
  | 0 => ∑ r, Real.exp (g 0 r - blockMax (g 0))
  | n + 1 => Real.exp (runM g n - runM g (n + 1)) * runL g n + ∑ r, Real.exp (g (n + 1) r - runM g (n + 1))

/-- Every entry of a block is at most the block's largest. -/
theorem le_blockMax (zs : Fin 1000 → ℝ) (r : Fin 1000) : zs r ≤ blockMax zs :=
  Finset.le_sup' zs (Finset.mem_univ r)

/-- The running maximum bounds every entry of every block done. -/
theorem le_runM (g : ℕ → Fin 1000 → ℝ) : ∀ (n q : ℕ), q ≤ n → ∀ r, g q r ≤ runM g n
  | 0, q, hq, r => by
    obtain rfl : q = 0 := Nat.le_zero.mp hq
    exact le_blockMax (g 0) r
  | n + 1, q, hq, r => by
    rcases Nat.lt_or_ge q (n + 1) with h | h
    · exact le_trans (le_runM g n q (Nat.lt_succ_iff.mp h) r) (le_max_left _ _)
    · obtain rfl : q = n + 1 := le_antisymm hq h
      exact le_trans (le_blockMax (g (n + 1)) r) (le_max_right _ _)

/-- The running maximum is one of the entries of the blocks done. -/
theorem runM_mem (g : ℕ → Fin 1000 → ℝ) : ∀ n : ℕ, ∃ q, q ≤ n ∧ ∃ r, runM g n = g q r
  | 0 => by
    obtain ⟨r, -, hr⟩ := Finset.exists_mem_eq_sup' (s := (Finset.univ : Finset (Fin 1000)))
      ⟨⟨0, by decide⟩, Finset.mem_univ _⟩ (g 0)
    exact ⟨0, le_rfl, r, hr⟩
  | n + 1 => by
    rcases max_choice (runM g n) (blockMax (g (n + 1))) with h | h
    · obtain ⟨q, hq, r, hr⟩ := runM_mem g n
      exact ⟨q, Nat.le_succ_of_le hq, r, by rw [runM, h, hr]⟩
    · obtain ⟨r, -, hr⟩ := Finset.exists_mem_eq_sup' (s := (Finset.univ : Finset (Fin 1000)))
        ⟨⟨0, by decide⟩, Finset.mem_univ _⟩ (g (n + 1))
      exact ⟨n + 1, le_rfl, r, by rw [runM, h]; exact hr⟩

/-- The closed form of the running sum: `exp (a − b) · exp (b − c) = exp (a − c)` at every step. -/
theorem runL_closed (g : ℕ → Fin 1000 → ℝ) :
    ∀ n : ℕ, runL g n = ∑ q ∈ Finset.range (n + 1), ∑ r, Real.exp (g q r - runM g n)
  | 0 => by rw [Finset.sum_range_one]; rfl
  | n + 1 => by
    rw [runL, runL_closed g n, Finset.sum_range_succ _ (n + 1), Finset.mul_sum]
    congr 1
    refine Finset.sum_congr rfl fun q _ => ?_
    rw [Finset.mul_sum]
    refine Finset.sum_congr rfl fun r _ => ?_
    rw [← Real.exp_add]
    congr 1
    ring

/-! ## The scan of the kernel is that recursion -/

/-- The logits of block `q` of half `i`, as real numbers. -/
def blk (z : Fin 100000 → ℝ) (i q : ℕ) (r : Fin 1000) : ℝ := z (cls (50 * i + q) r)

/-- After `n + 1` blocks the scan holds the running maximum and the running sum of the real recursion. -/
theorem scan_succ (X : Feat) (W : Wt) (b : Fin 1024) (z : Fin 100000 → ℝ) (hz : ∀ k, zK X W b k = (z k : EReal))
    (i : ℕ) : ∀ n : ℕ, scan X W b i (n + 1) = (((runM (blk z i) n : ℝ) : EReal), ((runL (blk z i) n : ℝ) : EReal))
  | 0 => by
    have hb : (fun r => zK X W b (cls (50 * i + 0) r)) = fun r => ((blk z i 0 r : ℝ) : EReal) :=
      funext fun r => hz _
    show (stM negInf (fun r => zK X W b (cls (50 * i + 0) r)),
      stL negInf zero (fun r => zK X W b (cls (50 * i + 0) r))) = _
    rw [hb, (step_bot (blk z i 0)).1, (step_bot (blk z i 0)).2]
    rfl
  | n + 1 => by
    have hb : (fun r => zK X W b (cls (50 * i + (n + 1)) r)) = fun r => ((blk z i (n + 1) r : ℝ) : EReal) :=
      funext fun r => hz _
    show (stM (scan X W b i (n + 1)).1 (fun r => zK X W b (cls (50 * i + (n + 1)) r)),
      stL (scan X W b i (n + 1)).1 (scan X W b i (n + 1)).2 (fun r => zK X W b (cls (50 * i + (n + 1)) r))) = _
    rw [scan_succ X W b z hz i n, hb]
    dsimp only
    rw [(step_coe (runM (blk z i) n) (runL (blk z i) n) (blk z i (n + 1))).1,
      (step_coe (runM (blk z i) n) (runL (blk z i) n) (blk z i (n + 1))).2]
    rfl

/-! ## The 50 blocks of a half, re-indexed as the half -/

/-- Block `q` of half `i` is the classes `1000 q … 1000 q + 999` of the half. -/
theorem cls_eq_half (i q : ℕ) (r : Fin 1000) (h : 1000 * q + r.val < 50000) :
    cls (50 * i + q) r = half i ⟨1000 * q + r.val, h⟩ := by
  apply Fin.ext
  show ((50 * i + q) * 1000 + r.val) % 100000 = (50000 * i + (1000 * q + r.val)) % 100000
  congr 1
  ring

/-- Class `j` of half `i` lies in block `j / 1000` of the half, at place `j % 1000`. -/
theorem half_eq_cls (i : ℕ) (j : Fin 50000) :
    half i j = cls (50 * i + j.val / 1000) ⟨j.val % 1000, Nat.mod_lt _ (by decide)⟩ := by
  apply Fin.ext
  show (50000 * i + j.val) % 100000 = ((50 * i + j.val / 1000) * 1000 + j.val % 1000) % 100000
  congr 1
  omega

/-- The running maximum after the 50 blocks is the largest logit of the half. -/
theorem runM_eq_halfMax (z : Fin 100000 → ℝ) (i : ℕ) : runM (blk z i) 49 = halfMax z i := by
  apply le_antisymm
  · obtain ⟨q, hq, r, hr⟩ := runM_mem (blk z i) 49
    rw [hr]
    have h : 1000 * q + r.val < 50000 := by have := r.isLt; omega
    show z (cls (50 * i + q) r) ≤ _
    rw [cls_eq_half i q r h]
    exact Finset.le_sup' (fun j => z (half i j)) (Finset.mem_univ _)
  · refine Finset.sup'_le _ _ fun j _ => ?_
    rw [half_eq_cls]
    exact le_runM (blk z i) 49 (j.val / 1000) (by have := j.isLt; omega) _

/-- A sum over the 50 blocks of a half is the sum over the half (`Fin 50 × Fin 1000 ≃ Fin 50000`). -/
theorem sum_blocks (i : ℕ) (F : Fin 100000 → ℝ) :
    ∑ q ∈ Finset.range 50, ∑ r : Fin 1000, F (cls (50 * i + q) r) = ∑ j : Fin 50000, F (half i j) := by
  rw [Finset.sum_range (fun q => ∑ r : Fin 1000, F (cls (50 * i + q) r)), ← Fintype.sum_prod_type']
  refine Fintype.sum_equiv (finProdFinEquiv.trans (finCongr (by norm_num))) _ _ fun p => ?_
  rw [cls_eq_half i p.1.val p.2 (by have := p.1.isLt; have := p.2.isLt; omega)]
  congr 2
  apply Fin.ext
  show 1000 * p.1.val + p.2.val = p.2.val + 1000 * p.1.val
  ring

/-- The running sum after the 50 blocks is the half's sum of exponentials. -/
theorem runL_eq_halfSum (z : Fin 100000 → ℝ) (i : ℕ) : runL (blk z i) 49 = halfSum z i := by
  rw [runL_closed, runM_eq_halfMax]
  exact sum_blocks i (fun k => Real.exp (z k - halfMax z i))

/-- After the 50 blocks of half `i` the scan holds the half's maximum and its sum of exponentials. -/
theorem scan_closed (X : Feat) (W : Wt) (b : Fin 1024) (z : Fin 100000 → ℝ) (hz : ∀ k, zK X W b k = (z k : EReal))
    (i : ℕ) (hi : i < 2) :
    mHalf X W b i = ((halfMax z i : ℝ) : EReal) ∧ lHalf X W b i = ((halfSum z i : ℝ) : EReal) := by
  have hs : scan X W b i 50 = (((runM (blk z i) 49 : ℝ) : EReal), ((runL (blk z i) 49 : ℝ) : EReal)) :=
    scan_succ X W b z hz i 49
  refine ⟨?_, ?_⟩
  · show (scan X W b i 50).1 = _
    rw [hs, ← runM_eq_halfMax z i]
  · show (scan X W b i 50).2 = _
    rw [hs, ← runL_eq_halfSum z i]

end Cert.ArcSpec

end
-- ==== Proof.Arc.Math.lean ====
/-
  The kernel's loss is the reference's loss.

  Both losses are pushed down to the real numbers, one definition of the specification at a time: the inputs are
  finite, every divisor is bounded away from zero, every logarithm is taken of a sum of exponentials (a positive
  number), so no operation ever leaves the reals.  Over the reals the two rows agree:

    * the two halves of the classes partition the classes, and rescaling a half's sum of exponentials from its own
      maximum to the common one is exp (a − b) · exp (z − a) = exp (z − b);
    * exchanging the summand of the label's column turns the sum over the plain logits into the sum over the
      reference's logits (which differ from the plain ones in that column only);
    * a + log ∑ exp (ℓ k − a) does not depend on a, so the kernel's shift (the maximum of the plain logits) and the
      reference's shift (the maximum of its own logits) give the same number.
-/
import proofs.«412743_j6253472383512_2_alg».proof.Proof.Arc.Spec
import proofs.«412743_j6253472383512_2_alg».proof.Proof.Arc.Scan
import Mathlib.Analysis.SpecialFunctions.Log.Basic
import Mathlib.Analysis.SpecialFunctions.Exp
import Mathlib.Algebra.BigOperators.Fin
import Mathlib.Data.EReal.Operations

noncomputable section

namespace Cert.ArcSpec

open Idealize.ShloMosaic

namespace LossMath

/-! ## Coercion from the reals: maxima, sums, folds of maxima -/

theorem real_coe_max (a b : ℝ) : ((max a b : ℝ) : EReal) = max (a : EReal) (b : EReal) :=
  (EReal.coe_strictMono.monotone).map_max

theorem real_coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many (at least one) real numbers, started from minus infinity, is a real number. -/
theorem real_fold_max {ι : Type} (s : Finset ι) (hs : s.Nonempty) (f : ι → ℝ) :
    ∃ M : ℝ, s.fold max (⊥ : EReal) (fun i => (f i : EReal)) = (M : EReal) := by
  induction hs using Finset.Nonempty.cons_induction with
  | singleton a => exact ⟨f a, by simp⟩
  | cons a s ha hs ih =>
    obtain ⟨M, hM⟩ := ih
    exact ⟨max (f a) M, by rw [Finset.fold_cons, hM, real_coe_max]⟩

/-- A family of real numbers, read in the extended reals. -/
abbrev up {A B : Type} (x : A → B → ℝ) : A → B → EReal := fun a b => (x a b : EReal)

theorem exists_up {A B : Type} (X : A → B → EReal) (hX : Fin2 X) : ∃ x : A → B → ℝ, X = up x :=
  ⟨fun a b => (X a b).toReal,
    funext fun a => funext fun b => (EReal.coe_toReal (hX a b).1 (hX a b).2).symm⟩

/-! ## The literals -/

theorem negInf_eq : negInf = ⊥ := by simp [negInf, Ideal.ofBits, Ideal.ieee]
theorem zero_eq : zero = ((0 : ℝ) : EReal) := by simp [zero, Ideal.ofBits, Ideal.ieee]
theorem one_eq : one = ((1 : ℝ) : EReal) := by simp [one, Ideal.ofBits, Ideal.ieee, -EReal.coe_mul]; norm_num
theorem s30_eq : s30 = ((30 : ℝ) : EReal) := by simp [s30, Ideal.ofBits, Ideal.ieee, -EReal.coe_mul]; norm_num
theorem nB_eq : nB = ((1024 : ℝ) : EReal) := by simp [nB, Ideal.ofBits, Ideal.ieee, -EReal.coe_mul]; norm_num

theorem eps_ex : ∃ e : ℝ, 0 < e ∧ eps = (e : EReal) := by simp [eps, Ideal.ofBits, Ideal.ieee, -EReal.coe_mul]
theorem cosM_ex : ∃ r : ℝ, cosM = (r : EReal) := by simp [cosM, Ideal.ofBits, Ideal.ieee, -EReal.coe_mul]
theorem sinM_ex : ∃ r : ℝ, sinM = (r : EReal) := by simp [sinM, Ideal.ofBits, Ideal.ieee, -EReal.coe_mul]
theorem th_ex : ∃ r : ℝ, th = (r : EReal) := by
  simp [th, Ideal.ofBits, Ideal.ieee, -EReal.coe_mul]
  exact ⟨_, (EReal.coe_neg _).symm⟩
theorem mm_ex : ∃ r : ℝ, mm = (r : EReal) := by simp [mm, Ideal.ofBits, Ideal.ieee, -EReal.coe_mul]

def epsR : ℝ := Classical.choose eps_ex
def cosMR : ℝ := Classical.choose cosM_ex
def sinMR : ℝ := Classical.choose sinM_ex
def thR : ℝ := Classical.choose th_ex
def mmR : ℝ := Classical.choose mm_ex

theorem epsR_pos : 0 < epsR := (Classical.choose_spec eps_ex).1
theorem eps_eq : eps = (epsR : EReal) := (Classical.choose_spec eps_ex).2
theorem cosM_eq : cosM = (cosMR : EReal) := Classical.choose_spec cosM_ex
theorem sinM_eq : sinM = (sinMR : EReal) := Classical.choose_spec sinM_ex
theorem th_eq : th = (thR : EReal) := Classical.choose_spec th_ex
theorem mm_eq : mm = (mmR : EReal) := Classical.choose_spec mm_ex

/-! ## Rows of unit length, over the reals -/

def rNrm (v : Fin 512 → ℝ) : ℝ := max (Real.sqrt (∑ d, v d * v d)) epsR

theorem rNrm_pos (v : Fin 512 → ℝ) : 0 < rNrm v := lt_of_lt_of_le epsR_pos (le_max_right _ _)

def rUnit (v : Fin 512 → ℝ) (d : Fin 512) : ℝ := v d * (1 / rNrm v)

theorem nrm_coe (v : Fin 512 → ℝ) : nrm (fun d => (v d : EReal)) = (rNrm v : EReal) := by
  have h0 : ¬ (∑ d, v d * v d) < 0 := not_lt.2 (Finset.sum_nonneg fun d _ => mul_self_nonneg (v d))
  unfold nrm rNrm
  simp only [← EReal.coe_mul, ← real_coe_sum]
  rw [Ideal.sqrt_coe, if_neg h0, eps_eq, ← real_coe_max]

theorem unit_coe (v : Fin 512 → ℝ) (d : Fin 512) : unit (fun d => (v d : EReal)) d = (rUnit v d : EReal) := by
  unfold unit rUnit
  rw [nrm_coe, Ideal.div_coe (rNrm_pos v).ne', ← EReal.coe_mul]

/-! ## The cosines and the plain logits -/

section
variable (x : Fin 1024 → Fin 512 → ℝ) (w : Fin 100000 → Fin 512 → ℝ)

def rCos (b : Fin 1024) (k : Fin 100000) : ℝ := ∑ d, rUnit (x b) d * rUnit (w k) d

theorem cosR_coe (b : Fin 1024) (k : Fin 100000) : cosR (up x) (up w) b k = (rCos x w b k : EReal) := by
  unfold cosR rCos
  rw [real_coe_sum]
  refine Finset.sum_congr rfl fun d _ => ?_
  rw [EReal.coe_mul, ← unit_coe, ← unit_coe]

/-- The kernel's logits: the cosines scaled by 30. -/
def rZ (b : Fin 1024) : Fin 100000 → ℝ := fun k => 30 * rCos x w b k

theorem zK_coe (b : Fin 1024) (k : Fin 100000) : zK (up x) (up w) b k = (rZ x w b k : EReal) := by
  unfold zK xs rZ rCos
  rw [Finset.mul_sum, real_coe_sum]
  refine Finset.sum_congr rfl fun d _ => ?_
  rw [← mul_assoc, EReal.coe_mul, EReal.coe_mul, ← unit_coe, ← unit_coe, s30_eq]

end

/-! ## The margin -/

def rPhi (c : ℝ) : ℝ := if thR < c then c * cosMR - Real.sqrt (max (1 - c * c) 0) * sinMR else c - mmR

theorem sine_coe (c : ℝ) : sine (c : EReal) = (Real.sqrt (max (1 - c * c) 0) : EReal) := by
  unfold sine
  rw [one_eq, zero_eq, ← EReal.coe_mul, ← EReal.coe_sub, ← real_coe_max, Ideal.sqrt_coe,
    if_neg (not_lt.2 (le_max_right _ _))]

theorem phi_coe (c : ℝ) : phi (c : EReal) = (rPhi c : EReal) := by
  unfold phi rPhi
  rw [sine_coe, th_eq, cosM_eq, sinM_eq, mm_eq]
  by_cases h : thR < c
  · rw [if_pos h, if_pos (EReal.coe_lt_coe_iff.2 h), ← EReal.coe_mul, ← EReal.coe_mul, ← EReal.coe_sub]
  · rw [if_neg h, if_neg (mt EReal.coe_lt_coe_iff.1 h), ← EReal.coe_sub]

/-! ## The label's column -/

theorem label_iff (T : Lab) (hT : InRange T) (b : Fin 1024) (k : Fin 100000) :
    T b = BitVec.ofNat 32 k.val ↔ k = tIdx T b := by
  have hk := k.isLt
  have hb := (T b).isLt
  have ht := hT b
  constructor
  · intro h
    apply Fin.ext
    show k.val = (T b).toNat % 100000
    rw [h, BitVec.toNat_ofNat]
    omega
  · intro h
    have hv : k.val = (T b).toNat % 100000 := congrArg Fin.val h
    apply BitVec.eq_of_toNat_eq
    rw [BitVec.toNat_ofNat]
    omega

/-! ## The reference's row -/

section
variable (x : Fin 1024 → Fin 512 → ℝ) (w : Fin 100000 → Fin 512 → ℝ) (T : Lab)

/-- The reference's logits: the label's column carries the margin value. -/
def rLogit (b : Fin 1024) (k : Fin 100000) : ℝ :=
  (if k = tIdx T b then rPhi (rCos x w b k) else rCos x w b k) * 30

theorem logitR_coe (hT : InRange T) (b : Fin 1024) (k : Fin 100000) :
    logitR (up x) (up w) T b k = (rLogit x w T b k : EReal) := by
  unfold logitR rLogit
  rw [cosR_coe, phi_coe, s30_eq]
  by_cases h : k = tIdx T b
  · rw [if_pos h, if_pos ((label_iff T hT b k).2 h), EReal.coe_mul]
  · rw [if_neg h, if_neg (mt (label_iff T hT b k).1 h), EReal.coe_mul]

theorem rowMaxR_coe (hT : InRange T) (b : Fin 1024) : ∃ M : ℝ, rowMaxR (up x) (up w) T b = (M : EReal) := by
  unfold rowMaxR
  rw [negInf_eq, show logitR (up x) (up w) T b = fun k => ((rLogit x w T b k : ℝ) : EReal) from
    funext fun k => logitR_coe x w T hT b k]
  exact real_fold_max _ ⟨⟨0, by decide⟩, Finset.mem_univ _⟩ _

/-- The log-softmax at column t of the logits ℓ, every logit shifted by M. -/
def rLogp (ℓ : Fin 100000 → ℝ) (t : Fin 100000) (M : ℝ) : ℝ :=
  (ℓ t - M) - Real.log (∑ k, Real.exp (ℓ k - M))

theorem sum_exp_pos (ℓ : Fin 100000 → ℝ) (M : ℝ) : 0 < ∑ k, Real.exp (ℓ k - M) :=
  Finset.sum_pos (fun k _ => Real.exp_pos _) ⟨⟨0, by decide⟩, Finset.mem_univ _⟩

theorem logpR_coe (hT : InRange T) (b : Fin 1024) :
    ∃ M : ℝ, logpR (up x) (up w) T b (tIdx T b) = (rLogp (rLogit x w T b) (tIdx T b) M : EReal) := by
  obtain ⟨M, hM⟩ := rowMaxR_coe x w T hT b
  refine ⟨M, ?_⟩
  unfold logpR rLogp
  rw [hM]
  simp only [logitR_coe x w T hT, ← EReal.coe_sub, Ideal.exp_coe, ← real_coe_sum]
  rw [Ideal.log_coe, if_neg (not_le.2 (sum_exp_pos _ _)), ← EReal.coe_sub]

end

/-! ## The two halves of the classes -/

theorem half_zero (r : Fin 50000) : half 0 r = Fin.castAdd 50000 r := by
  apply Fin.ext
  show (50000 * 0 + r.val) % 100000 = r.val
  have := r.isLt
  omega

theorem half_one (r : Fin 50000) : half 1 r = Fin.natAdd 50000 r := by
  apply Fin.ext
  show (50000 * 1 + r.val) % 100000 = 50000 + r.val
  have := r.isLt
  omega

/-- A sum over the classes is the sum over the first half plus the sum over the second. -/
theorem sum_halves (g : Fin 100000 → ℝ) :
    ∑ k, g k = ∑ r : Fin 50000, g (half 0 r) + ∑ r : Fin 50000, g (half 1 r) := by
  simp only [half_zero, half_one]
  exact Fin.sum_univ_add (a := 50000) (b := 50000) g

/-- Each half's sum of exponentials, rescaled from the half's own shift to a common one, and the two added:
    the sum over all classes at the common shift. -/
theorem halves_merge (z : Fin 100000 → ℝ) (m : ℝ) :
    Real.exp (halfMax z 0 - m) * halfSum z 0 + Real.exp (halfMax z 1 - m) * halfSum z 1
      = ∑ k, Real.exp (z k - m) := by
  unfold halfSum
  have e : ∀ (i : ℕ) (r : Fin 50000),
      Real.exp (halfMax z i - m) * Real.exp (z (half i r) - halfMax z i) = Real.exp (z (half i r) - m) := by
    intro i r
    rw [← Real.exp_add]
    exact congrArg Real.exp (by ring)
  rw [Finset.mul_sum, Finset.mul_sum, sum_halves fun k => Real.exp (z k - m)]
  simp only [e]

/-! ## The kernel's row -/

section
variable (x : Fin 1024 → Fin 512 → ℝ) (w : Fin 100000 → Fin 512 → ℝ) (T : Lab)

/-- The kernel's shift: the larger of the two halves' maxima. -/
def rM (b : Fin 1024) : ℝ := max (halfMax (rZ x w b) 0) (halfMax (rZ x w b) 1)

theorem mHalf_coe (b : Fin 1024) (i : ℕ) (hi : i < 2) :
    mHalf (up x) (up w) b i = (halfMax (rZ x w b) i : EReal) :=
  (scan_closed (up x) (up w) b (rZ x w b) (fun k => zK_coe x w b k) i hi).1

theorem lHalf_coe (b : Fin 1024) (i : ℕ) (hi : i < 2) :
    lHalf (up x) (up w) b i = (halfSum (rZ x w b) i : EReal) :=
  (scan_closed (up x) (up w) b (rZ x w b) (fun k => zK_coe x w b k) i hi).2

theorem mTot_coe (b : Fin 1024) : mTot (up x) (up w) b = (rM x w b : EReal) := by
  unfold mTot rM
  rw [mHalf_coe x w b 0 (by decide), mHalf_coe x w b 1 (by decide), real_coe_max]

theorem lTot_coe (b : Fin 1024) :
    lTot (up x) (up w) b = ((∑ k, Real.exp (rZ x w b k - rM x w b) : ℝ) : EReal) := by
  unfold lTot
  rw [mTot_coe, mHalf_coe x w b 0 (by decide), mHalf_coe x w b 1 (by decide),
    lHalf_coe x w b 0 (by decide), lHalf_coe x w b 1 (by decide), ← EReal.coe_sub, ← EReal.coe_sub,
    Ideal.exp_coe, Ideal.exp_coe, ← EReal.coe_mul, ← EReal.coe_mul, ← EReal.coe_add, halves_merge]

theorem sT_coe (b : Fin 1024) : sT (up x) (up w) T b = (rZ x w b (tIdx T b) : EReal) :=
  zK_coe x w b (tIdx T b)

theorem sPhi_coe (b : Fin 1024) :
    sPhi (up x) (up w) T b = ((30 * rPhi (rCos x w b (tIdx T b)) : ℝ) : EReal) := by
  unfold sPhi
  rw [sT_coe, s30_eq, Ideal.div_coe (by norm_num : (30 : ℝ) ≠ 0), ← EReal.coe_mul, phi_coe, ← EReal.coe_mul]
  have h : rZ x w b (tIdx T b) * (1 / 30) = rCos x w b (tIdx T b) := by unfold rZ; ring
  rw [h]

/-- Exchanging the label's summand: the sum over the plain logits becomes the sum over the reference's logits. -/
theorem swap_label (b : Fin 1024) (m : ℝ) :
    (∑ k, Real.exp (rZ x w b k - m)) + Real.exp (30 * rPhi (rCos x w b (tIdx T b)) - m)
        - Real.exp (rZ x w b (tIdx T b) - m)
      = ∑ k, Real.exp (rLogit x w T b k - m) := by
  classical
  have h1 := Finset.add_sum_erase Finset.univ (fun k => Real.exp (rZ x w b k - m)) (Finset.mem_univ (tIdx T b))
  have h2 := Finset.add_sum_erase Finset.univ (fun k => Real.exp (rLogit x w T b k - m)) (Finset.mem_univ (tIdx T b))
  have h3 : ∑ k ∈ Finset.univ.erase (tIdx T b), Real.exp (rLogit x w T b k - m)
      = ∑ k ∈ Finset.univ.erase (tIdx T b), Real.exp (rZ x w b k - m) := by
    refine Finset.sum_congr rfl fun k hk => ?_
    have hne : k ≠ tIdx T b := (Finset.mem_erase.1 hk).1
    unfold rLogit rZ
    rw [if_neg hne, mul_comm]
  have h4 : rLogit x w T b (tIdx T b) = 30 * rPhi (rCos x w b (tIdx T b)) := by
    unfold rLogit
    rw [if_pos rfl, mul_comm]
  rw [h4, h3] at h2
  linarith

theorem lTrue_coe (b : Fin 1024) :
    lTrue (up x) (up w) T b = ((∑ k, Real.exp (rLogit x w T b k - rM x w b) : ℝ) : EReal) := by
  unfold lTrue
  rw [lTot_coe, sPhi_coe, sT_coe, mTot_coe, ← EReal.coe_sub, ← EReal.coe_sub, Ideal.exp_coe, Ideal.exp_coe,
    ← EReal.coe_add, ← EReal.coe_sub, swap_label]

/-- The kernel's row, over the reals. -/
def rLossRow (b : Fin 1024) : ℝ :=
  (rM x w b + Real.log (∑ k, Real.exp (rLogit x w T b k - rM x w b))) - 30 * rPhi (rCos x w b (tIdx T b))

theorem lossRow_coe (b : Fin 1024) : lossRow (up x) (up w) T b = (rLossRow x w T b : EReal) := by
  unfold lossRow rLossRow
  rw [lTrue_coe, mTot_coe, sPhi_coe, Ideal.log_coe, if_neg (not_le.2 (sum_exp_pos _ _)), ← EReal.coe_add,
    ← EReal.coe_sub]

end

/-! ## The identity of the rows over the reals -/

/-- The logarithm of a sum of shifted exponentials: the shift comes out. -/
theorem log_sum_shift (ℓ : Fin 100000 → ℝ) (a : ℝ) :
    Real.log (∑ k, Real.exp (ℓ k - a)) = Real.log (∑ k, Real.exp (ℓ k)) - a := by
  have h : ∑ k, Real.exp (ℓ k - a) = (∑ k, Real.exp (ℓ k)) * Real.exp (-a) := by
    rw [Finset.sum_mul]
    refine Finset.sum_congr rfl fun k _ => ?_
    rw [← Real.exp_add, sub_eq_add_neg]
  have hpos : 0 < ∑ k, Real.exp (ℓ k) := by simpa using sum_exp_pos ℓ 0
  rw [h, Real.log_mul hpos.ne' (Real.exp_ne_zero _), Real.log_exp, sub_eq_add_neg]

theorem row_identity (x : Fin 1024 → Fin 512 → ℝ) (w : Fin 100000 → Fin 512 → ℝ) (T : Lab) (b : Fin 1024)
    (M : ℝ) : rLossRow x w T b = - rLogp (rLogit x w T b) (tIdx T b) M := by
  have h4 : rLogit x w T b (tIdx T b) = 30 * rPhi (rCos x w b (tIdx T b)) := by
    unfold rLogit
    rw [if_pos rfl, mul_comm]
  unfold rLossRow rLogp
  rw [log_sum_shift _ (rM x w b), log_sum_shift _ M, h4]
  ring

end LossMath

/-! ## The two losses -/

theorem KLoss_eq_RLoss (X : Feat) (W : Wt) (T : Lab) (hX : Fin2 X) (hW : Fin2 W) (hT : InRange T) :
    KLoss X W T = RLoss X W T := by
  obtain ⟨x, rfl⟩ := LossMath.exists_up X hX
  obtain ⟨w, rfl⟩ := LossMath.exists_up W hW
  choose M hM using fun b => LossMath.logpR_coe x w T hT b
  unfold KLoss RLoss
  simp only [LossMath.lossRow_coe, hM, ← LossMath.real_coe_sum]
  rw [LossMath.nB_eq, Ideal.div_coe (by norm_num : (1024 : ℝ) ≠ 0), Ideal.div_coe (by norm_num : (1024 : ℝ) ≠ 0),
    ← EReal.coe_mul, ← EReal.coe_mul, ← EReal.coe_neg]
  congr 1
  rw [← neg_mul, ← Finset.sum_neg_distrib]
  congr 1
  exact Finset.sum_congr rfl fun b _ => LossMath.row_identity x w T b (M b)

end Cert.ArcSpec

end
-- ==== Proof.Arc.Pre.lean ====
/-
  The precondition, read back. The printed predicate is the conjunction of four `all`s: every feature and every class
  weight has absolute value below +∞, and every label word is at least 0 and below 100000 as a signed number. An
  extended real whose absolute value `max x (-x)` is below `⊤` is neither `⊤` nor `⊥`; a 32-bit word in [0, 100000)
  signed is below 100000 unsigned.
-/
import proofs.«412743_j6253472383512_2_alg».proof.Proof.Arc.Coords
import proofs.«412743_j6253472383512_2_alg».proof.Pre_finite_inputs
import proofs.«412743_j6253472383512_2_alg».proof.Proof.Gen.Pre_finite_inputs
import Idealize.ShloMosaic.Lib.ReduceAll
import Idealize.ShloMosaic.Lib.StableHlo.Predicate

noncomputable section

namespace Cert.ArcSpec

open Idealize.ShloMosaic Idealize.ShloMosaic.ValueIdx

/-- The shape of a scalar has one index. -/
instance : Subsingleton Cert.Pre_finite_inputs.S_.Idx := ⟨fun a b => funext fun d => d.elim0⟩

/-- The word 0x7F800000 denotes +∞. -/
theorem posInf_eq : Ideal.ofBits .f32 0x7F800000#32 = (⊤ : EReal) := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : x ≠ ⊤ ∧ x ≠ ⊥ := by
  rw [posInf_eq] at h
  induction x using EReal.rec with
  | bot => simp [Ideal.cmp] at h
  | top => simp [Ideal.cmp] at h
  | coe r => exact ⟨EReal.coe_ne_top r, EReal.coe_ne_bot r⟩

/-- A word that is at least 0 and below 100000 as a signed number is below 100000 as an unsigned one: a word with the
    top bit set is negative, so the first compare leaves the words below 2^31, where both readings agree. -/
theorem toNat_lt_of_signed (w : BitVec 32) (h0 : IntOp.cmpi .sge w 0#32 = 1#1)
    (h1 : IntOp.cmpi .slt w 100000#32 = 1#1) : w.toNat < 100000 := by
  have g0 : (0#32 : BitVec 32).toInt ≤ w.toInt := by
    simpa [IntOp.cmpi, StableHlo.Predicate.ofBool_eq_one_iff, BitVec.sle] using h0
  have g1 : w.toInt < (100000#32 : BitVec 32).toInt := by
    simpa [IntOp.cmpi, StableHlo.Predicate.ofBool_eq_one_iff, BitVec.slt] using h1
  have c0 : (0#32 : BitVec 32).toInt = 0 := by decide
  have c1 : (100000#32 : BitVec 32).toInt = 100000 := by decide
  have hw := BitVec.toInt_eq_toNat_cond w
  have hlt := w.isLt
  rw [c0] at g0
  rw [c1] at g1
  split at hw <;> omega

/-- The precondition decoded: features and weights are real numbers, labels name classes. -/
theorem of_pre [Cert.Pre_finite_inputs.Facts]
    (a0 : FVec Ideal Cert.Pre_finite_inputs.S1024x512 .f32) (a1 : FVec Ideal Cert.Pre_finite_inputs.S100000x512 .f32)
    (a2 : IVec Cert.Pre_finite_inputs.S1024 32)
    (h : Cert.Pre_finite_inputs.fn (F := Ideal) a0 a1 a2 = fun _ => 1#1) :
    Cert.ArcSpec.Fin2 (Cert.ArcSpec.featOf a0) ∧ Cert.ArcSpec.Fin2 (Cert.ArcSpec.wtOf a1)
      ∧ Cert.ArcSpec.InRange (Cert.ArcSpec.labOf a2) := by
  have e := congrFun h ValueIdx.ix0
  dsimp only [Cert.Pre_finite_inputs.fn, Cert.Pre_finite_inputs.fn_part1] at e
  simp only [andi, IntOp.andi_eq_one] at e
  obtain ⟨⟨⟨e3, e7⟩, e11⟩, e15⟩ := e
  refine ⟨fun b d => ?_, fun k d => ?_, fun b => ?_⟩
  · exact real_of_abs_lt _ (Host.reduce_andi_all _ _ _ _ _ e3 (ix2 b d))
  · exact real_of_abs_lt _ (Host.reduce_andi_all _ _ _ _ _ e7 (ix2 k d))
  · exact toNat_lt_of_signed _ (Host.reduce_andi_all _ _ _ _ _ e11 (ix1 b))
      (Host.reduce_andi_all _ _ _ _ _ e15 (ix1 b))

end Cert.ArcSpec

end
-- ==== Proof.lean ====
/-
  The five claims of the certificate.

  The kernel keeps, over each half of the 100000 classes, a running maximum and a running sum of exponentials of the
  scaled cosines (a scan over 50 blocks of 1000 classes), merges the two halves, and corrects the one summand of the
  label's column from the plain cosine to the margin value; the reference replaces the label's column first and takes
  the log-softmax of whole rows. With finite features and weights and every label a class the two means of row losses
  are one real number (`KLoss_eq_RLoss`): the scan's sum is the sum over the half of `exp (z − max)`, replacing one
  summand of a finite sum is adding the new and subtracting the old, and `log (∑ exp (z − a)) + a` does not depend on `a`.

  The two kernel programs' frames are the run of the one kernel call between the host lines before and after it; the
  reference's frame is its run with the result dropped; the idealization rewrote nothing.
-/
import proofs.«412743_j6253472383512_2_alg».proof.Defs
import proofs.«412743_j6253472383512_2_alg».proof.Proof.Gen.Kernel
import proofs.«412743_j6253472383512_2_alg».proof.Proof.Gen.KernelIdeal
import proofs.«412743_j6253472383512_2_alg».proof.Proof.Gen.ReferenceIdeal
import proofs.«412743_j6253472383512_2_alg».proof.Proof.Gen.Pre_finite_inputs
import proofs.«412743_j6253472383512_2_alg».proof.Proof.K.Frame
import proofs.«412743_j6253472383512_2_alg».proof.Proof.KI.Frame
import proofs.«412743_j6253472383512_2_alg».proof.Proof.Arc.KernelValue
import proofs.«412743_j6253472383512_2_alg».proof.Proof.Arc.RefRun
import proofs.«412743_j6253472383512_2_alg».proof.Proof.Arc.RefLogp
import proofs.«412743_j6253472383512_2_alg».proof.Proof.Arc.RefValue
import proofs.«412743_j6253472383512_2_alg».proof.Proof.Arc.Math
import proofs.«412743_j6253472383512_2_alg».proof.Proof.Arc.Pre
import Idealize.ShloMosaic.Adequacy
import Idealize.ShloMosaic.Init

noncomputable section

namespace Cert.Proof

open Idealize.ShloMosaic Idealize.ShloMosaic.TcCoe Idealize.SL.Sem Cert.ArcSpec

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run_stage (F := Ideal) m ρ)

/-- From memories agreeing on the arguments both programs end at the one mean of row losses. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hp := fun c => @Cert.ArcSpec.of_pre Cert.Pre_finite_inputs.Gen.facts _ _ _ (hpre c)
  refine ⟨fun c => (fun _ => KLoss (Cert.KernelIdeal.KValue.X m c) (Cert.KernelIdeal.KValue.W m c) (Cert.KernelIdeal.KValue.Tl m c)),
    Cert.KernelIdeal.KValue.run m ρ (fun c => (hp c).2.2), ?_⟩
  have hT' : ∀ c : Dev Cert.ReferenceIdeal.nD, InRange (labOf (m' ((c.tc : Thread Cert.ReferenceIdeal.nD Cert.ReferenceIdeal.τ).loc Cert.ReferenceIdeal.main_arg2))) := fun c => by
    rw [(hagree c).2.2]; exact (hp c).2.2
  refine (θ_run Cert.ReferenceIdeal.defs _ _).mono (fun r h c => ⟨(h c).1.trans ?_, (h c).2⟩)
    (Cert.ReferenceIdeal.RefValue.ref_run m' ρ' (Cert.ReferenceIdeal.RefRun.run_stage (F := Ideal) m' ρ')
      (fun c b k => Cert.ReferenceIdeal.RefLogp.logp_apply _ _ _ b k) hT')
  rw [(hagree c).1, (hagree c).2.1, (hagree c).2.2]
  exact funext fun _ => (KLoss_eq_RLoss _ _ _ (hp c).1 (hp c).2.1 (hp c).2.2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
